-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S11008x4096 : Shape := ⟨2, ![11008, 4096]⟩
abbrev S11008x1 : Shape := ⟨2, ![11008, 1]⟩
abbrev S4096x11008 : Shape := ⟨2, ![4096, 11008]⟩
abbrev S4096x1 : Shape := ⟨2, ![4096, 1]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S11008x1 : S_.BroadcastsInDim S11008x1 (![] : Fin 0 → Fin S11008x1.rank)
  reducesTo_S11008x1_S_d0_1 : S11008x1.ReducesTo [0, 1] S_
  bcast_S_S4096x1 : S_.BroadcastsInDim S4096x1 (![] : Fin 0 → Fin S4096x1.rank)
  reducesTo_S4096x1_S_d0_1 : S4096x1.ReducesTo [0, 1] S_

variable [Facts]

def fn_part1 {F : FTy → Type} [FloatOps F] (main_v13 : IVec S_ 1) (main_v16 : IVec S4096x1 1) : IVec S_ 1 :=
  let main_c_5 : IVec S_ 1 := constantI S_ 1 1#1
  let main_v17 : IVec S_ 1 := (fun x v => Host.reduce IntOp.andi x v reducesTo_S4096x1_S_d0_1 h_S_) main_v16 main_c_5
  let main_v18 : IVec S_ 1 := andi main_v13 main_v17
  main_v18

def fn {F : FTy → Type} [FloatOps F] (main_arg0 : FVec F S4x2048x4096 .f32) (main_arg1 : IVec S11008x4096 32) (main_arg2 : FVec F S11008x1 .f32) (main_arg3 : IVec S11008x4096 32) (main_arg4 : FVec F S11008x1 .f32) (main_arg5 : IVec S4096x11008 32) (main_arg6 : FVec F S4096x1 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S11008x1 .f32 := Host.absf main_arg2
  let main_cst_0 : FVec F S_ .f32 := constant S_ .f32 0x7F800000#32
  let main_v5 : FVec F S11008x1 .f32 := broadcastInDim S11008x1 ![] bcast_S_S11008x1 main_cst_0
  let main_v6 : IVec S11008x1 1 := cmpf .olt main_v4 main_v5
  let main_c_1 : IVec S_ 1 := constantI S_ 1 1#1
  let main_v7 : IVec S_ 1 := (fun x v => Host.reduce IntOp.andi x v reducesTo_S11008x1_S_d0_1 h_S_) main_v6 main_c_1
  let main_v8 : IVec S_ 1 := andi main_v3 main_v7
  let main_v9 : FVec F S11008x1 .f32 := Host.absf main_arg4
  let main_cst_2 : FVec F S_ .f32 := constant S_ .f32 0x7F800000#32
  let main_v10 : FVec F S11008x1 .f32 := broadcastInDim S11008x1 ![] bcast_S_S11008x1 main_cst_2
  let main_v11 : IVec S11008x1 1 := cmpf .olt main_v9 main_v10
  let main_c_3 : IVec S_ 1 := constantI S_ 1 1#1
  let main_v12 : IVec S_ 1 := (fun x v => Host.reduce IntOp.andi x v reducesTo_S11008x1_S_d0_1 h_S_) main_v11 main_c_3
  let main_v13 : IVec S_ 1 := andi main_v8 main_v12
  let main_v14 : FVec F S4096x1 .f32 := Host.absf main_arg6
  let main_cst_4 : FVec F S_ .f32 := constant S_ .f32 0x7F800000#32
  let main_v15 : FVec F S4096x1 .f32 := broadcastInDim S4096x1 ![] bcast_S_S4096x1 main_cst_4
  let main_v16 : IVec S4096x1 1 := cmpf .olt main_v14 main_v15
  fn_part1 (F := F) main_v13 main_v16
-- ==== Kernel.lean ====
abbrev S4x2048x4096 : Shape := ⟨3, ![4, 2048, 4096]⟩
abbrev S11008x4096 : Shape := ⟨2, ![11008, 4096]⟩
abbrev S11008x1 : Shape := ⟨2, ![11008, 1]⟩
abbrev S4096x11008 : Shape := ⟨2, ![4096, 11008]⟩
abbrev S4096x1 : Shape := ⟨2, ![4096, 1]⟩
abbrev S8192x4096 : Shape := ⟨2, ![8192, 4096]⟩
abbrev S8192x11008 : Shape := ⟨2, ![8192, 11008]⟩
abbrev S1024x1024 : Shape := ⟨2, ![1024, 1024]⟩
abbrev S256x1024 : Shape := ⟨2, ![256, 1024]⟩
abbrev S256x1 : Shape := ⟨2, ![256, 1]⟩
abbrev S1024x256 : Shape := ⟨2, ![1024, 256]⟩
abbrev S512x256 : Shape := ⟨2, ![512, 256]⟩
abbrev S512x1 : Shape := ⟨2, ![512, 1]⟩
abbrev S1024x512 : Shape := ⟨2, ![1024, 512]⟩
abbrev S256x512 : Shape := ⟨2, ![256, 512]⟩

abbrev nBuf : Space → Nat
  | .hbm => 12
  | .vmem => 23
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .i32⟩
  | .hbm, ⟨2, _⟩ => ⟨S11008x1, .f32⟩
  | .hbm, ⟨3, _⟩ => ⟨S11008x4096, .i32⟩
  | .hbm, ⟨4, _⟩ => ⟨S11008x1, .f32⟩
  | .hbm, ⟨5, _⟩ => ⟨S4096x11008, .i32⟩
  | .hbm, ⟨6, _⟩ => ⟨S4096x1, .f32⟩
  | .hbm, ⟨7, _⟩ => ⟨S8192x4096, .f32⟩
  | .hbm, ⟨8, _⟩ => ⟨S8192x4096, .bf16⟩
  | .hbm, ⟨9, _⟩ => ⟨S8192x11008, .bf16⟩
  | .hbm, ⟨10, _⟩ => ⟨S8192x4096, .f32⟩
  | .hbm, ⟨11, _⟩ => ⟨S4x2048x4096, .f32⟩
  | .local _ .vmem, ⟨0, _⟩ => ⟨S1024x1024, .bf16⟩
  | .local _ .vmem, ⟨1, _⟩ => ⟨S1024x1024, .bf16⟩
  | .local _ .vmem, ⟨2, _⟩ => ⟨S256x1024, .i32⟩
  | .local _ .vmem, ⟨3, _⟩ => ⟨S256x1024, .i32⟩
  | .local _ .vmem, ⟨4, _⟩ => ⟨S256x1, .f32⟩
  | .local _ .vmem, ⟨5, _⟩ => ⟨S256x1, .f32⟩
  | .local _ .vmem, ⟨6, _⟩ => ⟨S256x1024, .i32⟩
  | .local _ .vmem, ⟨7, _⟩ => ⟨S256x1024, .i32⟩
  | .local _ .vmem, ⟨8, _⟩ => ⟨S256x1, .f32⟩
  | .local _ .vmem, ⟨9, _⟩ => ⟨S256x1, .f32⟩
  | .local _ .vmem, ⟨10, _⟩ => ⟨S1024x256, .bf16⟩
  | .local _ .vmem, ⟨11, _⟩ => ⟨S1024x256, .bf16⟩
  | .local _ .vmem, ⟨12, _⟩ => ⟨S1024x256, .f32⟩
  | .local _ .vmem, ⟨13, _⟩ => ⟨S1024x256, .f32⟩
  | .local _ .vmem, ⟨14, _⟩ => ⟨S1024x256, .bf16⟩
  | .local _ .vmem, ⟨15, _⟩ => ⟨S1024x256, .bf16⟩
  | .local _ .vmem, ⟨16, _⟩ => ⟨S512x256, .i32⟩
  | .local _ .vmem, ⟨17, _⟩ => ⟨S512x256, .i32⟩
  | .local _ .vmem, ⟨18, _⟩ => ⟨S512x1, .f32⟩
  | .local _ .vmem, ⟨19, _⟩ => ⟨S512x1, .f32⟩
  | .local _ .vmem, ⟨20, _⟩ => ⟨S1024x512, .f32⟩
  | .local _ .vmem, ⟨21, _⟩ => ⟨S1024x512, .f32⟩
  | .local _ .vmem, ⟨22, _⟩ => ⟨S1024x512, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19

abbrev nD : Nat := 1
abbrev τ : Topo := Topo.v7x

variable {F : FTy → Type} [FloatOps F]

abbrev grid0 : Pipeline.Grid := ⟨3, ![8, 43, 4], ![false, false, false]⟩

def k0_cond2 (i : grid0.Coords) : BitVec 1 :=
  let arg2 : BitVec 32 := BitVec.ofNat 32 (i 2).val
  let c3_i32 : BitVec 32 := 3#32
  let v31 : BitVec 1 := Scalar.cmpi .eq arg2 c3_i32
  let v32 : BitVec 32 := Scalar.extui v31
  let c0_i32_19 : BitVec 32 := 0#32
  let v33 : BitVec 1 := Scalar.cmpi .ne v32 c0_i32_19
  v33

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S256x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev grid1 : Pipeline.Grid := ⟨3, ![8, 8, 43], ![false, false, false]⟩

def k1_cond2 (i : grid1.Coords) : BitVec 1 :=
  let arg2 : BitVec 32 := BitVec.ofNat 32 (i 2).val
  let c42_i32 : BitVec 32 := 42#32
  let v18 : BitVec 1 := Scalar.cmpi .eq arg2 c42_i32
  let v19 : BitVec 32 := Scalar.extui v18
  let c0_i32_10 : BitVec 32 := 0#32
  let v20 : BitVec 1 := Scalar.cmpi .ne v19 c0_i32_10
  v20

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S512x256 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S512x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1024x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  shapeCasts_S4x2048x4096_S8192x4096 : S4x2048x4096.ShapeCasts S8192x4096
  bitsLt_bf16_f32 : FTy.bits .bf16 < FTy.bits .f32
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S256x1024_S256x1024_0_0 : ∀ a, (![0, 0] : Fin 2 → Nat) a + S256x1024.size a ≤ S256x1024.size a
  h_S256x1024 : 0 < S256x1024.numel
  inb_S256x1_S256x1_0_0 : ∀ a, (![0, 0] : Fin 2 → Nat) a + S256x1.size a ≤ S256x1.size a
  h_S256x1 : 0 < S256x1.numel
  broadcasts_S256x1_S256x1024 : S256x1.Broadcasts S256x1024
  transposes_S256x1024_p1_0_S1024x256 : S256x1024.Transposes [1, 0] S1024x256
  packedbf16_S1024x256_S1024x256_0_0 : (Rect.unit (s := S1024x256) ![0, 0] S1024x256.size inb_S1024x256_S1024x256_0_0).PackedRows (EltTy.packing .bf16)
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x256_S512x256_0_0 : ∀ a, (![0, 0] : Fin 2 → Nat) a + S512x256.size a ≤ S512x256.size a
  h_S512x256 : 0 < S512x256.numel
  inb_S512x1_S512x1_0_0 : ∀ a, (![0, 0] : Fin 2 → Nat) a + S512x1.size a ≤ S512x1.size a
  h_S512x1 : 0 < S512x1.numel
  broadcasts_S512x1_S512x256 : S512x1.Broadcasts S512x256
  transposes_S512x256_p1_0_S256x512 : S512x256.Transposes [1, 0] S256x512
  shapeCasts_S8192x4096_S4x2048x4096 : S8192x4096.ShapeCasts S4x2048x4096
  dot_S1024x1024_S1024x256_S1024x256_1_0_0_1_n_n_wf : DotDims.WF S1024x1024 S1024x256 S1024x256 [1] [0] [0] [1] [] []
  dot_S1024x256_S256x512_S1024x512_1_0_0_1_n_n_wf : DotDims.WF S1024x256 S256x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .bf16 = 32 ∨ (Rect.block (s := S8192x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S11008x4096.size a
  hwx0_1 : ∀ i : grid0.Coords, EltTy.bits .i32 = 32 ∨ (Rect.block (s := S11008x4096) S256x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S11008x1.size a
  hwx0_2 : ∀ i : grid0.Coords, EltTy.bits .f32 = 32 ∨ (Rect.block (s := S11008x1) S256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S11008x4096.size a
  hwx0_3 : ∀ i : grid0.Coords, EltTy.bits .i32 = 32 ∨ (Rect.block (s := S11008x4096) S256x1024.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S11008x1.size a
  hwx0_4 : ∀ i : grid0.Coords, EltTy.bits .f32 = 32 ∨ (Rect.block (s := S11008x1) S256x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x256.size a ≤ S8192x11008.size a
  hwx0_5 : ∀ i : grid0.Coords, EltTy.bits .bf16 = 32 ∨ (Rect.block (s := S8192x11008) S1024x256.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S8192x11008.size a
  hwx1_0 : ∀ i : grid1.Coords, EltTy.bits .bf16 = 32 ∨ (Rect.block (s := S8192x11008) S1024x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x256.size a ≤ S4096x11008.size a
  hwx1_1 : ∀ i : grid1.Coords, EltTy.bits .i32 = 32 ∨ (Rect.block (s := S4096x11008) S512x256.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1.size a ≤ S4096x1.size a
  hwx1_2 : ∀ i : grid1.Coords, EltTy.bits .f32 = 32 ∨ (Rect.block (s := S4096x1) S512x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x512.size a ≤ S8192x4096.size a
  hwx1_3 : ∀ i : grid1.Coords, EltTy.bits .f32 = 32 ∨ (Rect.block (s := S8192x4096) S1024x512.size (cc1_transform_3 i) (hinb1_3 i)).WholeWords (EltTy.packing .f32)

variable [Facts₀]

def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf

abbrev win0_0 : Pipeline.Window sig grid0 :=
  Pipeline.Window.ofSpec (Memref.whole main_v1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1024x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

abbrev win1_0 : Pipeline.Window sig grid1 :=
  Pipeline.Window.ofSpec (Memref.whole main_v2) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S512x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S512x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1024x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S11008x4096 : Shape := ⟨2, ![11008, 4096]⟩
abbrev S11008x1 : Shape := ⟨2, ![11008, 1]⟩
abbrev S4096x11008 : Shape := ⟨2, ![4096, 11008]⟩
abbrev S4096x1 : Shape := ⟨2, ![4096, 1]⟩
abbrev S8192x4096 : Shape := ⟨2, ![8192, 4096]⟩
abbrev S8192x11008 : Shape := ⟨2, ![8192, 11008]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .i32⟩
  | .hbm, ⟨2, _⟩ => ⟨S11008x1, .f32⟩
  | .hbm, ⟨3, _⟩ => ⟨S11008x4096, .i32⟩
  | .hbm, ⟨4, _⟩ => ⟨S11008x1, .f32⟩
  | .hbm, ⟨5, _⟩ => ⟨S4096x11008, .i32⟩
  | .hbm, ⟨6, _⟩ => ⟨S4096x1, .f32⟩
  | .hbm, ⟨7, _⟩ => ⟨S8192x4096, .f32⟩
  | .hbm, ⟨8, _⟩ => ⟨S11008x4096, .f32⟩
  | .hbm, ⟨9, _⟩ => ⟨S11008x4096, .f32⟩
  | .hbm, ⟨10, _⟩ => ⟨S11008x4096, .f32⟩
  | .hbm, ⟨11, _⟩ => ⟨S4096x11008, .f32⟩
  | .hbm, ⟨12, _⟩ => ⟨S8192x11008, .f32⟩
  | .hbm, ⟨13, _⟩ => ⟨S11008x4096, .f32⟩
  | .hbm, ⟨14, _⟩ => ⟨S11008x4096, .f32⟩
  | .hbm, ⟨15, _⟩ => ⟨S11008x4096, .f32⟩
  | .hbm, ⟨16, _⟩ => ⟨S4096x11008, .f32⟩
  | .hbm, ⟨17, _⟩ => ⟨S8192x11008, .f32⟩
  | .hbm, ⟨18, _⟩ => ⟨S8192x11008, .f32⟩
  | .hbm, ⟨19, _⟩ => ⟨S8192x11008, .f32⟩
  | .hbm, ⟨20, _⟩ => ⟨S_, .f32⟩
  | .hbm, ⟨21, _⟩ => ⟨S8192x11008, .f32⟩
  | .hbm, ⟨22, _⟩ => ⟨S8192x11008, .f32⟩
  | .hbm, ⟨23, _⟩ => ⟨S_, .f32⟩
  | .hbm, ⟨24, _⟩ => ⟨S8192x11008, .f32⟩
  | .hbm, ⟨25, _⟩ => ⟨S8192x11008, .f32⟩
  | .hbm, ⟨26, _⟩ => ⟨S8192x11008, .f32⟩
  | .hbm, ⟨27, _⟩ => ⟨S8192x11008, .f32⟩
  | .hbm, ⟨28, _⟩ => ⟨S4096x11008, .f32⟩
  | .hbm, ⟨29, _⟩ => ⟨S4096x11008, .f32⟩
  | .hbm, ⟨30, _⟩ => ⟨S4096x11008, .f32⟩
  | .hbm, ⟨31, _⟩ => ⟨S11008x4096, .f32⟩
  | .hbm, ⟨32, _⟩ => ⟨S8192x4096, .f32⟩
  | .hbm, ⟨33, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call0_v0 : Ref sig .tc := ⟨.hbm, 18, rfl⟩
abbrev main_call0_v1 : Ref sig .tc := ⟨.hbm, 19, rfl⟩
abbrev main_call0_cst : Ref sig .tc := ⟨.hbm, 20, rfl⟩
abbrev main_call0_v2 : Ref sig .tc := ⟨.hbm, 21, rfl⟩
abbrev main_call0_v3 : Ref sig .tc := ⟨.hbm, 22, rfl⟩
abbrev main_call0_cst_0 : Ref sig .tc := ⟨.hbm, 23, rfl⟩
abbrev main_call0_v4 : Ref sig .tc := ⟨.hbm, 24, rfl⟩
abbrev main_call0_v5 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩

abbrev nD : Nat := 1
abbrev τ : Topo := Topo.v7x

variable {F : FTy → Type} [FloatOps F]

class Facts₀ : Prop where
  shapeCasts_S4x2048x4096_S8192x4096 : S4x2048x4096.ShapeCasts S8192x4096
  bcast_S11008x1_S11008x4096_0_1 : S11008x1.BroadcastsInDim S11008x4096 (![0, 1] : Fin 2 → Fin S11008x4096.rank)
  transposes_S11008x4096_S4096x11008_1_0 : S11008x4096.Transposes [1, 0] S4096x11008
  bcast_S_S8192x11008 : S_.BroadcastsInDim S8192x11008 (![] : Fin 0 → Fin S8192x11008.rank)
  bcast_S4096x1_S4096x11008_0_1 : S4096x1.BroadcastsInDim S4096x11008 (![0, 1] : Fin 2 → Fin S4096x11008.rank)
  transposes_S4096x11008_S11008x4096_1_0 : S4096x11008.Transposes [1, 0] S11008x4096
  shapeCasts_S8192x4096_S4x2048x4096 : S8192x4096.ShapeCasts S4x2048x4096
  dot_S8192x4096_S4096x11008_S8192x11008_1_0_0_1_n_n_wf : DotDims.WF S8192x4096 S4096x11008 S8192x11008 [1] [0] [0] [1] [] []
  dot_S8192x11008_S11008x4096_S8192x4096_1_0_0_1_n_n_wf : DotDims.WF S8192x11008 S11008x4096 S8192x4096 [1] [0] [0] [1] [] []

variable [Facts₀]

def dot_S8192x4096_S4096x11008_S8192x11008_1_0_0_1_n_n : DotDims S8192x4096 S4096x11008 S8192x11008 where
  lhsContracting := [1]
  rhsContracting := [0]
  lhsNonContracting := [0]
  rhsNonContracting := [1]
  lhsBatch := []
  rhsBatch := []
  wf := dot_S8192x4096_S4096x11008_S8192x11008_1_0_0_1_n_n_wf
def dot_S8192x11008_S11008x4096_S8192x4096_1_0_0_1_n_n : DotDims S8192x11008 S11008x4096 S8192x4096 where
  lhsContracting := [1]
  rhsContracting := [0]
  lhsNonContracting := [0]
  rhsNonContracting := [1]
  lhsBatch := []
  rhsBatch := []
  wf := dot_S8192x11008_S11008x4096_S8192x4096_1_0_0_1_n_n_wf

class Facts : Prop extends Facts₀ where

variable [Facts]
-- ==== Proof.Bits.R0Shared.lean ====
import proofs.«149759_j59433757442706_1_alg».proof.Proof.Gen.Kernel.Launch
import proofs.«149759_j59433757442706_1_alg».proof.Proof.Gen.Kernel.Skeleton
import proofs.«149759_j59433757442706_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The gate / up projections' kernel (the first launch): what every case of its body shares

The grid is 8 × 43 × 4: a block of 1024 tokens, a block of 256 hidden features, and the 4 chunks of 1024 model
features the contraction is cut into. Two accumulators (scratch buffers of 1024 × 256, one for the gate and one for the
up projection) are zeroed at the first chunk and added to at every chunk; at the last chunk the hidden activation
`silu(gate) · up` is stored into the output block. -/

/-- The first chunk of the contraction: the accumulators are reset here. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- The last chunk: the hidden activation is stored here. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-- The five input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- Off the last chunk the output window is idle and is not written back. -/
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
/-- At the last chunk it is live. -/
theorem liveAt0_5 : ∀ t : Fin cfg0.N, cond0_1 (grid0.coords t) → cfg0.idle 5 (grid0.coords t) = false := by decide +kernel

/-- One staging buffer of the output window, through which its contents are stated. -/
abbrev VO0_5 : View sig .tc .vmem S1024x256 .bf16 := (Memref.whole cc0_stg5_0 : Memref sig .tc .vmem S1024x256 .bf16).view
/-- Each window's current staging memref at point `t`, as the pipeline passes it. -/
abbrev ms0_0 (t : Fin cfg0.N) : Memref sig .tc .vmem S1024x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x1024 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x1024 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x256 .bf16 := win0_5.stage (cfg0.slots t 5)
abbrev hs0_5 (t : Fin cfg0.N) : (ms0_5 t).IsWhole := hstage0_5 ((cfg0.slots t 5).cast nbuf0_5)
/-- The two accumulators: whole scoped buffers of the kernel's own. -/
abbrev scM0_0 : Memref sig .tc .vmem S1024x256 .f32 := Memref.whole cc0_scratch0
abbrev scM0_1 : Memref sig .tc .vmem S1024x256 .f32 := Memref.whole cc0_scratch1
abbrev VS0_0 : View sig .tc .vmem S1024x256 .f32 := scM0_0.view
abbrev VS0_1 : View sig .tc .vmem S1024x256 .f32 := scM0_1.view

end Cert.Kernel.Hand

end
-- ==== Proof.Bits.R0Run.lean ====
import proofs.«149759_j59433757442706_1_alg».proof.Proof.Bits.R0Shared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The gate / up projections' kernel body, case by case

Each case is the body's triple on whole staging memrefs, with the pieces the stores leave in the two accumulators
(and, at the last chunk, in the output block) found by running the body. -/

set_option maxHeartbeats 2000000 in
/-- FIRST CHUNK: both accumulators are zeroed and the chunk's products added; the output block is handed back untouched. -/
noncomputable def kernelRun0_A (c : Dev nD) (i : grid0.Coords) (arg3 : Memref sig .tc .vmem S1024x1024 .bf16) (harg3 : arg3.IsWhole) (arg4 : Memref sig .tc .vmem S256x1024 .i32) (harg4 : arg4.IsWhole) (arg5 : Memref sig .tc .vmem S256x1 .f32) (harg5 : arg5.IsWhole) (arg6 : Memref sig .tc .vmem S256x1024 .i32) (harg6 : arg6.IsWhole) (arg7 : Memref sig .tc .vmem S256x1 .f32) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (hc0 : cond0_0 i) (hc1 : ¬cond0_1 i)
    (x0 : Vec F S1024x1024 .bf16) (x1 : Vec F S256x1024 .i32) (x2 : Vec F S256x1 .f32) (x3 : Vec F S256x1024 .i32) (x4 : Vec F S256x1 .f32) :
    Σ' (LS0 : List (View.Piece (Elt F) S1024x256 .f32)), { LS1 : List (View.Piece (Elt F) S1024x256 .f32) //
      ∀ (xi5 : Vec F S1024x256 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__mlp1_kernel i arg3 harg3 arg4 harg4 arg5 harg5 arg6 harg6 arg7 harg7 arg8 harg8 arg9 harg9 arg10 harg10) K } := by
  refine ⟨?_, ?_, fun xi5 E K => ?run⟩
  case run =>
    simp only [cc0__mlp1_kernel_eq_skeleton]; unfold cc0__mlp1_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexists _; iexact HS0
    iexists _; iexact HS1

set_option maxHeartbeats 2000000 in
/-- A MIDDLE CHUNK: the chunk's products are added to what the chunk before left; the output block is handed back untouched. -/
noncomputable def kernelRun0_B (c : Dev nD) (i : grid0.Coords) (arg3 : Memref sig .tc .vmem S1024x1024 .bf16) (harg3 : arg3.IsWhole) (arg4 : Memref sig .tc .vmem S256x1024 .i32) (harg4 : arg4.IsWhole) (arg5 : Memref sig .tc .vmem S256x1 .f32) (harg5 : arg5.IsWhole) (arg6 : Memref sig .tc .vmem S256x1024 .i32) (harg6 : arg6.IsWhole) (arg7 : Memref sig .tc .vmem S256x1 .f32) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (hc0 : ¬cond0_0 i) (hc1 : ¬cond0_1 i)
    (x0 : Vec F S1024x1024 .bf16) (x1 : Vec F S256x1024 .i32) (x2 : Vec F S256x1 .f32) (x3 : Vec F S256x1024 .i32) (x4 : Vec F S256x1 .f32) (xs0 : Vec F S1024x256 .f32) (xs1 : Vec F S1024x256 .f32) :
    Σ' (LS0 : List (View.Piece (Elt F) S1024x256 .f32)), { LS1 : List (View.Piece (Elt F) S1024x256 .f32) //
      ∀ (xi5 : Vec F S1024x256 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0 ∗ owns (c : Thread nD τ) arg10 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__mlp1_kernel i arg3 harg3 arg4 harg4 arg5 harg5 arg6 harg6 arg7 harg7 arg8 harg8 arg9 harg9 arg10 harg10) K } := by
  refine ⟨?_, ?_, fun xi5 E K => ?run⟩
  case run =>
    simp only [cc0__mlp1_kernel_eq_skeleton]; unfold cc0__mlp1_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0; obtain rfl := harg10.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexists _; iexact HS0
    iexists _; iexact HS1

set_option maxHeartbeats 2000000 in
/-- THE LAST CHUNK: the chunk's products are added, and `silu(gate) · up` of the two accumulators stored into the output block. -/
noncomputable def kernelRun0_C (c : Dev nD) (i : grid0.Coords) (arg3 : Memref sig .tc .vmem S1024x1024 .bf16) (harg3 : arg3.IsWhole) (arg4 : Memref sig .tc .vmem S256x1024 .i32) (harg4 : arg4.IsWhole) (arg5 : Memref sig .tc .vmem S256x1 .f32) (harg5 : arg5.IsWhole) (arg6 : Memref sig .tc .vmem S256x1024 .i32) (harg6 : arg6.IsWhole) (arg7 : Memref sig .tc .vmem S256x1 .f32) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (hc0 : ¬cond0_0 i) (hc1 : cond0_1 i)
    (x0 : Vec F S1024x1024 .bf16) (x1 : Vec F S256x1024 .i32) (x2 : Vec F S256x1 .f32) (x3 : Vec F S256x1024 .i32) (x4 : Vec F S256x1 .f32) (xs0 : Vec F S1024x256 .f32) (xs1 : Vec F S1024x256 .f32) :
    Σ' (L5 : List (View.Piece (Elt F) S1024x256 .bf16)) (LS0 : List (View.Piece (Elt F) S1024x256 .f32)), { LS1 : List (View.Piece (Elt F) S1024x256 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0 ∗ owns (c : Thread nD τ) arg10 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__mlp1_kernel i arg3 harg3 arg4 harg4 arg5 harg5 arg6 harg6 arg7 harg7 arg8 harg8 arg9 harg9 arg10 harg10) K } := by
  refine ⟨?_, ?_, ?_, fun E K => ?run⟩
  case run =>
    simp only [cc0__mlp1_kernel_eq_skeleton]; unfold cc0__mlp1_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs0; obtain rfl := harg10.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [HS0]; · iexists _; iexact HS0
    iexists _; iexact HS1

end Cert.Kernel.Hand

end
-- ==== Proof.Bits.R0Frame.lean ====
import proofs.«149759_j59433757442706_1_alg».proof.Proof.Bits.R0Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The gate / up projections' region: its proof data, at the contents `V` the region is entered with

The two accumulators are carried from chunk to chunk: after each point they hold what that point's case of the body
leaves there (`outsAt0`), which the invariant `PhiS0` hands to the next point. -/

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Each input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves -/

/-- Nothing is stored into the output block off the last chunk: a placeholder nothing consults. -/
def outIdle0 : Vec F S1024x256 .bf16 := VO0_5.read (Elt F) (VO0_5.junk (Val := Elt F))

theorem scover0_A_0 (c : Dev nD) (i : grid0.Coords) (arg3 : Memref sig .tc .vmem S1024x1024 .bf16) (harg3 : arg3.IsWhole) (arg4 : Memref sig .tc .vmem S256x1024 .i32) (harg4 : arg4.IsWhole) (arg5 : Memref sig .tc .vmem S256x1 .f32) (harg5 : arg5.IsWhole) (arg6 : Memref sig .tc .vmem S256x1024 .i32) (harg6 : arg6.IsWhole) (arg7 : Memref sig .tc .vmem S256x1 .f32) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (hc0 : cond0_0 i) (hc1 : ¬cond0_1 i) (x0 : Vec F S1024x1024 .bf16) (x1 : Vec F S256x1024 .i32) (x2 : Vec F S256x1 .f32) (x3 : Vec F S256x1024 .i32) (x4 : Vec F S256x1 .f32) (y : S1024x256.Idx) :
    ∃ pc ∈ (kernelRun0_A c i arg3 harg3 arg4 harg4 arg5 harg5 arg6 harg6 arg7 harg7 arg8 harg8 arg9 harg9 arg10 harg10 hc0 hc1 x0 x1 x2 x3 x4).1, y ∈ pc.1.set :=
  View.cover_of_tiledL (kernelRun0_A c i arg3 harg3 arg4 harg4 arg5 harg5 arg6 harg6 arg7 harg7 arg8 harg8 arg9 harg9 arg10 harg10 hc0 hc1 x0 x1 x2 x3 x4).1 S1024x256.size (by sl_kernel_rfl) y
theorem scover0_A_1 (c : Dev nD) (i : grid0.Coords) (arg3 : Memref sig .tc .vmem S1024x1024 .bf16) (harg3 : arg3.IsWhole) (arg4 : Memref sig .tc .vmem S256x1024 .i32) (harg4 : arg4.IsWhole) (arg5 : Memref sig .tc .vmem S256x1 .f32) (harg5 : arg5.IsWhole) (arg6 : Memref sig .tc .vmem S256x1024 .i32) (harg6 : arg6.IsWhole) (arg7 : Memref sig .tc .vmem S256x1 .f32) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (hc0 : cond0_0 i) (hc1 : ¬cond0_1 i) (x0 : Vec F S1024x1024 .bf16) (x1 : Vec F S256x1024 .i32) (x2 : Vec F S256x1 .f32) (x3 : Vec F S256x1024 .i32) (x4 : Vec F S256x1 .f32) (y : S1024x256.Idx) :
    ∃ pc ∈ (kernelRun0_A c i arg3 harg3 arg4 harg4 arg5 harg5 arg6 harg6 arg7 harg7 arg8 harg8 arg9 harg9 arg10 harg10 hc0 hc1 x0 x1 x2 x3 x4).2.1, y ∈ pc.1.set :=
  View.cover_of_tiledL (kernelRun0_A c i arg3 harg3 arg4 harg4 arg5 harg5 arg6 harg6 arg7 harg7 arg8 harg8 arg9 harg9 arg10 harg10 hc0 hc1 x0 x1 x2 x3 x4).2.1 S1024x256.size (by sl_kernel_rfl) y
/-- What the first chunk leaves in the gate accumulator, -/
def sout0_A_0 (c : Dev nD) (i : grid0.Coords) (arg3 : Memref sig .tc .vmem S1024x1024 .bf16) (harg3 : arg3.IsWhole) (arg4 : Memref sig .tc .vmem S256x1024 .i32) (harg4 : arg4.IsWhole) (arg5 : Memref sig .tc .vmem S256x1 .f32) (harg5 : arg5.IsWhole) (arg6 : Memref sig .tc .vmem S256x1024 .i32) (harg6 : arg6.IsWhole) (arg7 : Memref sig .tc .vmem S256x1 .f32) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (hc0 : cond0_0 i) (hc1 : ¬cond0_1 i) (x0 : Vec F S1024x1024 .bf16) (x1 : Vec F S256x1024 .i32) (x2 : Vec F S256x1 .f32) (x3 : Vec F S256x1024 .i32) (x4 : Vec F S256x1 .f32) : Vec F S1024x256 .f32 :=
  VS0_0.read (Elt F) (VS0_0.writes (Elt F) VS0_0.junk (kernelRun0_A c i arg3 harg3 arg4 harg4 arg5 harg5 arg6 harg6 arg7 harg7 arg8 harg8 arg9 harg9 arg10 harg10 hc0 hc1 x0 x1 x2 x3 x4).1)
/-- and in the up accumulator. -/
def sout0_A_1 (c : Dev nD) (i : grid0.Coords) (arg3 : Memref sig .tc .vmem S1024x1024 .bf16) (harg3 : arg3.IsWhole) (arg4 : Memref sig .tc .vmem S256x1024 .i32) (harg4 : arg4.IsWhole) (arg5 : Memref sig .tc .vmem S256x1 .f32) (harg5 : arg5.IsWhole) (arg6 : Memref sig .tc .vmem S256x1024 .i32) (harg6 : arg6.IsWhole) (arg7 : Memref sig .tc .vmem S256x1 .f32) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (hc0 : cond0_0 i) (hc1 : ¬cond0_1 i) (x0 : Vec F S1024x1024 .bf16) (x1 : Vec F S256x1024 .i32) (x2 : Vec F S256x1 .f32) (x3 : Vec F S256x1024 .i32) (x4 : Vec F S256x1 .f32) : Vec F S1024x256 .f32 :=
  VS0_1.read (Elt F) (VS0_1.writes (Elt F) VS0_1.junk (kernelRun0_A c i arg3 harg3 arg4 harg4 arg5 harg5 arg6 harg6 arg7 harg7 arg8 harg8 arg9 harg9 arg10 harg10 hc0 hc1 x0 x1 x2 x3 x4).2.1)

theorem scover0_B_0 (c : Dev nD) (i : grid0.Coords) (arg3 : Memref sig .tc .vmem S1024x1024 .bf16) (harg3 : arg3.IsWhole) (arg4 : Memref sig .tc .vmem S256x1024 .i32) (harg4 : arg4.IsWhole) (arg5 : Memref sig .tc .vmem S256x1 .f32) (harg5 : arg5.IsWhole) (arg6 : Memref sig .tc .vmem S256x1024 .i32) (harg6 : arg6.IsWhole) (arg7 : Memref sig .tc .vmem S256x1 .f32) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (hc0 : ¬cond0_0 i) (hc1 : ¬cond0_1 i) (x0 : Vec F S1024x1024 .bf16) (x1 : Vec F S256x1024 .i32) (x2 : Vec F S256x1 .f32) (x3 : Vec F S256x1024 .i32) (x4 : Vec F S256x1 .f32) (xs0 xs1 : Vec F S1024x256 .f32) (y : S1024x256.Idx) :
    ∃ pc ∈ (kernelRun0_B c i arg3 harg3 arg4 harg4 arg5 harg5 arg6 harg6 arg7 harg7 arg8 harg8 arg9 harg9 arg10 harg10 hc0 hc1 x0 x1 x2 x3 x4 xs0 xs1).1, y ∈ pc.1.set :=
  View.cover_of_tiledL (kernelRun0_B c i arg3 harg3 arg4 harg4 arg5 harg5 arg6 harg6 arg7 harg7 arg8 harg8 arg9 harg9 arg10 harg10 hc0 hc1 x0 x1 x2 x3 x4 xs0 xs1).1 S1024x256.size (by sl_kernel_rfl) y
theorem scover0_B_1 (c : Dev nD) (i : grid0.Coords) (arg3 : Memref sig .tc .vmem S1024x1024 .bf16) (harg3 : arg3.IsWhole) (arg4 : Memref sig .tc .vmem S256x1024 .i32) (harg4 : arg4.IsWhole) (arg5 : Memref sig .tc .vmem S256x1 .f32) (harg5 : arg5.IsWhole) (arg6 : Memref sig .tc .vmem S256x1024 .i32) (harg6 : arg6.IsWhole) (arg7 : Memref sig .tc .vmem S256x1 .f32) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (hc0 : ¬cond0_0 i) (hc1 : ¬cond0_1 i) (x0 : Vec F S1024x1024 .bf16) (x1 : Vec F S256x1024 .i32) (x2 : Vec F S256x1 .f32) (x3 : Vec F S256x1024 .i32) (x4 : Vec F S256x1 .f32) (xs0 xs1 : Vec F S1024x256 .f32) (y : S1024x256.Idx) :
    ∃ pc ∈ (kernelRun0_B c i arg3 harg3 arg4 harg4 arg5 harg5 arg6 harg6 arg7 harg7 arg8 harg8 arg9 harg9 arg10 harg10 hc0 hc1 x0 x1 x2 x3 x4 xs0 xs1).2.1, y ∈ pc.1.set :=
  View.cover_of_tiledL (kernelRun0_B c i arg3 harg3 arg4 harg4 arg5 harg5 arg6 harg6 arg7 harg7 arg8 harg8 arg9 harg9 arg10 harg10 hc0 hc1 x0 x1 x2 x3 x4 xs0 xs1).2.1 S1024x256.size (by sl_kernel_rfl) y
/-- What a middle chunk leaves in the gate accumulator, -/
def sout0_B_0 (c : Dev nD) (i : grid0.Coords) (arg3 : Memref sig .tc .vmem S1024x1024 .bf16) (harg3 : arg3.IsWhole) (arg4 : Memref sig .tc .vmem S256x1024 .i32) (harg4 : arg4.IsWhole) (arg5 : Memref sig .tc .vmem S256x1 .f32) (harg5 : arg5.IsWhole) (arg6 : Memref sig .tc .vmem S256x1024 .i32) (harg6 : arg6.IsWhole) (arg7 : Memref sig .tc .vmem S256x1 .f32) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (hc0 : ¬cond0_0 i) (hc1 : ¬cond0_1 i) (x0 : Vec F S1024x1024 .bf16) (x1 : Vec F S256x1024 .i32) (x2 : Vec F S256x1 .f32) (x3 : Vec F S256x1024 .i32) (x4 : Vec F S256x1 .f32) (xs0 xs1 : Vec F S1024x256 .f32) : Vec F S1024x256 .f32 :=
  VS0_0.read (Elt F) (VS0_0.writes (Elt F) VS0_0.junk (kernelRun0_B c i arg3 harg3 arg4 harg4 arg5 harg5 arg6 harg6 arg7 harg7 arg8 harg8 arg9 harg9 arg10 harg10 hc0 hc1 x0 x1 x2 x3 x4 xs0 xs1).1)
/-- and in the up accumulator. -/
def sout0_B_1 (c : Dev nD) (i : grid0.Coords) (arg3 : Memref sig .tc .vmem S1024x1024 .bf16) (harg3 : arg3.IsWhole) (arg4 : Memref sig .tc .vmem S256x1024 .i32) (harg4 : arg4.IsWhole) (arg5 : Memref sig .tc .vmem S256x1 .f32) (harg5 : arg5.IsWhole) (arg6 : Memref sig .tc .vmem S256x1024 .i32) (harg6 : arg6.IsWhole) (arg7 : Memref sig .tc .vmem S256x1 .f32) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (hc0 : ¬cond0_0 i) (hc1 : ¬cond0_1 i) (x0 : Vec F S1024x1024 .bf16) (x1 : Vec F S256x1024 .i32) (x2 : Vec F S256x1 .f32) (x3 : Vec F S256x1024 .i32) (x4 : Vec F S256x1 .f32) (xs0 xs1 : Vec F S1024x256 .f32) : Vec F S1024x256 .f32 :=
  VS0_1.read (Elt F) (VS0_1.writes (Elt F) VS0_1.junk (kernelRun0_B c i arg3 harg3 arg4 harg4 arg5 harg5 arg6 harg6 arg7 harg7 arg8 harg8 arg9 harg9 arg10 harg10 hc0 hc1 x0 x1 x2 x3 x4 xs0 xs1).2.1)

theorem cover0_C (c : Dev nD) (i : grid0.Coords) (arg3 : Memref sig .tc .vmem S1024x1024 .bf16) (harg3 : arg3.IsWhole) (arg4 : Memref sig .tc .vmem S256x1024 .i32) (harg4 : arg4.IsWhole) (arg5 : Memref sig .tc .vmem S256x1 .f32) (harg5 : arg5.IsWhole) (arg6 : Memref sig .tc .vmem S256x1024 .i32) (harg6 : arg6.IsWhole) (arg7 : Memref sig .tc .vmem S256x1 .f32) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (hc0 : ¬cond0_0 i) (hc1 : cond0_1 i) (x0 : Vec F S1024x1024 .bf16) (x1 : Vec F S256x1024 .i32) (x2 : Vec F S256x1 .f32) (x3 : Vec F S256x1024 .i32) (x4 : Vec F S256x1 .f32) (xs0 xs1 : Vec F S1024x256 .f32) (y : S1024x256.Idx) :
    ∃ pc ∈ (kernelRun0_C c i arg3 harg3 arg4 harg4 arg5 harg5 arg6 harg6 arg7 harg7 arg8 harg8 arg9 harg9 arg10 harg10 hc0 hc1 x0 x1 x2 x3 x4 xs0 xs1).1, y ∈ pc.1.set :=
  View.cover_of_tiledL (kernelRun0_C c i arg3 harg3 arg4 harg4 arg5 harg5 arg6 harg6 arg7 harg7 arg8 harg8 arg9 harg9 arg10 harg10 hc0 hc1 x0 x1 x2 x3 x4 xs0 xs1).1 S1024x256.size (by sl_kernel_rfl) y
/-- What the last chunk leaves in the output block. -/
def out0_C (c : Dev nD) (i : grid0.Coords) (arg3 : Memref sig .tc .vmem S1024x1024 .bf16) (harg3 : arg3.IsWhole) (arg4 : Memref sig .tc .vmem S256x1024 .i32) (harg4 : arg4.IsWhole) (arg5 : Memref sig .tc .vmem S256x1 .f32) (harg5 : arg5.IsWhole) (arg6 : Memref sig .tc .vmem S256x1024 .i32) (harg6 : arg6.IsWhole) (arg7 : Memref sig .tc .vmem S256x1 .f32) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (hc0 : ¬cond0_0 i) (hc1 : cond0_1 i) (x0 : Vec F S1024x1024 .bf16) (x1 : Vec F S256x1024 .i32) (x2 : Vec F S256x1 .f32) (x3 : Vec F S256x1024 .i32) (x4 : Vec F S256x1 .f32) (xs0 xs1 : Vec F S1024x256 .f32) : Vec F S1024x256 .bf16 :=
  VO0_5.read (Elt F) (VO0_5.writes (Elt F) VO0_5.junk (kernelRun0_C c i arg3 harg3 arg4 harg4 arg5 harg5 arg6 harg6 arg7 harg7 arg8 harg8 arg9 harg9 arg10 harg10 hc0 hc1 x0 x1 x2 x3 x4 xs0 xs1).1)
theorem scover0_C_0 (c : Dev nD) (i : grid0.Coords) (arg3 : Memref sig .tc .vmem S1024x1024 .bf16) (harg3 : arg3.IsWhole) (arg4 : Memref sig .tc .vmem S256x1024 .i32) (harg4 : arg4.IsWhole) (arg5 : Memref sig .tc .vmem S256x1 .f32) (harg5 : arg5.IsWhole) (arg6 : Memref sig .tc .vmem S256x1024 .i32) (harg6 : arg6.IsWhole) (arg7 : Memref sig .tc .vmem S256x1 .f32) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (hc0 : ¬cond0_0 i) (hc1 : cond0_1 i) (x0 : Vec F S1024x1024 .bf16) (x1 : Vec F S256x1024 .i32) (x2 : Vec F S256x1 .f32) (x3 : Vec F S256x1024 .i32) (x4 : Vec F S256x1 .f32) (xs0 xs1 : Vec F S1024x256 .f32) (y : S1024x256.Idx) :
    ∃ pc ∈ (kernelRun0_C c i arg3 harg3 arg4 harg4 arg5 harg5 arg6 harg6 arg7 harg7 arg8 harg8 arg9 harg9 arg10 harg10 hc0 hc1 x0 x1 x2 x3 x4 xs0 xs1).2.1, y ∈ pc.1.set :=
  View.cover_of_tiledL (kernelRun0_C c i arg3 harg3 arg4 harg4 arg5 harg5 arg6 harg6 arg7 harg7 arg8 harg8 arg9 harg9 arg10 harg10 hc0 hc1 x0 x1 x2 x3 x4 xs0 xs1).2.1 S1024x256.size (by sl_kernel_rfl) y
theorem scover0_C_1 (c : Dev nD) (i : grid0.Coords) (arg3 : Memref sig .tc .vmem S1024x1024 .bf16) (harg3 : arg3.IsWhole) (arg4 : Memref sig .tc .vmem S256x1024 .i32) (harg4 : arg4.IsWhole) (arg5 : Memref sig .tc .vmem S256x1 .f32) (harg5 : arg5.IsWhole) (arg6 : Memref sig .tc .vmem S256x1024 .i32) (harg6 : arg6.IsWhole) (arg7 : Memref sig .tc .vmem S256x1 .f32) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (hc0 : ¬cond0_0 i) (hc1 : cond0_1 i) (x0 : Vec F S1024x1024 .bf16) (x1 : Vec F S256x1024 .i32) (x2 : Vec F S256x1 .f32) (x3 : Vec F S256x1024 .i32) (x4 : Vec F S256x1 .f32) (xs0 xs1 : Vec F S1024x256 .f32) (y : S1024x256.Idx) :
    ∃ pc ∈ (kernelRun0_C c i arg3 harg3 arg4 harg4 arg5 harg5 arg6 harg6 arg7 harg7 arg8 harg8 arg9 harg9 arg10 harg10 hc0 hc1 x0 x1 x2 x3 x4 xs0 xs1).2.2.1, y ∈ pc.1.set :=
  View.cover_of_tiledL (kernelRun0_C c i arg3 harg3 arg4 harg4 arg5 harg5 arg6 harg6 arg7 harg7 arg8 harg8 arg9 harg9 arg10 harg10 hc0 hc1 x0 x1 x2 x3 x4 xs0 xs1).2.2.1 S1024x256.size (by sl_kernel_rfl) y
/-- What the last chunk leaves in the gate accumulator, -/
def sout0_C_0 (c : Dev nD) (i : grid0.Coords) (arg3 : Memref sig .tc .vmem S1024x1024 .bf16) (harg3 : arg3.IsWhole) (arg4 : Memref sig .tc .vmem S256x1024 .i32) (harg4 : arg4.IsWhole) (arg5 : Memref sig .tc .vmem S256x1 .f32) (harg5 : arg5.IsWhole) (arg6 : Memref sig .tc .vmem S256x1024 .i32) (harg6 : arg6.IsWhole) (arg7 : Memref sig .tc .vmem S256x1 .f32) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (hc0 : ¬cond0_0 i) (hc1 : cond0_1 i) (x0 : Vec F S1024x1024 .bf16) (x1 : Vec F S256x1024 .i32) (x2 : Vec F S256x1 .f32) (x3 : Vec F S256x1024 .i32) (x4 : Vec F S256x1 .f32) (xs0 xs1 : Vec F S1024x256 .f32) : Vec F S1024x256 .f32 :=
  VS0_0.read (Elt F) (VS0_0.writes (Elt F) VS0_0.junk (kernelRun0_C c i arg3 harg3 arg4 harg4 arg5 harg5 arg6 harg6 arg7 harg7 arg8 harg8 arg9 harg9 arg10 harg10 hc0 hc1 x0 x1 x2 x3 x4 xs0 xs1).2.1)
/-- and in the up accumulator. -/
def sout0_C_1 (c : Dev nD) (i : grid0.Coords) (arg3 : Memref sig .tc .vmem S1024x1024 .bf16) (harg3 : arg3.IsWhole) (arg4 : Memref sig .tc .vmem S256x1024 .i32) (harg4 : arg4.IsWhole) (arg5 : Memref sig .tc .vmem S256x1 .f32) (harg5 : arg5.IsWhole) (arg6 : Memref sig .tc .vmem S256x1024 .i32) (harg6 : arg6.IsWhole) (arg7 : Memref sig .tc .vmem S256x1 .f32) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (hc0 : ¬cond0_0 i) (hc1 : cond0_1 i) (x0 : Vec F S1024x1024 .bf16) (x1 : Vec F S256x1024 .i32) (x2 : Vec F S256x1 .f32) (x3 : Vec F S256x1024 .i32) (x4 : Vec F S256x1 .f32) (xs0 xs1 : Vec F S1024x256 .f32) : Vec F S1024x256 .f32 :=
  VS0_1.read (Elt F) (VS0_1.writes (Elt F) VS0_1.junk (kernelRun0_C c i arg3 harg3 arg4 harg4 arg5 harg5 arg6 harg6 arg7 harg7 arg8 harg8 arg9 harg9 arg10 harg10 hc0 hc1 x0 x1 x2 x3 x4 xs0 xs1).2.2.1)

/-! ## What the output block and the accumulators hold after each point -/

/-- After the body at position `n`: (the output block's staging buffer, the gate accumulator, the up accumulator).
    The case is read off the position of the chunk (`n % 4`); a middle or last chunk starts from what the point
    before left. -/
def outsAt0 (c : Dev nD) : (n : ℕ) → n < cfg0.N → Vec F S1024x256 .bf16 × Vec F S1024x256 .f32 × Vec F S1024x256 .f32
  | 0, hn => (outIdle0, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩))
  | n + 1, hn =>
    if h0 : (n + 1) % 4 = 0 then
      if h1 : (n + 1) % 4 = 3 then
        False.elim (by omega)
      else
        (outIdle0, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩))
    else
      if h1 : (n + 1) % 4 = 3 then
        (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.1 (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.1 (outsAt0 c n (Nat.lt_of_succ_lt hn)).2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.1 (outsAt0 c n (Nat.lt_of_succ_lt hn)).2.2)
      else
        (outIdle0, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.1 (outsAt0 c n (Nat.lt_of_succ_lt hn)).2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.1 (outsAt0 c n (Nat.lt_of_succ_lt hn)).2.2)

theorem outsAt0_A (c : Dev nD) (t : Fin cfg0.N) (h0 : t.val % 4 = 0) (h1 : ¬t.val % 4 = 3) :
    outsAt0 V c t.val t.isLt = (outIdle0, sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 V c t.val t.isLt = (outIdle0, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 V c t.val t.isLt = (out0_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- The class invariant with the two accumulators split off: each at some contents, the other scoped buffers that
    are no staging buffer of this launch unopened, the generator register at some state. -/
theorem PhiA0_eq (c : Dev nD) :
    (Pipeline.ΦA spec0 c : sProp 𝕄)
      = iprop(iprop(((∃ d, owns (c : Thread nD τ) scM0_0 fullShare d) ∗ (∃ d, owns (c : Thread nD τ) scM0_1 fullShare d)) ∗ Pipeline.scopedRestBut (Ix := Unit) (Name := ℕ) (U := UR sig nD τ) (Lvl := ℕ) (Val := Elt F) spec0 c [cc0_scratch0, cc0_scratch1]) ∗ (∃ r, prngReg c r)) := by
  unfold Pipeline.ΦA
  rw [Pipeline.scopedRest_split_of_list spec0 c [cc0_scratch0, cc0_scratch1] (by decide) (by decide)]
  simp only [scM0_0, scM0_1, owns_whole]; try rfl

/-- Before position `n`: at the first point the class invariant; afterwards the accumulators at what the point before
    left in them, the other scoped buffers unopened, the generator register at some state. -/
def PhiS0 (c : Dev nD) : (n : ℕ) → n ≤ cfg0.N → sProp 𝕄
  | 0, _ => Pipeline.ΦA spec0 c
  | n + 1, hn => iprop(iprop((owns (c : Thread nD τ) scM0_0 fullShare ((outsAt0 V c n hn).2.1) ∗ owns (c : Thread nD τ) scM0_1 fullShare ((outsAt0 V c n hn).2.2)) ∗ Pipeline.scopedRestBut (Ix := Unit) (Name := ℕ) (U := UR sig nD τ) (Lvl := ℕ) (Val := Elt F) spec0 c [cc0_scratch0, cc0_scratch1]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop((owns (c : Thread nD τ) scM0_0 fullShare ((outsAt0 V c n hn).2.1) ∗ owns (c : Thread nD τ) scM0_1 fullShare ((outsAt0 V c n hn).2.2)) ∗ Pipeline.scopedRestBut (Ix := Unit) (Name := ℕ) (U := UR sig nD τ) (Lvl := ℕ) (Val := Elt F) spec0 c [cc0_scratch0, cc0_scratch1]) ∗ (∃ r, prngReg c r)) := rfl

theorem PhiS0_pos (c : Dev nD) (n : ℕ) (h : n ≤ cfg0.N) (hz : n ≠ 0) :
    PhiS0 V c n h = iprop(iprop((owns (c : Thread nD τ) scM0_0 fullShare ((outsAt0 V c (n - 1) (by omega)).2.1) ∗ owns (c : Thread nD τ) scM0_1 fullShare ((outsAt0 V c (n - 1) (by omega)).2.2)) ∗ Pipeline.scopedRestBut (Ix := Unit) (Name := ℕ) (U := UR sig nD τ) (Lvl := ℕ) (Val := Elt F) spec0 c [cc0_scratch0, cc0_scratch1]) ∗ (∃ r, prngReg c r)) := by
  cases n with
  | zero => exact absurd rfl hz
  | succ n => rfl

/-! ## The proof data -/

/-- The arrays as the region finds them; after the body each input's buffer at its block, the output's and the
    accumulators at `outsAt0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

end Cert.Kernel.Hand

end
-- ==== Proof.Bits.R0Body.lean ====
import proofs.«149759_j59433757442706_1_alg».proof.Proof.Bits.R0Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The gate / up projections' region: the body obligation at every point -/

variable (V : (c : Dev nD) → (b : Ref sig .tc) → Buf (Elt F) ((c : Thread nD τ).loc b))

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 4800000 in
/-- The body at any point: the inputs' memrefs hold their blocks; the position of the chunk says which case the
    point is in; the invariant hands the body the accumulators at what the point before left (at anything at the
    first point) and takes them back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS0 V c (t.val + 1) t.isLt from rfl, PhiS0_succ]
  have hN : t.val < 1376 := lt_of_lt_of_eq t.isLt (show cfg0.N = 1376 from N_0)
  by_cases h0 : t.val % 4 = 0
  · by_cases h1 : t.val % 4 = 3
    · exfalso; omega
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [Dat.leavesExact_idle (dat0 V c) 5 t (idleAt0_5 t (fun h => h1 ((hcond0_1 t).mp h))) (noFlush0_5 t (fun h => h1 ((hcond0_1 t).mp h)))]
      rw [outsAt0_A V c t h0 h1]
      unfold sout0_A_0 sout0_A_1; (try dsimp only)
      by_cases hz : t.val = 0
      · rw [PhiS0_castSucc V c t, PhiS0_zero V c _ _ hz, PhiA0_eq]
        iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        iintro ⟨H0, H1, H2, H3, H4, H5, ⟨%es0, HS0⟩, ⟨%es1, HS1⟩⟩
        isplitl [HS0 HS1 Hrest Hg]
        · isplitl [HS0 HS1 Hrest]
          · isplitl [HS0 HS1]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _)
              unfold owns; iexists _; isplitr
              swap; · iexact HS1
              ipureintro; exact View.read_writes_of_cover _ _ _ _ _ (scover0_A_1 c _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS0_castSucc V c t, PhiS0_pos V c _ _ hz]
        iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        isplitl [HS1]; · iexists _; iexact HS1
        iintro ⟨H0, H1, H2, H3, H4, H5, ⟨%es0, HS0⟩, ⟨%es1, HS1⟩⟩
        isplitl [HS0 HS1 Hrest Hg]
        · isplitl [HS0 HS1 Hrest]
          · isplitl [HS0 HS1]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _)
              unfold owns; iexists _; isplitr
              swap; · iexact HS1
              ipureintro; exact View.read_writes_of_cover _ _ _ _ _ (scover0_A_1 c _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 4 = 3
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t ((hcond0_1 t).mpr h1)], after0_5]
      rw [outsAt0_C V c t h0 h1]
      unfold out0_C sout0_C_0 sout0_C_1; (try dsimp only)
      by_cases hz : t.val = 0
      · exfalso; omega
      · rw [PhiS0_castSucc V c t, PhiS0_pos V c _ _ hz]
        iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
        iapply ((kernelRun0_C c (grid0.coords t) _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) _ _).2.2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        isplitl [HS1]; · iexact HS1
        iintro ⟨H0, H1, H2, H3, H4, ⟨%e5, H5⟩, ⟨%es0, HS0⟩, ⟨%es1, HS1⟩⟩
        isplitl [HS0 HS1 Hrest Hg]
        · isplitl [HS0 HS1 Hrest]
          · isplitl [HS0 HS1]
            · isplitl [HS0]
              · unfold owns; iexists _; isplitr
                swap; · iexact HS0
                ipureintro; exact View.read_writes_of_cover _ _ _ _ _ (scover0_C_0 c _ _ _ _ _ _ _ _ _ _ _ _ _ _ _ _ _ _ _ _ _ _ _ _ _ _)
              unfold owns; iexists _; isplitr
              swap; · iexact HS1
              ipureintro; exact View.read_writes_of_cover _ _ _ _ _ (scover0_C_1 c _ _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover0_C c _ _ _ _ _ _ _ _ _ _ _ _ _ _ _ _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [Dat.leavesExact_idle (dat0 V c) 5 t (idleAt0_5 t (fun h => h1 ((hcond0_1 t).mp h))) (noFlush0_5 t (fun h => h1 ((hcond0_1 t).mp h)))]
      rw [outsAt0_B V c t h0 h1]
      unfold sout0_B_0 sout0_B_1; (try dsimp only)
      by_cases hz : t.val = 0
      · exfalso; omega
      · rw [PhiS0_castSucc V c t, PhiS0_pos V c _ _ hz]
        iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
        iapply ((kernelRun0_B c (grid0.coords t) _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) _ _).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        iintro ⟨H0, H1, H2, H3, H4, H5, ⟨%es0, HS0⟩, ⟨%es1, HS1⟩⟩
        isplitl [HS0 HS1 Hrest Hg]
        · isplitl [HS0 HS1 Hrest]
          · isplitl [HS0 HS1]
            · isplitl [HS0]
              · unfold owns; iexists _; isplitr
                swap; · iexact HS0
                ipureintro; exact View.read_writes_of_cover _ _ _ _ _ (scover0_B_0 c _ _ _ _ _ _ _ _ _ _ _ _ _ _ _ _ _ _ _ _ _ _ _ _ _ _)
              unfold owns; iexists _; isplitr
              swap; · iexact HS1
              ipureintro; exact View.read_writes_of_cover _ _ _ _ _ (scover0_B_1 c _ _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- After any point but the first the invariant gives the class invariant back: the accumulators' contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

theorem hout0 (c : Dev nD) : (dat0 V c).Φ (Fin.last cfg0.N) ⊢ Pipeline.ΦA spec0 c :=
  Phi_out0 V c _ (by rw [Fin.val_last]; have : cfg0.N = 1376 := N_0; omega)

end Cert.Kernel.Hand

end
-- ==== Proof.Bits.R1Shared.lean ====
import proofs.«149759_j59433757442706_1_alg».proof.Proof.Gen.Kernel.Launch
import proofs.«149759_j59433757442706_1_alg».proof.Proof.Gen.Kernel.Skeleton
import proofs.«149759_j59433757442706_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The down projection's kernel (the second launch): what every case of its body shares

The grid is 8 × 8 × 43: a block of 1024 tokens, a block of 512 output features, and the 43 chunks of 256 hidden
features the contraction is cut into. The accumulator (a scratch of 1024 × 512) is zeroed at the first chunk, added to
at every chunk, and copied to the output block at the last one. -/

/-- The first chunk of the contraction: the accumulator is reset here. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 43 = 0 :=
  (by decide +kernel : ∀ t : Fin grid1.N, cond1_0 (grid1.coords t) ↔ t.val % 43 = 0)

/-- The last chunk: the accumulator is copied out here. -/
abbrev cond1_1 (i : grid1.Coords) : Prop := k1_cond2 i = 1#1
theorem hcond1_1 : ∀ t : Fin cfg1.N, cond1_1 (grid1.coords t) ↔ t.val % 43 = 42 :=
  (by decide +kernel : ∀ t : Fin grid1.N, cond1_1 (grid1.coords t) ↔ t.val % 43 = 42)

/-- The three input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Off the last chunk the output window is idle and is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- At the last chunk it is live. -/
theorem liveAt1_3 : ∀ t : Fin cfg1.N, cond1_1 (grid1.coords t) → cfg1.idle 3 (grid1.coords t) = false := by decide +kernel

/-- One staging buffer of the output window, through which its contents are stated. -/
abbrev VO1_3 : View sig .tc .vmem S1024x512 .f32 := (Memref.whole cc1_stg3_0 : Memref sig .tc .vmem S1024x512 .f32).view
/-- Each window's current staging memref at point `t`, as the pipeline passes it. -/
abbrev ms1_0 (t : Fin cfg1.N) : Memref sig .tc .vmem S1024x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x256 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x512 .f32 := win1_3.stage (cfg1.slots t 3)
abbrev hs1_3 (t : Fin cfg1.N) : (ms1_3 t).IsWhole := hstage1_3 ((cfg1.slots t 3).cast nbuf1_3)
/-- The accumulator: a whole scoped buffer of the kernel's own. -/
abbrev scM1_0 : Memref sig .tc .vmem S1024x512 .f32 := Memref.whole cc1_scratch0
abbrev VS1_0 : View sig .tc .vmem S1024x512 .f32 := scM1_0.view

end Cert.Kernel.Hand

end
-- ==== Proof.Bits.R1Run.lean ====
import proofs.«149759_j59433757442706_1_alg».proof.Proof.Bits.R1Shared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The down projection's kernel body, case by case

Each case is the body's triple on whole staging memrefs, with the pieces the stores leave in the accumulator
(and, at the last chunk, in the output block) found by running the body. -/

set_option maxHeartbeats 1000000 in
/-- FIRST CHUNK: the accumulator is zeroed and the chunk's product added; the output block is handed back untouched. -/
noncomputable def kernelRun1_A (c : Dev nD) (i : grid1.Coords) (arg3 : Memref sig .tc .vmem S1024x256 .bf16) (harg3 : arg3.IsWhole) (arg4 : Memref sig .tc .vmem S512x256 .i32) (harg4 : arg4.IsWhole) (arg5 : Memref sig .tc .vmem S512x1 .f32) (harg5 : arg5.IsWhole) (arg6 : Memref sig .tc .vmem S1024x512 .f32) (harg6 : arg6.IsWhole) (arg7 : Memref sig .tc .vmem S1024x512 .f32) (harg7 : arg7.IsWhole) (hc0 : cond1_0 i) (hc1 : ¬cond1_1 i)
    (x0 : Vec F S1024x256 .bf16) (x1 : Vec F S512x256 .i32) (x2 : Vec F S512x1 .f32) :
    { LS0 : List (View.Piece (Elt F) S1024x512 .f32) //
      ∀ (xi3 : Vec F S1024x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__mlp2_kernel i arg3 harg3 arg4 harg4 arg5 harg5 arg6 harg6 arg7 harg7) K } := by
  refine ⟨?_, fun xi3 E K => ?run⟩
  case run =>
    simp only [cc1__mlp2_kernel_eq_skeleton]; unfold cc1__mlp2_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 1000000 in
/-- A MIDDLE CHUNK: the chunk's product is added to what the chunk before left; the output block is handed back untouched. -/
noncomputable def kernelRun1_B (c : Dev nD) (i : grid1.Coords) (arg3 : Memref sig .tc .vmem S1024x256 .bf16) (harg3 : arg3.IsWhole) (arg4 : Memref sig .tc .vmem S512x256 .i32) (harg4 : arg4.IsWhole) (arg5 : Memref sig .tc .vmem S512x1 .f32) (harg5 : arg5.IsWhole) (arg6 : Memref sig .tc .vmem S1024x512 .f32) (harg6 : arg6.IsWhole) (arg7 : Memref sig .tc .vmem S1024x512 .f32) (harg7 : arg7.IsWhole) (hc0 : ¬cond1_0 i) (hc1 : ¬cond1_1 i)
    (x0 : Vec F S1024x256 .bf16) (x1 : Vec F S512x256 .i32) (x2 : Vec F S512x1 .f32) (xs0 : Vec F S1024x512 .f32) :
    { LS0 : List (View.Piece (Elt F) S1024x512 .f32) //
      ∀ (xi3 : Vec F S1024x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__mlp2_kernel i arg3 harg3 arg4 harg4 arg5 harg5 arg6 harg6 arg7 harg7) K } := by
  refine ⟨?_, fun xi3 E K => ?run⟩
  case run =>
    simp only [cc1__mlp2_kernel_eq_skeleton]; unfold cc1__mlp2_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 1000000 in
/-- THE LAST CHUNK: the chunk's product is added, and the accumulator copied into the output block. -/
noncomputable def kernelRun1_C (c : Dev nD) (i : grid1.Coords) (arg3 : Memref sig .tc .vmem S1024x256 .bf16) (harg3 : arg3.IsWhole) (arg4 : Memref sig .tc .vmem S512x256 .i32) (harg4 : arg4.IsWhole) (arg5 : Memref sig .tc .vmem S512x1 .f32) (harg5 : arg5.IsWhole) (arg6 : Memref sig .tc .vmem S1024x512 .f32) (harg6 : arg6.IsWhole) (arg7 : Memref sig .tc .vmem S1024x512 .f32) (harg7 : arg7.IsWhole) (hc0 : ¬cond1_0 i) (hc1 : cond1_1 i)
    (x0 : Vec F S1024x256 .bf16) (x1 : Vec F S512x256 .i32) (x2 : Vec F S512x1 .f32) (xs0 : Vec F S1024x512 .f32) :
    Σ' (L3 : List (View.Piece (Elt F) S1024x512 .f32)), { LS0 : List (View.Piece (Elt F) S1024x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc1__mlp2_kernel i arg3 harg3 arg4 harg4 arg5 harg5 arg6 harg6 arg7 harg7) K } := by
  refine ⟨?_, ?_, fun E K => ?run⟩
  case run =>
    simp only [cc1__mlp2_kernel_eq_skeleton]; unfold cc1__mlp2_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.Kernel.Hand

end
-- ==== Proof.Bits.R1Frame.lean ====
import proofs.«149759_j59433757442706_1_alg».proof.Proof.Bits.R1Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The down projection's region: its proof data and body obligation, at the contents `V` the region is entered with

The accumulator is carried from chunk to chunk: after each point it holds what that point's case of the body leaves
there (`outsAt1`), which the invariant `PhiS1` hands to the next point. -/

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves -/

/-- Nothing is stored into the output block off the last chunk: a placeholder nothing consults. -/
def outIdle1 : Vec F S1024x512 .f32 := VO1_3.read (Elt F) (VO1_3.junk (Val := Elt F))

theorem scover1_A (c : Dev nD) (i : grid1.Coords) (arg3 : Memref sig .tc .vmem S1024x256 .bf16) (harg3 : arg3.IsWhole) (arg4 : Memref sig .tc .vmem S512x256 .i32) (harg4 : arg4.IsWhole) (arg5 : Memref sig .tc .vmem S512x1 .f32) (harg5 : arg5.IsWhole) (arg6 : Memref sig .tc .vmem S1024x512 .f32) (harg6 : arg6.IsWhole) (arg7 : Memref sig .tc .vmem S1024x512 .f32) (harg7 : arg7.IsWhole) (hc0 : cond1_0 i) (hc1 : ¬cond1_1 i) (x0 : Vec F S1024x256 .bf16) (x1 : Vec F S512x256 .i32) (x2 : Vec F S512x1 .f32) (y : S1024x512.Idx) :
    ∃ pc ∈ (kernelRun1_A c i arg3 harg3 arg4 harg4 arg5 harg5 arg6 harg6 arg7 harg7 hc0 hc1 x0 x1 x2).1, y ∈ pc.1.set :=
  View.cover_of_tiledL (kernelRun1_A c i arg3 harg3 arg4 harg4 arg5 harg5 arg6 harg6 arg7 harg7 hc0 hc1 x0 x1 x2).1 S1024x512.size (by sl_kernel_rfl) y
/-- What the first chunk leaves in the accumulator. -/
def sout1_A (c : Dev nD) (i : grid1.Coords) (arg3 : Memref sig .tc .vmem S1024x256 .bf16) (harg3 : arg3.IsWhole) (arg4 : Memref sig .tc .vmem S512x256 .i32) (harg4 : arg4.IsWhole) (arg5 : Memref sig .tc .vmem S512x1 .f32) (harg5 : arg5.IsWhole) (arg6 : Memref sig .tc .vmem S1024x512 .f32) (harg6 : arg6.IsWhole) (arg7 : Memref sig .tc .vmem S1024x512 .f32) (harg7 : arg7.IsWhole) (hc0 : cond1_0 i) (hc1 : ¬cond1_1 i) (x0 : Vec F S1024x256 .bf16) (x1 : Vec F S512x256 .i32) (x2 : Vec F S512x1 .f32) : Vec F S1024x512 .f32 :=
  VS1_0.read (Elt F) (VS1_0.writes (Elt F) VS1_0.junk (kernelRun1_A c i arg3 harg3 arg4 harg4 arg5 harg5 arg6 harg6 arg7 harg7 hc0 hc1 x0 x1 x2).1)

theorem scover1_B (c : Dev nD) (i : grid1.Coords) (arg3 : Memref sig .tc .vmem S1024x256 .bf16) (harg3 : arg3.IsWhole) (arg4 : Memref sig .tc .vmem S512x256 .i32) (harg4 : arg4.IsWhole) (arg5 : Memref sig .tc .vmem S512x1 .f32) (harg5 : arg5.IsWhole) (arg6 : Memref sig .tc .vmem S1024x512 .f32) (harg6 : arg6.IsWhole) (arg7 : Memref sig .tc .vmem S1024x512 .f32) (harg7 : arg7.IsWhole) (hc0 : ¬cond1_0 i) (hc1 : ¬cond1_1 i) (x0 : Vec F S1024x256 .bf16) (x1 : Vec F S512x256 .i32) (x2 : Vec F S512x1 .f32) (xs0 : Vec F S1024x512 .f32) (y : S1024x512.Idx) :
    ∃ pc ∈ (kernelRun1_B c i arg3 harg3 arg4 harg4 arg5 harg5 arg6 harg6 arg7 harg7 hc0 hc1 x0 x1 x2 xs0).1, y ∈ pc.1.set :=
  View.cover_of_tiledL (kernelRun1_B c i arg3 harg3 arg4 harg4 arg5 harg5 arg6 harg6 arg7 harg7 hc0 hc1 x0 x1 x2 xs0).1 S1024x512.size (by sl_kernel_rfl) y
/-- What a middle chunk leaves in the accumulator. -/
def sout1_B (c : Dev nD) (i : grid1.Coords) (arg3 : Memref sig .tc .vmem S1024x256 .bf16) (harg3 : arg3.IsWhole) (arg4 : Memref sig .tc .vmem S512x256 .i32) (harg4 : arg4.IsWhole) (arg5 : Memref sig .tc .vmem S512x1 .f32) (harg5 : arg5.IsWhole) (arg6 : Memref sig .tc .vmem S1024x512 .f32) (harg6 : arg6.IsWhole) (arg7 : Memref sig .tc .vmem S1024x512 .f32) (harg7 : arg7.IsWhole) (hc0 : ¬cond1_0 i) (hc1 : ¬cond1_1 i) (x0 : Vec F S1024x256 .bf16) (x1 : Vec F S512x256 .i32) (x2 : Vec F S512x1 .f32) (xs0 : Vec F S1024x512 .f32) : Vec F S1024x512 .f32 :=
  VS1_0.read (Elt F) (VS1_0.writes (Elt F) VS1_0.junk (kernelRun1_B c i arg3 harg3 arg4 harg4 arg5 harg5 arg6 harg6 arg7 harg7 hc0 hc1 x0 x1 x2 xs0).1)

theorem cover1_C (c : Dev nD) (i : grid1.Coords) (arg3 : Memref sig .tc .vmem S1024x256 .bf16) (harg3 : arg3.IsWhole) (arg4 : Memref sig .tc .vmem S512x256 .i32) (harg4 : arg4.IsWhole) (arg5 : Memref sig .tc .vmem S512x1 .f32) (harg5 : arg5.IsWhole) (arg6 : Memref sig .tc .vmem S1024x512 .f32) (harg6 : arg6.IsWhole) (arg7 : Memref sig .tc .vmem S1024x512 .f32) (harg7 : arg7.IsWhole) (hc0 : ¬cond1_0 i) (hc1 : cond1_1 i) (x0 : Vec F S1024x256 .bf16) (x1 : Vec F S512x256 .i32) (x2 : Vec F S512x1 .f32) (xs0 : Vec F S1024x512 .f32) (y : S1024x512.Idx) :
    ∃ pc ∈ (kernelRun1_C c i arg3 harg3 arg4 harg4 arg5 harg5 arg6 harg6 arg7 harg7 hc0 hc1 x0 x1 x2 xs0).1, y ∈ pc.1.set :=
  View.cover_of_tiledL (kernelRun1_C c i arg3 harg3 arg4 harg4 arg5 harg5 arg6 harg6 arg7 harg7 hc0 hc1 x0 x1 x2 xs0).1 S1024x512.size (by sl_kernel_rfl) y
/-- What the last chunk leaves in the output block. -/
def out1_C (c : Dev nD) (i : grid1.Coords) (arg3 : Memref sig .tc .vmem S1024x256 .bf16) (harg3 : arg3.IsWhole) (arg4 : Memref sig .tc .vmem S512x256 .i32) (harg4 : arg4.IsWhole) (arg5 : Memref sig .tc .vmem S512x1 .f32) (harg5 : arg5.IsWhole) (arg6 : Memref sig .tc .vmem S1024x512 .f32) (harg6 : arg6.IsWhole) (arg7 : Memref sig .tc .vmem S1024x512 .f32) (harg7 : arg7.IsWhole) (hc0 : ¬cond1_0 i) (hc1 : cond1_1 i) (x0 : Vec F S1024x256 .bf16) (x1 : Vec F S512x256 .i32) (x2 : Vec F S512x1 .f32) (xs0 : Vec F S1024x512 .f32) : Vec F S1024x512 .f32 :=
  VO1_3.read (Elt F) (VO1_3.writes (Elt F) VO1_3.junk (kernelRun1_C c i arg3 harg3 arg4 harg4 arg5 harg5 arg6 harg6 arg7 harg7 hc0 hc1 x0 x1 x2 xs0).1)
theorem scover1_C (c : Dev nD) (i : grid1.Coords) (arg3 : Memref sig .tc .vmem S1024x256 .bf16) (harg3 : arg3.IsWhole) (arg4 : Memref sig .tc .vmem S512x256 .i32) (harg4 : arg4.IsWhole) (arg5 : Memref sig .tc .vmem S512x1 .f32) (harg5 : arg5.IsWhole) (arg6 : Memref sig .tc .vmem S1024x512 .f32) (harg6 : arg6.IsWhole) (arg7 : Memref sig .tc .vmem S1024x512 .f32) (harg7 : arg7.IsWhole) (hc0 : ¬cond1_0 i) (hc1 : cond1_1 i) (x0 : Vec F S1024x256 .bf16) (x1 : Vec F S512x256 .i32) (x2 : Vec F S512x1 .f32) (xs0 : Vec F S1024x512 .f32) (y : S1024x512.Idx) :
    ∃ pc ∈ (kernelRun1_C c i arg3 harg3 arg4 harg4 arg5 harg5 arg6 harg6 arg7 harg7 hc0 hc1 x0 x1 x2 xs0).2.1, y ∈ pc.1.set :=
  View.cover_of_tiledL (kernelRun1_C c i arg3 harg3 arg4 harg4 arg5 harg5 arg6 harg6 arg7 harg7 hc0 hc1 x0 x1 x2 xs0).2.1 S1024x512.size (by sl_kernel_rfl) y
/-- What the last chunk leaves in the accumulator. -/
def sout1_C (c : Dev nD) (i : grid1.Coords) (arg3 : Memref sig .tc .vmem S1024x256 .bf16) (harg3 : arg3.IsWhole) (arg4 : Memref sig .tc .vmem S512x256 .i32) (harg4 : arg4.IsWhole) (arg5 : Memref sig .tc .vmem S512x1 .f32) (harg5 : arg5.IsWhole) (arg6 : Memref sig .tc .vmem S1024x512 .f32) (harg6 : arg6.IsWhole) (arg7 : Memref sig .tc .vmem S1024x512 .f32) (harg7 : arg7.IsWhole) (hc0 : ¬cond1_0 i) (hc1 : cond1_1 i) (x0 : Vec F S1024x256 .bf16) (x1 : Vec F S512x256 .i32) (x2 : Vec F S512x1 .f32) (xs0 : Vec F S1024x512 .f32) : Vec F S1024x512 .f32 :=
  VS1_0.read (Elt F) (VS1_0.writes (Elt F) VS1_0.junk (kernelRun1_C c i arg3 harg3 arg4 harg4 arg5 harg5 arg6 harg6 arg7 harg7 hc0 hc1 x0 x1 x2 xs0).2.1)

/-! ## What the output block and the accumulator hold after each point -/

/-- After the body at position `n`: (the output block's staging buffer, the accumulator). The case is read off
    the position of the chunk (`n % 43`); a middle or last chunk starts from what the point before left. -/
def outsAt1 (c : Dev nD) : (n : ℕ) → n < cfg1.N → Vec F S1024x512 .f32 × Vec F S1024x512 .f32
  | 0, hn => (outIdle1, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 43 = 0 then
      if h1 : (n + 1) % 43 = 42 then
        False.elim (by omega)
      else
        (outIdle1, sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 43 = 42 then
        (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (outIdle1, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val % 43 = 0) (h1 : ¬t.val % 43 = 42) :
    outsAt1 V c t.val t.isLt = (outIdle1, sout1_A c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 43 = 0) (h1 : ¬t.val % 43 = 42) :
    outsAt1 V c t.val t.isLt = (outIdle1, sout1_B c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 43 = 0) (h1 : t.val % 43 = 42) :
    outsAt1 V c t.val t.isLt = (out1_C c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- The class invariant with the accumulator split off: the accumulator at some contents, the other scoped
    buffers that are no staging buffer of this launch unopened, the generator register at some state. -/
theorem PhiA1_eq (c : Dev nD) :
    (Pipeline.ΦA spec1 c : sProp 𝕄)
      = iprop(iprop((∃ d, owns (c : Thread nD τ) scM1_0 fullShare d) ∗ Pipeline.scopedRestBut (Ix := Unit) (Name := ℕ) (U := UR sig nD τ) (Lvl := ℕ) (Val := Elt F) spec1 c [cc1_scratch0]) ∗ (∃ r, prngReg c r)) := by
  unfold Pipeline.ΦA
  rw [Pipeline.scopedRest_split_of_list spec1 c [cc1_scratch0] (by decide) (by decide)]
  simp only [scM1_0, owns_whole]; try rfl

/-- Before position `n`: at the first point the class invariant; afterwards the accumulator at what the point before
    left in it, the other scoped buffers unopened, the generator register at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2) ∗ Pipeline.scopedRestBut (Ix := Unit) (Name := ℕ) (U := UR sig nD τ) (Lvl := ℕ) (Val := Elt F) spec1 c [cc1_scratch0]) ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The proof data -/

/-- The arrays as the region finds them; after the body each input's buffer at its block, the output's and the
    accumulator at `outsAt1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

end Cert.Kernel.Hand

end
-- ==== Proof.Bits.R1Body.lean ====
import proofs.«149759_j59433757442706_1_alg».proof.Proof.Bits.R1Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The down projection's region: the body obligation at every point -/

variable (V : (c : Dev nD) → (b : Ref sig .tc) → Buf (Elt F) ((c : Thread nD τ).loc b))

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the position of the chunk says which case the
    point is in; the invariant hands the body the accumulator at what the point before left (at anything at the
    first point) and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 2752 := lt_of_lt_of_eq t.isLt (show cfg1.N = 2752 from N_1)
  by_cases h0 : t.val % 43 = 0
  · by_cases h1 : t.val % 43 = 42
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [outsAt1_A V c t h0 h1]
      unfold sout1_A; (try dsimp only)
      by_cases hz : t.val = 0
      · rw [PhiS1_castSucc V c t, PhiS1_zero V c _ _ hz, PhiA1_eq]
        iintro ⟨⟨⟨HS0, Hrest⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_A c _ _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨HS0, Hrest⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_A c _ _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3
  · by_cases h1 : t.val % 43 = 42
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C sout1_C; (try dsimp only)
      by_cases hz : t.val = 0
      · exfalso; omega
      · rw [PhiS1_castSucc V c t, PhiS1_pos V c _ _ hz]
        iintro ⟨⟨⟨HS0, Hrest⟩, Hg⟩, Ho, ⟨%d0, H0⟩, ⟨%d1, H1⟩, ⟨%d2, H2⟩, ⟨%d3, H3⟩⟩
        iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_C c _ _ _ _ _ _ _ _ _ _ _ _ _ _ _ _ _)
            iexact Hrest
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C c _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B; (try dsimp only)
      by_cases hz : t.val = 0
      · exfalso; omega
      · rw [PhiS1_castSucc V c t, PhiS1_pos V c _ _ hz]
        iintro ⟨⟨⟨HS0, Hrest⟩, Hg⟩, Ho, ⟨%d0, H0⟩, ⟨%d1, H1⟩, ⟨%d2, H2⟩, ⟨%d3, H3⟩⟩
        iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_B c _ _ _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- After any point but the first the invariant gives the class invariant back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, Hrest⟩, Hg⟩
  isplitl [HS0 Hrest]
  · isplitl [HS0]
    · iexists _; iexact HS0
    iexact Hrest
  iexact Hg

theorem hout1 (c : Dev nD) : (dat1 V c).Φ (Fin.last cfg1.N) ⊢ Pipeline.ΦA spec1 c :=
  Phi_out1 V c _ (by rw [Fin.val_last]; have : cfg1.N = 2752 := N_1; omega)

end Cert.Kernel.Hand

end
-- ==== Proof.Bits.Run.lean ====
import proofs.«149759_j59433757442706_1_alg».proof.Proof.Bits.R0Body
import proofs.«149759_j59433757442706_1_alg».proof.Proof.Bits.R1Body
import proofs.«149759_j59433757442706_1_alg».proof.Proof.Gen.Kernel.Regions
import Idealize.ShloMosaic.Lib.StableHlo.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run: @main's four segments from the launch to the return

@main is two host operations (the tokens flattened to 8192 rows and narrowed), the gate / up launch, the down launch, and
one host operation (the result reshaped). The buffers' contents at each boundary are a fold from the launch memory:
a host stretch's operations applied, a launch's arrays at what its write-backs leave. -/

variable (m : (ℓ : Loc nD τ sig) → Buf (Elt F) ℓ)

/-- Core `c`'s buffers at launch. -/
abbrev W0 : Dev nD → Valuation τ sig (Elt F) := fun c b => m (c, b)
/-- After the two host operations before the first launch. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the first launch's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- At the second launch's exit. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)
/-- After the last host operation. -/
abbrev W4 : Dev nD → Valuation τ sig (Elt F) := fun c => StableHlo.after hostOps2 (W3 m c)

/-! ## The arguments end as launched: no host operation and no launch writes one -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := StableHlo.after_of_writes_sub hostOps2 _ hostOps2_writes (r := main_arg0) (by decide)
    _ = W2 m c (Proc.devRef .tc main_arg0) := W3_of_ne m c main_arg0 (by decide)
    _ = W1 m c (Proc.devRef .tc main_arg0) := W2_of_ne m c main_arg0 (by decide)
    _ = W0 m c (Proc.devRef .tc main_arg0) := StableHlo.after_of_writes_sub hostOps0 _ hostOps0_writes (r := main_arg0) (by decide)
    _ = m ((c : Thread nD τ).loc main_arg0) := rfl
theorem W4_main_arg1 (c : Dev nD) : W4 m c (Proc.devRef .tc main_arg1) = m ((c : Thread nD τ).loc main_arg1) :=
  calc W4 m c (Proc.devRef .tc main_arg1)
    _ = W3 m c (Proc.devRef .tc main_arg1) := StableHlo.after_of_writes_sub hostOps2 _ hostOps2_writes (r := main_arg1) (by decide)
    _ = W2 m c (Proc.devRef .tc main_arg1) := W3_of_ne m c main_arg1 (by decide)
    _ = W1 m c (Proc.devRef .tc main_arg1) := (W2_arr m c 1).trans (((dat0 (V1 m) c).arrAt_in 1 rfl _).trans (A_eq0 (V1 m) c 1))
    _ = W0 m c (Proc.devRef .tc main_arg1) := StableHlo.after_of_writes_sub hostOps0 _ hostOps0_writes (r := main_arg1) (by decide)
    _ = m ((c : Thread nD τ).loc main_arg1) := rfl
theorem W4_main_arg2 (c : Dev nD) : W4 m c (Proc.devRef .tc main_arg2) = m ((c : Thread nD τ).loc main_arg2) :=
  calc W4 m c (Proc.devRef .tc main_arg2)
    _ = W3 m c (Proc.devRef .tc main_arg2) := StableHlo.after_of_writes_sub hostOps2 _ hostOps2_writes (r := main_arg2) (by decide)
    _ = W2 m c (Proc.devRef .tc main_arg2) := W3_of_ne m c main_arg2 (by decide)
    _ = W1 m c (Proc.devRef .tc main_arg2) := (W2_arr m c 2).trans (((dat0 (V1 m) c).arrAt_in 2 rfl _).trans (A_eq0 (V1 m) c 2))
    _ = W0 m c (Proc.devRef .tc main_arg2) := StableHlo.after_of_writes_sub hostOps0 _ hostOps0_writes (r := main_arg2) (by decide)
    _ = m ((c : Thread nD τ).loc main_arg2) := rfl
theorem W4_main_arg3 (c : Dev nD) : W4 m c (Proc.devRef .tc main_arg3) = m ((c : Thread nD τ).loc main_arg3) :=
  calc W4 m c (Proc.devRef .tc main_arg3)
    _ = W3 m c (Proc.devRef .tc main_arg3) := StableHlo.after_of_writes_sub hostOps2 _ hostOps2_writes (r := main_arg3) (by decide)
    _ = W2 m c (Proc.devRef .tc main_arg3) := W3_of_ne m c main_arg3 (by decide)
    _ = W1 m c (Proc.devRef .tc main_arg3) := (W2_arr m c 3).trans (((dat0 (V1 m) c).arrAt_in 3 rfl _).trans (A_eq0 (V1 m) c 3))
    _ = W0 m c (Proc.devRef .tc main_arg3) := StableHlo.after_of_writes_sub hostOps0 _ hostOps0_writes (r := main_arg3) (by decide)
    _ = m ((c : Thread nD τ).loc main_arg3) := rfl
theorem W4_main_arg4 (c : Dev nD) : W4 m c (Proc.devRef .tc main_arg4) = m ((c : Thread nD τ).loc main_arg4) :=
  calc W4 m c (Proc.devRef .tc main_arg4)
    _ = W3 m c (Proc.devRef .tc main_arg4) := StableHlo.after_of_writes_sub hostOps2 _ hostOps2_writes (r := main_arg4) (by decide)
    _ = W2 m c (Proc.devRef .tc main_arg4) := W3_of_ne m c main_arg4 (by decide)
    _ = W1 m c (Proc.devRef .tc main_arg4) := (W2_arr m c 4).trans (((dat0 (V1 m) c).arrAt_in 4 rfl _).trans (A_eq0 (V1 m) c 4))
    _ = W0 m c (Proc.devRef .tc main_arg4) := StableHlo.after_of_writes_sub hostOps0 _ hostOps0_writes (r := main_arg4) (by decide)
    _ = m ((c : Thread nD τ).loc main_arg4) := rfl
theorem W4_main_arg5 (c : Dev nD) : W4 m c (Proc.devRef .tc main_arg5) = m ((c : Thread nD τ).loc main_arg5) :=
  calc W4 m c (Proc.devRef .tc main_arg5)
    _ = W3 m c (Proc.devRef .tc main_arg5) := StableHlo.after_of_writes_sub hostOps2 _ hostOps2_writes (r := main_arg5) (by decide)
    _ = W2 m c (Proc.devRef .tc main_arg5) := (W3_arr m c 1).trans (((dat1 (V2 m) c).arrAt_in 1 rfl _).trans (A_eq1 (V2 m) c 1))
    _ = W1 m c (Proc.devRef .tc main_arg5) := W2_of_ne m c main_arg5 (by decide)
    _ = W0 m c (Proc.devRef .tc main_arg5) := StableHlo.after_of_writes_sub hostOps0 _ hostOps0_writes (r := main_arg5) (by decide)
    _ = m ((c : Thread nD τ).loc main_arg5) := rfl
theorem W4_main_arg6 (c : Dev nD) : W4 m c (Proc.devRef .tc main_arg6) = m ((c : Thread nD τ).loc main_arg6) :=
  calc W4 m c (Proc.devRef .tc main_arg6)
    _ = W3 m c (Proc.devRef .tc main_arg6) := StableHlo.after_of_writes_sub hostOps2 _ hostOps2_writes (r := main_arg6) (by decide)
    _ = W2 m c (Proc.devRef .tc main_arg6) := (W3_arr m c 2).trans (((dat1 (V2 m) c).arrAt_in 2 rfl _).trans (A_eq1 (V2 m) c 2))
    _ = W1 m c (Proc.devRef .tc main_arg6) := W2_of_ne m c main_arg6 (by decide)
    _ = W0 m c (Proc.devRef .tc main_arg6) := StableHlo.after_of_writes_sub hostOps0 _ hostOps0_writes (r := main_arg6) (by decide)
    _ = m ((c : Thread nD τ).loc main_arg6) := rfl

/-! ## The proof data family and the thread state -/

/-- Both pipelines' proof data, each at its launch's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The launches as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (hout0 (V1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (hout1 (V2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)) ]
theorem main_run (c : Dev nD) : main (F := F) c = Pipeline.Seg.run (segs m) := (main_chain c).trans (by chain_rfl)

set_option backward.isDefEq.respectTransparency.types false in
/-- From any memory with zero counters every weakly fair execution of @main terminates, nothing faulting, and every
    final state has each unscoped buffer at the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => (show iprop(StableHlo.held (c : Thread nD τ) (Pipeline.ucRefs τ sig) (W4 m c) ∗ R c)
        ⊢ iprop(Tₙ m c ∗ ∃ W, owes (c : Thread nD τ) (0 : CellTallies nD τ sig Unit) W) from by
      iintro ⟨Hh, Hp, HO⟩
      isplitl [Hh Hp]
      · isplitl [Hh]; · iexact Hh
        iexact Hp
      iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- THE FRAME: the argument arrays end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c),
     (h c _ (mem_uc main_arg5 (by decide))).trans (W4_main_arg5 m c),
     (h c _ (mem_uc main_arg6 (by decide))).trans (W4_main_arg6 m c)⟩) (run_all m ρ)

/-- THE RUN WITH THE RESULT NAMED: the result buffer ends at the last boundary's contents, the arguments as launched. -/
theorem run_value (ρ : Dev nD → PrngReg) : θ_run defs (onTc (τ := τ) (main (F := F))) ⟨m, fun _ => 0, ρ⟩ (fun r => ∀ c : Dev nD,
      r.2.mem ((c.tc : Thread nD τ).loc main_v4) = W4 m c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨h c _ (mem_uc main_v4 (by decide)),
     (h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c),
     (h c _ (mem_uc main_arg5 (by decide))).trans (W4_main_arg5 m c),
     (h c _ (mem_uc main_arg6 (by decide))).trans (W4_main_arg6 m c)⟩) (run_all m ρ)

end Cert.Kernel.Hand

end
-- ==== Proof.R0Shared.lean ====
import proofs.«149759_j59433757442706_1_alg».proof.Proof.Gen.KernelIdeal.Launch
import proofs.«149759_j59433757442706_1_alg».proof.Proof.Gen.KernelIdeal.Skeleton
import proofs.«149759_j59433757442706_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The gate / up projections' kernel (the first launch): what every case of its body shares

The grid is 8 × 43 × 4: a block of 1024 tokens, a block of 256 hidden features, and the 4 chunks of 1024 model
features the contraction is cut into. Two accumulators (scratch buffers of 1024 × 256, one for the gate and one for the
up projection) are zeroed at the first chunk and added to at every chunk; at the last chunk the hidden activation
`silu(gate) · up` is stored into the output block. -/

/-- The first chunk of the contraction: the accumulators are reset here. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- The last chunk: the hidden activation is stored here. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-- The five input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- Off the last chunk the output window is idle and is not written back. -/
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
/-- At the last chunk it is live. -/
theorem liveAt0_5 : ∀ t : Fin cfg0.N, cond0_1 (grid0.coords t) → cfg0.idle 5 (grid0.coords t) = false := by decide +kernel

/-- One staging buffer of the output window, through which its contents are stated. -/
abbrev VO0_5 : View sig .tc .vmem S1024x256 .bf16 := (Memref.whole cc0_stg5_0 : Memref sig .tc .vmem S1024x256 .bf16).view
/-- Each window's current staging memref at point `t`, as the pipeline passes it. -/
abbrev ms0_0 (t : Fin cfg0.N) : Memref sig .tc .vmem S1024x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x1024 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x1024 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x256 .bf16 := win0_5.stage (cfg0.slots t 5)
abbrev hs0_5 (t : Fin cfg0.N) : (ms0_5 t).IsWhole := hstage0_5 ((cfg0.slots t 5).cast nbuf0_5)
/-- The two accumulators: whole scoped buffers of the kernel's own. -/
abbrev scM0_0 : Memref sig .tc .vmem S1024x256 .f32 := Memref.whole cc0_scratch0
abbrev scM0_1 : Memref sig .tc .vmem S1024x256 .f32 := Memref.whole cc0_scratch1
abbrev VS0_0 : View sig .tc .vmem S1024x256 .f32 := scM0_0.view
abbrev VS0_1 : View sig .tc .vmem S1024x256 .f32 := scM0_1.view

end Cert.KernelIdeal.Hand

end
-- ==== Proof.R0Run.lean ====
import proofs.«149759_j59433757442706_1_alg».proof.Proof.R0Shared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The gate / up projections' kernel body, case by case

Each case is the body's triple on whole staging memrefs, with the pieces the stores leave in the two accumulators
(and, at the last chunk, in the output block) found by running the body. -/

set_option maxHeartbeats 2000000 in
/-- FIRST CHUNK: both accumulators are zeroed and the chunk's products added; the output block is handed back untouched. -/
noncomputable def kernelRun0_A (c : Dev nD) (i : grid0.Coords) (arg3 : Memref sig .tc .vmem S1024x1024 .bf16) (harg3 : arg3.IsWhole) (arg4 : Memref sig .tc .vmem S256x1024 .i32) (harg4 : arg4.IsWhole) (arg5 : Memref sig .tc .vmem S256x1 .f32) (harg5 : arg5.IsWhole) (arg6 : Memref sig .tc .vmem S256x1024 .i32) (harg6 : arg6.IsWhole) (arg7 : Memref sig .tc .vmem S256x1 .f32) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (hc0 : cond0_0 i) (hc1 : ¬cond0_1 i)
    (x0 : Vec F S1024x1024 .bf16) (x1 : Vec F S256x1024 .i32) (x2 : Vec F S256x1 .f32) (x3 : Vec F S256x1024 .i32) (x4 : Vec F S256x1 .f32) :
    Σ' (LS0 : List (View.Piece (Elt F) S1024x256 .f32)), { LS1 : List (View.Piece (Elt F) S1024x256 .f32) //
      ∀ (xi5 : Vec F S1024x256 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__mlp1_kernel i arg3 harg3 arg4 harg4 arg5 harg5 arg6 harg6 arg7 harg7 arg8 harg8 arg9 harg9 arg10 harg10) K } := by
  refine ⟨?_, ?_, fun xi5 E K => ?run⟩
  case run =>
    simp only [cc0__mlp1_kernel_eq_skeleton]; unfold cc0__mlp1_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexists _; iexact HS0
    iexists _; iexact HS1

set_option maxHeartbeats 2000000 in
/-- A MIDDLE CHUNK: the chunk's products are added to what the chunk before left; the output block is handed back untouched. -/
noncomputable def kernelRun0_B (c : Dev nD) (i : grid0.Coords) (arg3 : Memref sig .tc .vmem S1024x1024 .bf16) (harg3 : arg3.IsWhole) (arg4 : Memref sig .tc .vmem S256x1024 .i32) (harg4 : arg4.IsWhole) (arg5 : Memref sig .tc .vmem S256x1 .f32) (harg5 : arg5.IsWhole) (arg6 : Memref sig .tc .vmem S256x1024 .i32) (harg6 : arg6.IsWhole) (arg7 : Memref sig .tc .vmem S256x1 .f32) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (hc0 : ¬cond0_0 i) (hc1 : ¬cond0_1 i)
    (x0 : Vec F S1024x1024 .bf16) (x1 : Vec F S256x1024 .i32) (x2 : Vec F S256x1 .f32) (x3 : Vec F S256x1024 .i32) (x4 : Vec F S256x1 .f32) (xs0 : Vec F S1024x256 .f32) (xs1 : Vec F S1024x256 .f32) :
    Σ' (LS0 : List (View.Piece (Elt F) S1024x256 .f32)), { LS1 : List (View.Piece (Elt F) S1024x256 .f32) //
      ∀ (xi5 : Vec F S1024x256 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0 ∗ owns (c : Thread nD τ) arg10 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__mlp1_kernel i arg3 harg3 arg4 harg4 arg5 harg5 arg6 harg6 arg7 harg7 arg8 harg8 arg9 harg9 arg10 harg10) K } := by
  refine ⟨?_, ?_, fun xi5 E K => ?run⟩
  case run =>
    simp only [cc0__mlp1_kernel_eq_skeleton]; unfold cc0__mlp1_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0; obtain rfl := harg10.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexists _; iexact HS0
    iexists _; iexact HS1

set_option maxHeartbeats 2000000 in
/-- THE LAST CHUNK: the chunk's products are added, and `silu(gate) · up` of the two accumulators stored into the output block. -/
noncomputable def kernelRun0_C (c : Dev nD) (i : grid0.Coords) (arg3 : Memref sig .tc .vmem S1024x1024 .bf16) (harg3 : arg3.IsWhole) (arg4 : Memref sig .tc .vmem S256x1024 .i32) (harg4 : arg4.IsWhole) (arg5 : Memref sig .tc .vmem S256x1 .f32) (harg5 : arg5.IsWhole) (arg6 : Memref sig .tc .vmem S256x1024 .i32) (harg6 : arg6.IsWhole) (arg7 : Memref sig .tc .vmem S256x1 .f32) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (hc0 : ¬cond0_0 i) (hc1 : cond0_1 i)
    (x0 : Vec F S1024x1024 .bf16) (x1 : Vec F S256x1024 .i32) (x2 : Vec F S256x1 .f32) (x3 : Vec F S256x1024 .i32) (x4 : Vec F S256x1 .f32) (xs0 : Vec F S1024x256 .f32) (xs1 : Vec F S1024x256 .f32) :
    Σ' (L5 : List (View.Piece (Elt F) S1024x256 .bf16)) (LS0 : List (View.Piece (Elt F) S1024x256 .f32)), { LS1 : List (View.Piece (Elt F) S1024x256 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0 ∗ owns (c : Thread nD τ) arg10 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__mlp1_kernel i arg3 harg3 arg4 harg4 arg5 harg5 arg6 harg6 arg7 harg7 arg8 harg8 arg9 harg9 arg10 harg10) K } := by
  refine ⟨?_, ?_, ?_, fun E K => ?run⟩
  case run =>
    simp only [cc0__mlp1_kernel_eq_skeleton]; unfold cc0__mlp1_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs0; obtain rfl := harg10.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [HS0]; · iexists _; iexact HS0
    iexists _; iexact HS1

end Cert.KernelIdeal.Hand

end
-- ==== Proof.R0Frame.lean ====
import proofs.«149759_j59433757442706_1_alg».proof.Proof.R0Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The gate / up projections' region: its proof data, at the contents `V` the region is entered with

The two accumulators are carried from chunk to chunk: after each point they hold what that point's case of the body
leaves there (`outsAt0`), which the invariant `PhiS0` hands to the next point. -/

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Each input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves -/

/-- Nothing is stored into the output block off the last chunk: a placeholder nothing consults. -/
def outIdle0 : Vec F S1024x256 .bf16 := VO0_5.read (Elt F) (VO0_5.junk (Val := Elt F))

theorem scover0_A_0 (c : Dev nD) (i : grid0.Coords) (arg3 : Memref sig .tc .vmem S1024x1024 .bf16) (harg3 : arg3.IsWhole) (arg4 : Memref sig .tc .vmem S256x1024 .i32) (harg4 : arg4.IsWhole) (arg5 : Memref sig .tc .vmem S256x1 .f32) (harg5 : arg5.IsWhole) (arg6 : Memref sig .tc .vmem S256x1024 .i32) (harg6 : arg6.IsWhole) (arg7 : Memref sig .tc .vmem S256x1 .f32) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (hc0 : cond0_0 i) (hc1 : ¬cond0_1 i) (x0 : Vec F S1024x1024 .bf16) (x1 : Vec F S256x1024 .i32) (x2 : Vec F S256x1 .f32) (x3 : Vec F S256x1024 .i32) (x4 : Vec F S256x1 .f32) (y : S1024x256.Idx) :
    ∃ pc ∈ (kernelRun0_A c i arg3 harg3 arg4 harg4 arg5 harg5 arg6 harg6 arg7 harg7 arg8 harg8 arg9 harg9 arg10 harg10 hc0 hc1 x0 x1 x2 x3 x4).1, y ∈ pc.1.set :=
  View.cover_of_tiledL (kernelRun0_A c i arg3 harg3 arg4 harg4 arg5 harg5 arg6 harg6 arg7 harg7 arg8 harg8 arg9 harg9 arg10 harg10 hc0 hc1 x0 x1 x2 x3 x4).1 S1024x256.size (by sl_kernel_rfl) y
theorem scover0_A_1 (c : Dev nD) (i : grid0.Coords) (arg3 : Memref sig .tc .vmem S1024x1024 .bf16) (harg3 : arg3.IsWhole) (arg4 : Memref sig .tc .vmem S256x1024 .i32) (harg4 : arg4.IsWhole) (arg5 : Memref sig .tc .vmem S256x1 .f32) (harg5 : arg5.IsWhole) (arg6 : Memref sig .tc .vmem S256x1024 .i32) (harg6 : arg6.IsWhole) (arg7 : Memref sig .tc .vmem S256x1 .f32) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (hc0 : cond0_0 i) (hc1 : ¬cond0_1 i) (x0 : Vec F S1024x1024 .bf16) (x1 : Vec F S256x1024 .i32) (x2 : Vec F S256x1 .f32) (x3 : Vec F S256x1024 .i32) (x4 : Vec F S256x1 .f32) (y : S1024x256.Idx) :
    ∃ pc ∈ (kernelRun0_A c i arg3 harg3 arg4 harg4 arg5 harg5 arg6 harg6 arg7 harg7 arg8 harg8 arg9 harg9 arg10 harg10 hc0 hc1 x0 x1 x2 x3 x4).2.1, y ∈ pc.1.set :=
  View.cover_of_tiledL (kernelRun0_A c i arg3 harg3 arg4 harg4 arg5 harg5 arg6 harg6 arg7 harg7 arg8 harg8 arg9 harg9 arg10 harg10 hc0 hc1 x0 x1 x2 x3 x4).2.1 S1024x256.size (by sl_kernel_rfl) y
/-- What the first chunk leaves in the gate accumulator, -/
def sout0_A_0 (c : Dev nD) (i : grid0.Coords) (arg3 : Memref sig .tc .vmem S1024x1024 .bf16) (harg3 : arg3.IsWhole) (arg4 : Memref sig .tc .vmem S256x1024 .i32) (harg4 : arg4.IsWhole) (arg5 : Memref sig .tc .vmem S256x1 .f32) (harg5 : arg5.IsWhole) (arg6 : Memref sig .tc .vmem S256x1024 .i32) (harg6 : arg6.IsWhole) (arg7 : Memref sig .tc .vmem S256x1 .f32) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (hc0 : cond0_0 i) (hc1 : ¬cond0_1 i) (x0 : Vec F S1024x1024 .bf16) (x1 : Vec F S256x1024 .i32) (x2 : Vec F S256x1 .f32) (x3 : Vec F S256x1024 .i32) (x4 : Vec F S256x1 .f32) : Vec F S1024x256 .f32 :=
  VS0_0.read (Elt F) (VS0_0.writes (Elt F) VS0_0.junk (kernelRun0_A c i arg3 harg3 arg4 harg4 arg5 harg5 arg6 harg6 arg7 harg7 arg8 harg8 arg9 harg9 arg10 harg10 hc0 hc1 x0 x1 x2 x3 x4).1)
/-- and in the up accumulator. -/
def sout0_A_1 (c : Dev nD) (i : grid0.Coords) (arg3 : Memref sig .tc .vmem S1024x1024 .bf16) (harg3 : arg3.IsWhole) (arg4 : Memref sig .tc .vmem S256x1024 .i32) (harg4 : arg4.IsWhole) (arg5 : Memref sig .tc .vmem S256x1 .f32) (harg5 : arg5.IsWhole) (arg6 : Memref sig .tc .vmem S256x1024 .i32) (harg6 : arg6.IsWhole) (arg7 : Memref sig .tc .vmem S256x1 .f32) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (hc0 : cond0_0 i) (hc1 : ¬cond0_1 i) (x0 : Vec F S1024x1024 .bf16) (x1 : Vec F S256x1024 .i32) (x2 : Vec F S256x1 .f32) (x3 : Vec F S256x1024 .i32) (x4 : Vec F S256x1 .f32) : Vec F S1024x256 .f32 :=
  VS0_1.read (Elt F) (VS0_1.writes (Elt F) VS0_1.junk (kernelRun0_A c i arg3 harg3 arg4 harg4 arg5 harg5 arg6 harg6 arg7 harg7 arg8 harg8 arg9 harg9 arg10 harg10 hc0 hc1 x0 x1 x2 x3 x4).2.1)

theorem scover0_B_0 (c : Dev nD) (i : grid0.Coords) (arg3 : Memref sig .tc .vmem S1024x1024 .bf16) (harg3 : arg3.IsWhole) (arg4 : Memref sig .tc .vmem S256x1024 .i32) (harg4 : arg4.IsWhole) (arg5 : Memref sig .tc .vmem S256x1 .f32) (harg5 : arg5.IsWhole) (arg6 : Memref sig .tc .vmem S256x1024 .i32) (harg6 : arg6.IsWhole) (arg7 : Memref sig .tc .vmem S256x1 .f32) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (hc0 : ¬cond0_0 i) (hc1 : ¬cond0_1 i) (x0 : Vec F S1024x1024 .bf16) (x1 : Vec F S256x1024 .i32) (x2 : Vec F S256x1 .f32) (x3 : Vec F S256x1024 .i32) (x4 : Vec F S256x1 .f32) (xs0 xs1 : Vec F S1024x256 .f32) (y : S1024x256.Idx) :
    ∃ pc ∈ (kernelRun0_B c i arg3 harg3 arg4 harg4 arg5 harg5 arg6 harg6 arg7 harg7 arg8 harg8 arg9 harg9 arg10 harg10 hc0 hc1 x0 x1 x2 x3 x4 xs0 xs1).1, y ∈ pc.1.set :=
  View.cover_of_tiledL (kernelRun0_B c i arg3 harg3 arg4 harg4 arg5 harg5 arg6 harg6 arg7 harg7 arg8 harg8 arg9 harg9 arg10 harg10 hc0 hc1 x0 x1 x2 x3 x4 xs0 xs1).1 S1024x256.size (by sl_kernel_rfl) y
theorem scover0_B_1 (c : Dev nD) (i : grid0.Coords) (arg3 : Memref sig .tc .vmem S1024x1024 .bf16) (harg3 : arg3.IsWhole) (arg4 : Memref sig .tc .vmem S256x1024 .i32) (harg4 : arg4.IsWhole) (arg5 : Memref sig .tc .vmem S256x1 .f32) (harg5 : arg5.IsWhole) (arg6 : Memref sig .tc .vmem S256x1024 .i32) (harg6 : arg6.IsWhole) (arg7 : Memref sig .tc .vmem S256x1 .f32) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (hc0 : ¬cond0_0 i) (hc1 : ¬cond0_1 i) (x0 : Vec F S1024x1024 .bf16) (x1 : Vec F S256x1024 .i32) (x2 : Vec F S256x1 .f32) (x3 : Vec F S256x1024 .i32) (x4 : Vec F S256x1 .f32) (xs0 xs1 : Vec F S1024x256 .f32) (y : S1024x256.Idx) :
    ∃ pc ∈ (kernelRun0_B c i arg3 harg3 arg4 harg4 arg5 harg5 arg6 harg6 arg7 harg7 arg8 harg8 arg9 harg9 arg10 harg10 hc0 hc1 x0 x1 x2 x3 x4 xs0 xs1).2.1, y ∈ pc.1.set :=
  View.cover_of_tiledL (kernelRun0_B c i arg3 harg3 arg4 harg4 arg5 harg5 arg6 harg6 arg7 harg7 arg8 harg8 arg9 harg9 arg10 harg10 hc0 hc1 x0 x1 x2 x3 x4 xs0 xs1).2.1 S1024x256.size (by sl_kernel_rfl) y
/-- What a middle chunk leaves in the gate accumulator, -/
def sout0_B_0 (c : Dev nD) (i : grid0.Coords) (arg3 : Memref sig .tc .vmem S1024x1024 .bf16) (harg3 : arg3.IsWhole) (arg4 : Memref sig .tc .vmem S256x1024 .i32) (harg4 : arg4.IsWhole) (arg5 : Memref sig .tc .vmem S256x1 .f32) (harg5 : arg5.IsWhole) (arg6 : Memref sig .tc .vmem S256x1024 .i32) (harg6 : arg6.IsWhole) (arg7 : Memref sig .tc .vmem S256x1 .f32) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (hc0 : ¬cond0_0 i) (hc1 : ¬cond0_1 i) (x0 : Vec F S1024x1024 .bf16) (x1 : Vec F S256x1024 .i32) (x2 : Vec F S256x1 .f32) (x3 : Vec F S256x1024 .i32) (x4 : Vec F S256x1 .f32) (xs0 xs1 : Vec F S1024x256 .f32) : Vec F S1024x256 .f32 :=
  VS0_0.read (Elt F) (VS0_0.writes (Elt F) VS0_0.junk (kernelRun0_B c i arg3 harg3 arg4 harg4 arg5 harg5 arg6 harg6 arg7 harg7 arg8 harg8 arg9 harg9 arg10 harg10 hc0 hc1 x0 x1 x2 x3 x4 xs0 xs1).1)
/-- and in the up accumulator. -/
def sout0_B_1 (c : Dev nD) (i : grid0.Coords) (arg3 : Memref sig .tc .vmem S1024x1024 .bf16) (harg3 : arg3.IsWhole) (arg4 : Memref sig .tc .vmem S256x1024 .i32) (harg4 : arg4.IsWhole) (arg5 : Memref sig .tc .vmem S256x1 .f32) (harg5 : arg5.IsWhole) (arg6 : Memref sig .tc .vmem S256x1024 .i32) (harg6 : arg6.IsWhole) (arg7 : Memref sig .tc .vmem S256x1 .f32) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (hc0 : ¬cond0_0 i) (hc1 : ¬cond0_1 i) (x0 : Vec F S1024x1024 .bf16) (x1 : Vec F S256x1024 .i32) (x2 : Vec F S256x1 .f32) (x3 : Vec F S256x1024 .i32) (x4 : Vec F S256x1 .f32) (xs0 xs1 : Vec F S1024x256 .f32) : Vec F S1024x256 .f32 :=
  VS0_1.read (Elt F) (VS0_1.writes (Elt F) VS0_1.junk (kernelRun0_B c i arg3 harg3 arg4 harg4 arg5 harg5 arg6 harg6 arg7 harg7 arg8 harg8 arg9 harg9 arg10 harg10 hc0 hc1 x0 x1 x2 x3 x4 xs0 xs1).2.1)

theorem cover0_C (c : Dev nD) (i : grid0.Coords) (arg3 : Memref sig .tc .vmem S1024x1024 .bf16) (harg3 : arg3.IsWhole) (arg4 : Memref sig .tc .vmem S256x1024 .i32) (harg4 : arg4.IsWhole) (arg5 : Memref sig .tc .vmem S256x1 .f32) (harg5 : arg5.IsWhole) (arg6 : Memref sig .tc .vmem S256x1024 .i32) (harg6 : arg6.IsWhole) (arg7 : Memref sig .tc .vmem S256x1 .f32) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (hc0 : ¬cond0_0 i) (hc1 : cond0_1 i) (x0 : Vec F S1024x1024 .bf16) (x1 : Vec F S256x1024 .i32) (x2 : Vec F S256x1 .f32) (x3 : Vec F S256x1024 .i32) (x4 : Vec F S256x1 .f32) (xs0 xs1 : Vec F S1024x256 .f32) (y : S1024x256.Idx) :
    ∃ pc ∈ (kernelRun0_C c i arg3 harg3 arg4 harg4 arg5 harg5 arg6 harg6 arg7 harg7 arg8 harg8 arg9 harg9 arg10 harg10 hc0 hc1 x0 x1 x2 x3 x4 xs0 xs1).1, y ∈ pc.1.set :=
  View.cover_of_tiledL (kernelRun0_C c i arg3 harg3 arg4 harg4 arg5 harg5 arg6 harg6 arg7 harg7 arg8 harg8 arg9 harg9 arg10 harg10 hc0 hc1 x0 x1 x2 x3 x4 xs0 xs1).1 S1024x256.size (by sl_kernel_rfl) y
/-- What the last chunk leaves in the output block. -/
def out0_C (c : Dev nD) (i : grid0.Coords) (arg3 : Memref sig .tc .vmem S1024x1024 .bf16) (harg3 : arg3.IsWhole) (arg4 : Memref sig .tc .vmem S256x1024 .i32) (harg4 : arg4.IsWhole) (arg5 : Memref sig .tc .vmem S256x1 .f32) (harg5 : arg5.IsWhole) (arg6 : Memref sig .tc .vmem S256x1024 .i32) (harg6 : arg6.IsWhole) (arg7 : Memref sig .tc .vmem S256x1 .f32) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (hc0 : ¬cond0_0 i) (hc1 : cond0_1 i) (x0 : Vec F S1024x1024 .bf16) (x1 : Vec F S256x1024 .i32) (x2 : Vec F S256x1 .f32) (x3 : Vec F S256x1024 .i32) (x4 : Vec F S256x1 .f32) (xs0 xs1 : Vec F S1024x256 .f32) : Vec F S1024x256 .bf16 :=
  VO0_5.read (Elt F) (VO0_5.writes (Elt F) VO0_5.junk (kernelRun0_C c i arg3 harg3 arg4 harg4 arg5 harg5 arg6 harg6 arg7 harg7 arg8 harg8 arg9 harg9 arg10 harg10 hc0 hc1 x0 x1 x2 x3 x4 xs0 xs1).1)
theorem scover0_C_0 (c : Dev nD) (i : grid0.Coords) (arg3 : Memref sig .tc .vmem S1024x1024 .bf16) (harg3 : arg3.IsWhole) (arg4 : Memref sig .tc .vmem S256x1024 .i32) (harg4 : arg4.IsWhole) (arg5 : Memref sig .tc .vmem S256x1 .f32) (harg5 : arg5.IsWhole) (arg6 : Memref sig .tc .vmem S256x1024 .i32) (harg6 : arg6.IsWhole) (arg7 : Memref sig .tc .vmem S256x1 .f32) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (hc0 : ¬cond0_0 i) (hc1 : cond0_1 i) (x0 : Vec F S1024x1024 .bf16) (x1 : Vec F S256x1024 .i32) (x2 : Vec F S256x1 .f32) (x3 : Vec F S256x1024 .i32) (x4 : Vec F S256x1 .f32) (xs0 xs1 : Vec F S1024x256 .f32) (y : S1024x256.Idx) :
    ∃ pc ∈ (kernelRun0_C c i arg3 harg3 arg4 harg4 arg5 harg5 arg6 harg6 arg7 harg7 arg8 harg8 arg9 harg9 arg10 harg10 hc0 hc1 x0 x1 x2 x3 x4 xs0 xs1).2.1, y ∈ pc.1.set :=
  View.cover_of_tiledL (kernelRun0_C c i arg3 harg3 arg4 harg4 arg5 harg5 arg6 harg6 arg7 harg7 arg8 harg8 arg9 harg9 arg10 harg10 hc0 hc1 x0 x1 x2 x3 x4 xs0 xs1).2.1 S1024x256.size (by sl_kernel_rfl) y
theorem scover0_C_1 (c : Dev nD) (i : grid0.Coords) (arg3 : Memref sig .tc .vmem S1024x1024 .bf16) (harg3 : arg3.IsWhole) (arg4 : Memref sig .tc .vmem S256x1024 .i32) (harg4 : arg4.IsWhole) (arg5 : Memref sig .tc .vmem S256x1 .f32) (harg5 : arg5.IsWhole) (arg6 : Memref sig .tc .vmem S256x1024 .i32) (harg6 : arg6.IsWhole) (arg7 : Memref sig .tc .vmem S256x1 .f32) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (hc0 : ¬cond0_0 i) (hc1 : cond0_1 i) (x0 : Vec F S1024x1024 .bf16) (x1 : Vec F S256x1024 .i32) (x2 : Vec F S256x1 .f32) (x3 : Vec F S256x1024 .i32) (x4 : Vec F S256x1 .f32) (xs0 xs1 : Vec F S1024x256 .f32) (y : S1024x256.Idx) :
    ∃ pc ∈ (kernelRun0_C c i arg3 harg3 arg4 harg4 arg5 harg5 arg6 harg6 arg7 harg7 arg8 harg8 arg9 harg9 arg10 harg10 hc0 hc1 x0 x1 x2 x3 x4 xs0 xs1).2.2.1, y ∈ pc.1.set :=
  View.cover_of_tiledL (kernelRun0_C c i arg3 harg3 arg4 harg4 arg5 harg5 arg6 harg6 arg7 harg7 arg8 harg8 arg9 harg9 arg10 harg10 hc0 hc1 x0 x1 x2 x3 x4 xs0 xs1).2.2.1 S1024x256.size (by sl_kernel_rfl) y
/-- What the last chunk leaves in the gate accumulator, -/
def sout0_C_0 (c : Dev nD) (i : grid0.Coords) (arg3 : Memref sig .tc .vmem S1024x1024 .bf16) (harg3 : arg3.IsWhole) (arg4 : Memref sig .tc .vmem S256x1024 .i32) (harg4 : arg4.IsWhole) (arg5 : Memref sig .tc .vmem S256x1 .f32) (harg5 : arg5.IsWhole) (arg6 : Memref sig .tc .vmem S256x1024 .i32) (harg6 : arg6.IsWhole) (arg7 : Memref sig .tc .vmem S256x1 .f32) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (hc0 : ¬cond0_0 i) (hc1 : cond0_1 i) (x0 : Vec F S1024x1024 .bf16) (x1 : Vec F S256x1024 .i32) (x2 : Vec F S256x1 .f32) (x3 : Vec F S256x1024 .i32) (x4 : Vec F S256x1 .f32) (xs0 xs1 : Vec F S1024x256 .f32) : Vec F S1024x256 .f32 :=
  VS0_0.read (Elt F) (VS0_0.writes (Elt F) VS0_0.junk (kernelRun0_C c i arg3 harg3 arg4 harg4 arg5 harg5 arg6 harg6 arg7 harg7 arg8 harg8 arg9 harg9 arg10 harg10 hc0 hc1 x0 x1 x2 x3 x4 xs0 xs1).2.1)
/-- and in the up accumulator. -/
def sout0_C_1 (c : Dev nD) (i : grid0.Coords) (arg3 : Memref sig .tc .vmem S1024x1024 .bf16) (harg3 : arg3.IsWhole) (arg4 : Memref sig .tc .vmem S256x1024 .i32) (harg4 : arg4.IsWhole) (arg5 : Memref sig .tc .vmem S256x1 .f32) (harg5 : arg5.IsWhole) (arg6 : Memref sig .tc .vmem S256x1024 .i32) (harg6 : arg6.IsWhole) (arg7 : Memref sig .tc .vmem S256x1 .f32) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (hc0 : ¬cond0_0 i) (hc1 : cond0_1 i) (x0 : Vec F S1024x1024 .bf16) (x1 : Vec F S256x1024 .i32) (x2 : Vec F S256x1 .f32) (x3 : Vec F S256x1024 .i32) (x4 : Vec F S256x1 .f32) (xs0 xs1 : Vec F S1024x256 .f32) : Vec F S1024x256 .f32 :=
  VS0_1.read (Elt F) (VS0_1.writes (Elt F) VS0_1.junk (kernelRun0_C c i arg3 harg3 arg4 harg4 arg5 harg5 arg6 harg6 arg7 harg7 arg8 harg8 arg9 harg9 arg10 harg10 hc0 hc1 x0 x1 x2 x3 x4 xs0 xs1).2.2.1)

/-! ## What the output block and the accumulators hold after each point -/

/-- After the body at position `n`: (the output block's staging buffer, the gate accumulator, the up accumulator).
    The case is read off the position of the chunk (`n % 4`); a middle or last chunk starts from what the point
    before left. -/
def outsAt0 (c : Dev nD) : (n : ℕ) → n < cfg0.N → Vec F S1024x256 .bf16 × Vec F S1024x256 .f32 × Vec F S1024x256 .f32
  | 0, hn => (outIdle0, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩))
  | n + 1, hn =>
    if h0 : (n + 1) % 4 = 0 then
      if h1 : (n + 1) % 4 = 3 then
        False.elim (by omega)
      else
        (outIdle0, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩))
    else
      if h1 : (n + 1) % 4 = 3 then
        (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.1 (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.1 (outsAt0 c n (Nat.lt_of_succ_lt hn)).2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.1 (outsAt0 c n (Nat.lt_of_succ_lt hn)).2.2)
      else
        (outIdle0, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.1 (outsAt0 c n (Nat.lt_of_succ_lt hn)).2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.1 (outsAt0 c n (Nat.lt_of_succ_lt hn)).2.2)

theorem outsAt0_A (c : Dev nD) (t : Fin cfg0.N) (h0 : t.val % 4 = 0) (h1 : ¬t.val % 4 = 3) :
    outsAt0 V c t.val t.isLt = (outIdle0, sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 V c t.val t.isLt = (outIdle0, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 V c t.val t.isLt = (out0_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- The class invariant with the two accumulators split off: each at some contents, the other scoped buffers that
    are no staging buffer of this launch unopened, the generator register at some state. -/
theorem PhiA0_eq (c : Dev nD) :
    (Pipeline.ΦA spec0 c : sProp 𝕄)
      = iprop(iprop(((∃ d, owns (c : Thread nD τ) scM0_0 fullShare d) ∗ (∃ d, owns (c : Thread nD τ) scM0_1 fullShare d)) ∗ Pipeline.scopedRestBut (Ix := Unit) (Name := ℕ) (U := UR sig nD τ) (Lvl := ℕ) (Val := Elt F) spec0 c [cc0_scratch0, cc0_scratch1]) ∗ (∃ r, prngReg c r)) := by
  unfold Pipeline.ΦA
  rw [Pipeline.scopedRest_split_of_list spec0 c [cc0_scratch0, cc0_scratch1] (by decide) (by decide)]
  simp only [scM0_0, scM0_1, owns_whole]; try rfl

/-- Before position `n`: at the first point the class invariant; afterwards the accumulators at what the point before
    left in them, the other scoped buffers unopened, the generator register at some state. -/
def PhiS0 (c : Dev nD) : (n : ℕ) → n ≤ cfg0.N → sProp 𝕄
  | 0, _ => Pipeline.ΦA spec0 c
  | n + 1, hn => iprop(iprop((owns (c : Thread nD τ) scM0_0 fullShare ((outsAt0 V c n hn).2.1) ∗ owns (c : Thread nD τ) scM0_1 fullShare ((outsAt0 V c n hn).2.2)) ∗ Pipeline.scopedRestBut (Ix := Unit) (Name := ℕ) (U := UR sig nD τ) (Lvl := ℕ) (Val := Elt F) spec0 c [cc0_scratch0, cc0_scratch1]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop((owns (c : Thread nD τ) scM0_0 fullShare ((outsAt0 V c n hn).2.1) ∗ owns (c : Thread nD τ) scM0_1 fullShare ((outsAt0 V c n hn).2.2)) ∗ Pipeline.scopedRestBut (Ix := Unit) (Name := ℕ) (U := UR sig nD τ) (Lvl := ℕ) (Val := Elt F) spec0 c [cc0_scratch0, cc0_scratch1]) ∗ (∃ r, prngReg c r)) := rfl

theorem PhiS0_pos (c : Dev nD) (n : ℕ) (h : n ≤ cfg0.N) (hz : n ≠ 0) :
    PhiS0 V c n h = iprop(iprop((owns (c : Thread nD τ) scM0_0 fullShare ((outsAt0 V c (n - 1) (by omega)).2.1) ∗ owns (c : Thread nD τ) scM0_1 fullShare ((outsAt0 V c (n - 1) (by omega)).2.2)) ∗ Pipeline.scopedRestBut (Ix := Unit) (Name := ℕ) (U := UR sig nD τ) (Lvl := ℕ) (Val := Elt F) spec0 c [cc0_scratch0, cc0_scratch1]) ∗ (∃ r, prngReg c r)) := by
  cases n with
  | zero => exact absurd rfl hz
  | succ n => rfl

/-! ## The proof data -/

/-- The arrays as the region finds them; after the body each input's buffer at its block, the output's and the
    accumulators at `outsAt0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

end Cert.KernelIdeal.Hand

end
-- ==== Proof.R0Body.lean ====
import proofs.«149759_j59433757442706_1_alg».proof.Proof.R0Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The gate / up projections' region: the body obligation at every point -/

variable (V : (c : Dev nD) → (b : Ref sig .tc) → Buf (Elt F) ((c : Thread nD τ).loc b))

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 4800000 in
/-- The body at any point: the inputs' memrefs hold their blocks; the position of the chunk says which case the
    point is in; the invariant hands the body the accumulators at what the point before left (at anything at the
    first point) and takes them back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS0 V c (t.val + 1) t.isLt from rfl, PhiS0_succ]
  have hN : t.val < 1376 := lt_of_lt_of_eq t.isLt (show cfg0.N = 1376 from N_0)
  by_cases h0 : t.val % 4 = 0
  · by_cases h1 : t.val % 4 = 3
    · exfalso; omega
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [Dat.leavesExact_idle (dat0 V c) 5 t (idleAt0_5 t (fun h => h1 ((hcond0_1 t).mp h))) (noFlush0_5 t (fun h => h1 ((hcond0_1 t).mp h)))]
      rw [outsAt0_A V c t h0 h1]
      unfold sout0_A_0 sout0_A_1; (try dsimp only)
      by_cases hz : t.val = 0
      · rw [PhiS0_castSucc V c t, PhiS0_zero V c _ _ hz, PhiA0_eq]
        iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        iintro ⟨H0, H1, H2, H3, H4, H5, ⟨%es0, HS0⟩, ⟨%es1, HS1⟩⟩
        isplitl [HS0 HS1 Hrest Hg]
        · isplitl [HS0 HS1 Hrest]
          · isplitl [HS0 HS1]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _)
              unfold owns; iexists _; isplitr
              swap; · iexact HS1
              ipureintro; exact View.read_writes_of_cover _ _ _ _ _ (scover0_A_1 c _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS0_castSucc V c t, PhiS0_pos V c _ _ hz]
        iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        isplitl [HS1]; · iexists _; iexact HS1
        iintro ⟨H0, H1, H2, H3, H4, H5, ⟨%es0, HS0⟩, ⟨%es1, HS1⟩⟩
        isplitl [HS0 HS1 Hrest Hg]
        · isplitl [HS0 HS1 Hrest]
          · isplitl [HS0 HS1]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _)
              unfold owns; iexists _; isplitr
              swap; · iexact HS1
              ipureintro; exact View.read_writes_of_cover _ _ _ _ _ (scover0_A_1 c _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 4 = 3
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t ((hcond0_1 t).mpr h1)], after0_5]
      rw [outsAt0_C V c t h0 h1]
      unfold out0_C sout0_C_0 sout0_C_1; (try dsimp only)
      by_cases hz : t.val = 0
      · exfalso; omega
      · rw [PhiS0_castSucc V c t, PhiS0_pos V c _ _ hz]
        iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
        iapply ((kernelRun0_C c (grid0.coords t) _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) _ _).2.2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        isplitl [HS1]; · iexact HS1
        iintro ⟨H0, H1, H2, H3, H4, ⟨%e5, H5⟩, ⟨%es0, HS0⟩, ⟨%es1, HS1⟩⟩
        isplitl [HS0 HS1 Hrest Hg]
        · isplitl [HS0 HS1 Hrest]
          · isplitl [HS0 HS1]
            · isplitl [HS0]
              · unfold owns; iexists _; isplitr
                swap; · iexact HS0
                ipureintro; exact View.read_writes_of_cover _ _ _ _ _ (scover0_C_0 c _ _ _ _ _ _ _ _ _ _ _ _ _ _ _ _ _ _ _ _ _ _ _ _ _ _)
              unfold owns; iexists _; isplitr
              swap; · iexact HS1
              ipureintro; exact View.read_writes_of_cover _ _ _ _ _ (scover0_C_1 c _ _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover0_C c _ _ _ _ _ _ _ _ _ _ _ _ _ _ _ _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [Dat.leavesExact_idle (dat0 V c) 5 t (idleAt0_5 t (fun h => h1 ((hcond0_1 t).mp h))) (noFlush0_5 t (fun h => h1 ((hcond0_1 t).mp h)))]
      rw [outsAt0_B V c t h0 h1]
      unfold sout0_B_0 sout0_B_1; (try dsimp only)
      by_cases hz : t.val = 0
      · exfalso; omega
      · rw [PhiS0_castSucc V c t, PhiS0_pos V c _ _ hz]
        iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
        iapply ((kernelRun0_B c (grid0.coords t) _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) _ _).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        iintro ⟨H0, H1, H2, H3, H4, H5, ⟨%es0, HS0⟩, ⟨%es1, HS1⟩⟩
        isplitl [HS0 HS1 Hrest Hg]
        · isplitl [HS0 HS1 Hrest]
          · isplitl [HS0 HS1]
            · isplitl [HS0]
              · unfold owns; iexists _; isplitr
                swap; · iexact HS0
                ipureintro; exact View.read_writes_of_cover _ _ _ _ _ (scover0_B_0 c _ _ _ _ _ _ _ _ _ _ _ _ _ _ _ _ _ _ _ _ _ _ _ _ _ _)
              unfold owns; iexists _; isplitr
              swap; · iexact HS1
              ipureintro; exact View.read_writes_of_cover _ _ _ _ _ (scover0_B_1 c _ _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- After any point but the first the invariant gives the class invariant back: the accumulators' contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

theorem hout0 (c : Dev nD) : (dat0 V c).Φ (Fin.last cfg0.N) ⊢ Pipeline.ΦA spec0 c :=
  Phi_out0 V c _ (by rw [Fin.val_last]; have : cfg0.N = 1376 := N_0; omega)

end Cert.KernelIdeal.Hand

end
-- ==== Proof.R1Shared.lean ====
import proofs.«149759_j59433757442706_1_alg».proof.Proof.Gen.KernelIdeal.Launch
import proofs.«149759_j59433757442706_1_alg».proof.Proof.Gen.KernelIdeal.Skeleton
import proofs.«149759_j59433757442706_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The down projection's kernel (the second launch): what every case of its body shares

The grid is 8 × 8 × 43: a block of 1024 tokens, a block of 512 output features, and the 43 chunks of 256 hidden
features the contraction is cut into. The accumulator (a scratch of 1024 × 512) is zeroed at the first chunk, added to
at every chunk, and copied to the output block at the last one. -/

/-- The first chunk of the contraction: the accumulator is reset here. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 43 = 0 :=
  (by decide +kernel : ∀ t : Fin grid1.N, cond1_0 (grid1.coords t) ↔ t.val % 43 = 0)

/-- The last chunk: the accumulator is copied out here. -/
abbrev cond1_1 (i : grid1.Coords) : Prop := k1_cond2 i = 1#1
theorem hcond1_1 : ∀ t : Fin cfg1.N, cond1_1 (grid1.coords t) ↔ t.val % 43 = 42 :=
  (by decide +kernel : ∀ t : Fin grid1.N, cond1_1 (grid1.coords t) ↔ t.val % 43 = 42)

/-- The three input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Off the last chunk the output window is idle and is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- At the last chunk it is live. -/
theorem liveAt1_3 : ∀ t : Fin cfg1.N, cond1_1 (grid1.coords t) → cfg1.idle 3 (grid1.coords t) = false := by decide +kernel

/-- One staging buffer of the output window, through which its contents are stated. -/
abbrev VO1_3 : View sig .tc .vmem S1024x512 .f32 := (Memref.whole cc1_stg3_0 : Memref sig .tc .vmem S1024x512 .f32).view
/-- Each window's current staging memref at point `t`, as the pipeline passes it. -/
abbrev ms1_0 (t : Fin cfg1.N) : Memref sig .tc .vmem S1024x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x256 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x512 .f32 := win1_3.stage (cfg1.slots t 3)
abbrev hs1_3 (t : Fin cfg1.N) : (ms1_3 t).IsWhole := hstage1_3 ((cfg1.slots t 3).cast nbuf1_3)
/-- The accumulator: a whole scoped buffer of the kernel's own. -/
abbrev scM1_0 : Memref sig .tc .vmem S1024x512 .f32 := Memref.whole cc1_scratch0
abbrev VS1_0 : View sig .tc .vmem S1024x512 .f32 := scM1_0.view

end Cert.KernelIdeal.Hand

end
-- ==== Proof.R1Run.lean ====
import proofs.«149759_j59433757442706_1_alg».proof.Proof.R1Shared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The down projection's kernel body, case by case

Each case is the body's triple on whole staging memrefs, with the pieces the stores leave in the accumulator
(and, at the last chunk, in the output block) found by running the body. -/

set_option maxHeartbeats 1000000 in
/-- FIRST CHUNK: the accumulator is zeroed and the chunk's product added; the output block is handed back untouched. -/
noncomputable def kernelRun1_A (c : Dev nD) (i : grid1.Coords) (arg3 : Memref sig .tc .vmem S1024x256 .bf16) (harg3 : arg3.IsWhole) (arg4 : Memref sig .tc .vmem S512x256 .i32) (harg4 : arg4.IsWhole) (arg5 : Memref sig .tc .vmem S512x1 .f32) (harg5 : arg5.IsWhole) (arg6 : Memref sig .tc .vmem S1024x512 .f32) (harg6 : arg6.IsWhole) (arg7 : Memref sig .tc .vmem S1024x512 .f32) (harg7 : arg7.IsWhole) (hc0 : cond1_0 i) (hc1 : ¬cond1_1 i)
    (x0 : Vec F S1024x256 .bf16) (x1 : Vec F S512x256 .i32) (x2 : Vec F S512x1 .f32) :
    { LS0 : List (View.Piece (Elt F) S1024x512 .f32) //
      ∀ (xi3 : Vec F S1024x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__mlp2_kernel i arg3 harg3 arg4 harg4 arg5 harg5 arg6 harg6 arg7 harg7) K } := by
  refine ⟨?_, fun xi3 E K => ?run⟩
  case run =>
    simp only [cc1__mlp2_kernel_eq_skeleton]; unfold cc1__mlp2_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 1000000 in
/-- A MIDDLE CHUNK: the chunk's product is added to what the chunk before left; the output block is handed back untouched. -/
noncomputable def kernelRun1_B (c : Dev nD) (i : grid1.Coords) (arg3 : Memref sig .tc .vmem S1024x256 .bf16) (harg3 : arg3.IsWhole) (arg4 : Memref sig .tc .vmem S512x256 .i32) (harg4 : arg4.IsWhole) (arg5 : Memref sig .tc .vmem S512x1 .f32) (harg5 : arg5.IsWhole) (arg6 : Memref sig .tc .vmem S1024x512 .f32) (harg6 : arg6.IsWhole) (arg7 : Memref sig .tc .vmem S1024x512 .f32) (harg7 : arg7.IsWhole) (hc0 : ¬cond1_0 i) (hc1 : ¬cond1_1 i)
    (x0 : Vec F S1024x256 .bf16) (x1 : Vec F S512x256 .i32) (x2 : Vec F S512x1 .f32) (xs0 : Vec F S1024x512 .f32) :
    { LS0 : List (View.Piece (Elt F) S1024x512 .f32) //
      ∀ (xi3 : Vec F S1024x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__mlp2_kernel i arg3 harg3 arg4 harg4 arg5 harg5 arg6 harg6 arg7 harg7) K } := by
  refine ⟨?_, fun xi3 E K => ?run⟩
  case run =>
    simp only [cc1__mlp2_kernel_eq_skeleton]; unfold cc1__mlp2_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 1000000 in
/-- THE LAST CHUNK: the chunk's product is added, and the accumulator copied into the output block. -/
noncomputable def kernelRun1_C (c : Dev nD) (i : grid1.Coords) (arg3 : Memref sig .tc .vmem S1024x256 .bf16) (harg3 : arg3.IsWhole) (arg4 : Memref sig .tc .vmem S512x256 .i32) (harg4 : arg4.IsWhole) (arg5 : Memref sig .tc .vmem S512x1 .f32) (harg5 : arg5.IsWhole) (arg6 : Memref sig .tc .vmem S1024x512 .f32) (harg6 : arg6.IsWhole) (arg7 : Memref sig .tc .vmem S1024x512 .f32) (harg7 : arg7.IsWhole) (hc0 : ¬cond1_0 i) (hc1 : cond1_1 i)
    (x0 : Vec F S1024x256 .bf16) (x1 : Vec F S512x256 .i32) (x2 : Vec F S512x1 .f32) (xs0 : Vec F S1024x512 .f32) :
    Σ' (L3 : List (View.Piece (Elt F) S1024x512 .f32)), { LS0 : List (View.Piece (Elt F) S1024x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc1__mlp2_kernel i arg3 harg3 arg4 harg4 arg5 harg5 arg6 harg6 arg7 harg7) K } := by
  refine ⟨?_, ?_, fun E K => ?run⟩
  case run =>
    simp only [cc1__mlp2_kernel_eq_skeleton]; unfold cc1__mlp2_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.KernelIdeal.Hand

end
-- ==== Proof.R1Frame.lean ====
import proofs.«149759_j59433757442706_1_alg».proof.Proof.R1Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The down projection's region: its proof data and body obligation, at the contents `V` the region is entered with

The accumulator is carried from chunk to chunk: after each point it holds what that point's case of the body leaves
there (`outsAt1`), which the invariant `PhiS1` hands to the next point. -/

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves -/

/-- Nothing is stored into the output block off the last chunk: a placeholder nothing consults. -/
def outIdle1 : Vec F S1024x512 .f32 := VO1_3.read (Elt F) (VO1_3.junk (Val := Elt F))

theorem scover1_A (c : Dev nD) (i : grid1.Coords) (arg3 : Memref sig .tc .vmem S1024x256 .bf16) (harg3 : arg3.IsWhole) (arg4 : Memref sig .tc .vmem S512x256 .i32) (harg4 : arg4.IsWhole) (arg5 : Memref sig .tc .vmem S512x1 .f32) (harg5 : arg5.IsWhole) (arg6 : Memref sig .tc .vmem S1024x512 .f32) (harg6 : arg6.IsWhole) (arg7 : Memref sig .tc .vmem S1024x512 .f32) (harg7 : arg7.IsWhole) (hc0 : cond1_0 i) (hc1 : ¬cond1_1 i) (x0 : Vec F S1024x256 .bf16) (x1 : Vec F S512x256 .i32) (x2 : Vec F S512x1 .f32) (y : S1024x512.Idx) :
    ∃ pc ∈ (kernelRun1_A c i arg3 harg3 arg4 harg4 arg5 harg5 arg6 harg6 arg7 harg7 hc0 hc1 x0 x1 x2).1, y ∈ pc.1.set :=
  View.cover_of_tiledL (kernelRun1_A c i arg3 harg3 arg4 harg4 arg5 harg5 arg6 harg6 arg7 harg7 hc0 hc1 x0 x1 x2).1 S1024x512.size (by sl_kernel_rfl) y
/-- What the first chunk leaves in the accumulator. -/
def sout1_A (c : Dev nD) (i : grid1.Coords) (arg3 : Memref sig .tc .vmem S1024x256 .bf16) (harg3 : arg3.IsWhole) (arg4 : Memref sig .tc .vmem S512x256 .i32) (harg4 : arg4.IsWhole) (arg5 : Memref sig .tc .vmem S512x1 .f32) (harg5 : arg5.IsWhole) (arg6 : Memref sig .tc .vmem S1024x512 .f32) (harg6 : arg6.IsWhole) (arg7 : Memref sig .tc .vmem S1024x512 .f32) (harg7 : arg7.IsWhole) (hc0 : cond1_0 i) (hc1 : ¬cond1_1 i) (x0 : Vec F S1024x256 .bf16) (x1 : Vec F S512x256 .i32) (x2 : Vec F S512x1 .f32) : Vec F S1024x512 .f32 :=
  VS1_0.read (Elt F) (VS1_0.writes (Elt F) VS1_0.junk (kernelRun1_A c i arg3 harg3 arg4 harg4 arg5 harg5 arg6 harg6 arg7 harg7 hc0 hc1 x0 x1 x2).1)

theorem scover1_B (c : Dev nD) (i : grid1.Coords) (arg3 : Memref sig .tc .vmem S1024x256 .bf16) (harg3 : arg3.IsWhole) (arg4 : Memref sig .tc .vmem S512x256 .i32) (harg4 : arg4.IsWhole) (arg5 : Memref sig .tc .vmem S512x1 .f32) (harg5 : arg5.IsWhole) (arg6 : Memref sig .tc .vmem S1024x512 .f32) (harg6 : arg6.IsWhole) (arg7 : Memref sig .tc .vmem S1024x512 .f32) (harg7 : arg7.IsWhole) (hc0 : ¬cond1_0 i) (hc1 : ¬cond1_1 i) (x0 : Vec F S1024x256 .bf16) (x1 : Vec F S512x256 .i32) (x2 : Vec F S512x1 .f32) (xs0 : Vec F S1024x512 .f32) (y : S1024x512.Idx) :
    ∃ pc ∈ (kernelRun1_B c i arg3 harg3 arg4 harg4 arg5 harg5 arg6 harg6 arg7 harg7 hc0 hc1 x0 x1 x2 xs0).1, y ∈ pc.1.set :=
  View.cover_of_tiledL (kernelRun1_B c i arg3 harg3 arg4 harg4 arg5 harg5 arg6 harg6 arg7 harg7 hc0 hc1 x0 x1 x2 xs0).1 S1024x512.size (by sl_kernel_rfl) y
/-- What a middle chunk leaves in the accumulator. -/
def sout1_B (c : Dev nD) (i : grid1.Coords) (arg3 : Memref sig .tc .vmem S1024x256 .bf16) (harg3 : arg3.IsWhole) (arg4 : Memref sig .tc .vmem S512x256 .i32) (harg4 : arg4.IsWhole) (arg5 : Memref sig .tc .vmem S512x1 .f32) (harg5 : arg5.IsWhole) (arg6 : Memref sig .tc .vmem S1024x512 .f32) (harg6 : arg6.IsWhole) (arg7 : Memref sig .tc .vmem S1024x512 .f32) (harg7 : arg7.IsWhole) (hc0 : ¬cond1_0 i) (hc1 : ¬cond1_1 i) (x0 : Vec F S1024x256 .bf16) (x1 : Vec F S512x256 .i32) (x2 : Vec F S512x1 .f32) (xs0 : Vec F S1024x512 .f32) : Vec F S1024x512 .f32 :=
  VS1_0.read (Elt F) (VS1_0.writes (Elt F) VS1_0.junk (kernelRun1_B c i arg3 harg3 arg4 harg4 arg5 harg5 arg6 harg6 arg7 harg7 hc0 hc1 x0 x1 x2 xs0).1)

theorem cover1_C (c : Dev nD) (i : grid1.Coords) (arg3 : Memref sig .tc .vmem S1024x256 .bf16) (harg3 : arg3.IsWhole) (arg4 : Memref sig .tc .vmem S512x256 .i32) (harg4 : arg4.IsWhole) (arg5 : Memref sig .tc .vmem S512x1 .f32) (harg5 : arg5.IsWhole) (arg6 : Memref sig .tc .vmem S1024x512 .f32) (harg6 : arg6.IsWhole) (arg7 : Memref sig .tc .vmem S1024x512 .f32) (harg7 : arg7.IsWhole) (hc0 : ¬cond1_0 i) (hc1 : cond1_1 i) (x0 : Vec F S1024x256 .bf16) (x1 : Vec F S512x256 .i32) (x2 : Vec F S512x1 .f32) (xs0 : Vec F S1024x512 .f32) (y : S1024x512.Idx) :
    ∃ pc ∈ (kernelRun1_C c i arg3 harg3 arg4 harg4 arg5 harg5 arg6 harg6 arg7 harg7 hc0 hc1 x0 x1 x2 xs0).1, y ∈ pc.1.set :=
  View.cover_of_tiledL (kernelRun1_C c i arg3 harg3 arg4 harg4 arg5 harg5 arg6 harg6 arg7 harg7 hc0 hc1 x0 x1 x2 xs0).1 S1024x512.size (by sl_kernel_rfl) y
/-- What the last chunk leaves in the output block. -/
def out1_C (c : Dev nD) (i : grid1.Coords) (arg3 : Memref sig .tc .vmem S1024x256 .bf16) (harg3 : arg3.IsWhole) (arg4 : Memref sig .tc .vmem S512x256 .i32) (harg4 : arg4.IsWhole) (arg5 : Memref sig .tc .vmem S512x1 .f32) (harg5 : arg5.IsWhole) (arg6 : Memref sig .tc .vmem S1024x512 .f32) (harg6 : arg6.IsWhole) (arg7 : Memref sig .tc .vmem S1024x512 .f32) (harg7 : arg7.IsWhole) (hc0 : ¬cond1_0 i) (hc1 : cond1_1 i) (x0 : Vec F S1024x256 .bf16) (x1 : Vec F S512x256 .i32) (x2 : Vec F S512x1 .f32) (xs0 : Vec F S1024x512 .f32) : Vec F S1024x512 .f32 :=
  VO1_3.read (Elt F) (VO1_3.writes (Elt F) VO1_3.junk (kernelRun1_C c i arg3 harg3 arg4 harg4 arg5 harg5 arg6 harg6 arg7 harg7 hc0 hc1 x0 x1 x2 xs0).1)
theorem scover1_C (c : Dev nD) (i : grid1.Coords) (arg3 : Memref sig .tc .vmem S1024x256 .bf16) (harg3 : arg3.IsWhole) (arg4 : Memref sig .tc .vmem S512x256 .i32) (harg4 : arg4.IsWhole) (arg5 : Memref sig .tc .vmem S512x1 .f32) (harg5 : arg5.IsWhole) (arg6 : Memref sig .tc .vmem S1024x512 .f32) (harg6 : arg6.IsWhole) (arg7 : Memref sig .tc .vmem S1024x512 .f32) (harg7 : arg7.IsWhole) (hc0 : ¬cond1_0 i) (hc1 : cond1_1 i) (x0 : Vec F S1024x256 .bf16) (x1 : Vec F S512x256 .i32) (x2 : Vec F S512x1 .f32) (xs0 : Vec F S1024x512 .f32) (y : S1024x512.Idx) :
    ∃ pc ∈ (kernelRun1_C c i arg3 harg3 arg4 harg4 arg5 harg5 arg6 harg6 arg7 harg7 hc0 hc1 x0 x1 x2 xs0).2.1, y ∈ pc.1.set :=
  View.cover_of_tiledL (kernelRun1_C c i arg3 harg3 arg4 harg4 arg5 harg5 arg6 harg6 arg7 harg7 hc0 hc1 x0 x1 x2 xs0).2.1 S1024x512.size (by sl_kernel_rfl) y
/-- What the last chunk leaves in the accumulator. -/
def sout1_C (c : Dev nD) (i : grid1.Coords) (arg3 : Memref sig .tc .vmem S1024x256 .bf16) (harg3 : arg3.IsWhole) (arg4 : Memref sig .tc .vmem S512x256 .i32) (harg4 : arg4.IsWhole) (arg5 : Memref sig .tc .vmem S512x1 .f32) (harg5 : arg5.IsWhole) (arg6 : Memref sig .tc .vmem S1024x512 .f32) (harg6 : arg6.IsWhole) (arg7 : Memref sig .tc .vmem S1024x512 .f32) (harg7 : arg7.IsWhole) (hc0 : ¬cond1_0 i) (hc1 : cond1_1 i) (x0 : Vec F S1024x256 .bf16) (x1 : Vec F S512x256 .i32) (x2 : Vec F S512x1 .f32) (xs0 : Vec F S1024x512 .f32) : Vec F S1024x512 .f32 :=
  VS1_0.read (Elt F) (VS1_0.writes (Elt F) VS1_0.junk (kernelRun1_C c i arg3 harg3 arg4 harg4 arg5 harg5 arg6 harg6 arg7 harg7 hc0 hc1 x0 x1 x2 xs0).2.1)

/-! ## What the output block and the accumulator hold after each point -/

/-- After the body at position `n`: (the output block's staging buffer, the accumulator). The case is read off
    the position of the chunk (`n % 43`); a middle or last chunk starts from what the point before left. -/
def outsAt1 (c : Dev nD) : (n : ℕ) → n < cfg1.N → Vec F S1024x512 .f32 × Vec F S1024x512 .f32
  | 0, hn => (outIdle1, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 43 = 0 then
      if h1 : (n + 1) % 43 = 42 then
        False.elim (by omega)
      else
        (outIdle1, sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 43 = 42 then
        (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (outIdle1, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val % 43 = 0) (h1 : ¬t.val % 43 = 42) :
    outsAt1 V c t.val t.isLt = (outIdle1, sout1_A c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 43 = 0) (h1 : ¬t.val % 43 = 42) :
    outsAt1 V c t.val t.isLt = (outIdle1, sout1_B c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 43 = 0) (h1 : t.val % 43 = 42) :
    outsAt1 V c t.val t.isLt = (out1_C c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- The class invariant with the accumulator split off: the accumulator at some contents, the other scoped
    buffers that are no staging buffer of this launch unopened, the generator register at some state. -/
theorem PhiA1_eq (c : Dev nD) :
    (Pipeline.ΦA spec1 c : sProp 𝕄)
      = iprop(iprop((∃ d, owns (c : Thread nD τ) scM1_0 fullShare d) ∗ Pipeline.scopedRestBut (Ix := Unit) (Name := ℕ) (U := UR sig nD τ) (Lvl := ℕ) (Val := Elt F) spec1 c [cc1_scratch0]) ∗ (∃ r, prngReg c r)) := by
  unfold Pipeline.ΦA
  rw [Pipeline.scopedRest_split_of_list spec1 c [cc1_scratch0] (by decide) (by decide)]
  simp only [scM1_0, owns_whole]; try rfl

/-- Before position `n`: at the first point the class invariant; afterwards the accumulator at what the point before
    left in it, the other scoped buffers unopened, the generator register at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2) ∗ Pipeline.scopedRestBut (Ix := Unit) (Name := ℕ) (U := UR sig nD τ) (Lvl := ℕ) (Val := Elt F) spec1 c [cc1_scratch0]) ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The proof data -/

/-- The arrays as the region finds them; after the body each input's buffer at its block, the output's and the
    accumulator at `outsAt1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

end Cert.KernelIdeal.Hand

end
-- ==== Proof.R1Body.lean ====
import proofs.«149759_j59433757442706_1_alg».proof.Proof.R1Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The down projection's region: the body obligation at every point -/

variable (V : (c : Dev nD) → (b : Ref sig .tc) → Buf (Elt F) ((c : Thread nD τ).loc b))

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the position of the chunk says which case the
    point is in; the invariant hands the body the accumulator at what the point before left (at anything at the
    first point) and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 2752 := lt_of_lt_of_eq t.isLt (show cfg1.N = 2752 from N_1)
  by_cases h0 : t.val % 43 = 0
  · by_cases h1 : t.val % 43 = 42
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [outsAt1_A V c t h0 h1]
      unfold sout1_A; (try dsimp only)
      by_cases hz : t.val = 0
      · rw [PhiS1_castSucc V c t, PhiS1_zero V c _ _ hz, PhiA1_eq]
        iintro ⟨⟨⟨HS0, Hrest⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_A c _ _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨HS0, Hrest⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_A c _ _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3
  · by_cases h1 : t.val % 43 = 42
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C sout1_C; (try dsimp only)
      by_cases hz : t.val = 0
      · exfalso; omega
      · rw [PhiS1_castSucc V c t, PhiS1_pos V c _ _ hz]
        iintro ⟨⟨⟨HS0, Hrest⟩, Hg⟩, Ho, ⟨%d0, H0⟩, ⟨%d1, H1⟩, ⟨%d2, H2⟩, ⟨%d3, H3⟩⟩
        iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_C c _ _ _ _ _ _ _ _ _ _ _ _ _ _ _ _ _)
            iexact Hrest
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C c _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B; (try dsimp only)
      by_cases hz : t.val = 0
      · exfalso; omega
      · rw [PhiS1_castSucc V c t, PhiS1_pos V c _ _ hz]
        iintro ⟨⟨⟨HS0, Hrest⟩, Hg⟩, Ho, ⟨%d0, H0⟩, ⟨%d1, H1⟩, ⟨%d2, H2⟩, ⟨%d3, H3⟩⟩
        iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_B c _ _ _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- After any point but the first the invariant gives the class invariant back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, Hrest⟩, Hg⟩
  isplitl [HS0 Hrest]
  · isplitl [HS0]
    · iexists _; iexact HS0
    iexact Hrest
  iexact Hg

theorem hout1 (c : Dev nD) : (dat1 V c).Φ (Fin.last cfg1.N) ⊢ Pipeline.ΦA spec1 c :=
  Phi_out1 V c _ (by rw [Fin.val_last]; have : cfg1.N = 2752 := N_1; omega)

end Cert.KernelIdeal.Hand

end
-- ==== Proof.Run.lean ====
import proofs.«149759_j59433757442706_1_alg».proof.Proof.R0Body
import proofs.«149759_j59433757442706_1_alg».proof.Proof.R1Body
import proofs.«149759_j59433757442706_1_alg».proof.Proof.Gen.KernelIdeal.Regions
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run: @main's four segments from the launch to the return

@main is two host operations (the tokens flattened to 8192 rows and narrowed), the gate / up launch, the down launch, and
one host operation (the result reshaped). The buffers' contents at each boundary are a fold from the launch memory:
a host stretch's operations applied, a launch's arrays at what its write-backs leave. -/

variable (m : (ℓ : Loc nD τ sig) → Buf (Elt F) ℓ)

/-- Core `c`'s buffers at launch. -/
abbrev W0 : Dev nD → Valuation τ sig (Elt F) := fun c b => m (c, b)
/-- After the two host operations before the first launch. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the first launch's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- At the second launch's exit. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)
/-- After the last host operation. -/
abbrev W4 : Dev nD → Valuation τ sig (Elt F) := fun c => StableHlo.after hostOps2 (W3 m c)

/-! ## The arguments end as launched: no host operation and no launch writes one -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := StableHlo.after_of_writes_sub hostOps2 _ hostOps2_writes (r := main_arg0) (by decide)
    _ = W2 m c (Proc.devRef .tc main_arg0) := W3_of_ne m c main_arg0 (by decide)
    _ = W1 m c (Proc.devRef .tc main_arg0) := W2_of_ne m c main_arg0 (by decide)
    _ = W0 m c (Proc.devRef .tc main_arg0) := StableHlo.after_of_writes_sub hostOps0 _ hostOps0_writes (r := main_arg0) (by decide)
    _ = m ((c : Thread nD τ).loc main_arg0) := rfl
theorem W4_main_arg1 (c : Dev nD) : W4 m c (Proc.devRef .tc main_arg1) = m ((c : Thread nD τ).loc main_arg1) :=
  calc W4 m c (Proc.devRef .tc main_arg1)
    _ = W3 m c (Proc.devRef .tc main_arg1) := StableHlo.after_of_writes_sub hostOps2 _ hostOps2_writes (r := main_arg1) (by decide)
    _ = W2 m c (Proc.devRef .tc main_arg1) := W3_of_ne m c main_arg1 (by decide)
    _ = W1 m c (Proc.devRef .tc main_arg1) := (W2_arr m c 1).trans (((dat0 (V1 m) c).arrAt_in 1 rfl _).trans (A_eq0 (V1 m) c 1))
    _ = W0 m c (Proc.devRef .tc main_arg1) := StableHlo.after_of_writes_sub hostOps0 _ hostOps0_writes (r := main_arg1) (by decide)
    _ = m ((c : Thread nD τ).loc main_arg1) := rfl
theorem W4_main_arg2 (c : Dev nD) : W4 m c (Proc.devRef .tc main_arg2) = m ((c : Thread nD τ).loc main_arg2) :=
  calc W4 m c (Proc.devRef .tc main_arg2)
    _ = W3 m c (Proc.devRef .tc main_arg2) := StableHlo.after_of_writes_sub hostOps2 _ hostOps2_writes (r := main_arg2) (by decide)
    _ = W2 m c (Proc.devRef .tc main_arg2) := W3_of_ne m c main_arg2 (by decide)
    _ = W1 m c (Proc.devRef .tc main_arg2) := (W2_arr m c 2).trans (((dat0 (V1 m) c).arrAt_in 2 rfl _).trans (A_eq0 (V1 m) c 2))
    _ = W0 m c (Proc.devRef .tc main_arg2) := StableHlo.after_of_writes_sub hostOps0 _ hostOps0_writes (r := main_arg2) (by decide)
    _ = m ((c : Thread nD τ).loc main_arg2) := rfl
theorem W4_main_arg3 (c : Dev nD) : W4 m c (Proc.devRef .tc main_arg3) = m ((c : Thread nD τ).loc main_arg3) :=
  calc W4 m c (Proc.devRef .tc main_arg3)
    _ = W3 m c (Proc.devRef .tc main_arg3) := StableHlo.after_of_writes_sub hostOps2 _ hostOps2_writes (r := main_arg3) (by decide)
    _ = W2 m c (Proc.devRef .tc main_arg3) := W3_of_ne m c main_arg3 (by decide)
    _ = W1 m c (Proc.devRef .tc main_arg3) := (W2_arr m c 3).trans (((dat0 (V1 m) c).arrAt_in 3 rfl _).trans (A_eq0 (V1 m) c 3))
    _ = W0 m c (Proc.devRef .tc main_arg3) := StableHlo.after_of_writes_sub hostOps0 _ hostOps0_writes (r := main_arg3) (by decide)
    _ = m ((c : Thread nD τ).loc main_arg3) := rfl
theorem W4_main_arg4 (c : Dev nD) : W4 m c (Proc.devRef .tc main_arg4) = m ((c : Thread nD τ).loc main_arg4) :=
  calc W4 m c (Proc.devRef .tc main_arg4)
    _ = W3 m c (Proc.devRef .tc main_arg4) := StableHlo.after_of_writes_sub hostOps2 _ hostOps2_writes (r := main_arg4) (by decide)
    _ = W2 m c (Proc.devRef .tc main_arg4) := W3_of_ne m c main_arg4 (by decide)
    _ = W1 m c (Proc.devRef .tc main_arg4) := (W2_arr m c 4).trans (((dat0 (V1 m) c).arrAt_in 4 rfl _).trans (A_eq0 (V1 m) c 4))
    _ = W0 m c (Proc.devRef .tc main_arg4) := StableHlo.after_of_writes_sub hostOps0 _ hostOps0_writes (r := main_arg4) (by decide)
    _ = m ((c : Thread nD τ).loc main_arg4) := rfl
theorem W4_main_arg5 (c : Dev nD) : W4 m c (Proc.devRef .tc main_arg5) = m ((c : Thread nD τ).loc main_arg5) :=
  calc W4 m c (Proc.devRef .tc main_arg5)
    _ = W3 m c (Proc.devRef .tc main_arg5) := StableHlo.after_of_writes_sub hostOps2 _ hostOps2_writes (r := main_arg5) (by decide)
    _ = W2 m c (Proc.devRef .tc main_arg5) := (W3_arr m c 1).trans (((dat1 (V2 m) c).arrAt_in 1 rfl _).trans (A_eq1 (V2 m) c 1))
    _ = W1 m c (Proc.devRef .tc main_arg5) := W2_of_ne m c main_arg5 (by decide)
    _ = W0 m c (Proc.devRef .tc main_arg5) := StableHlo.after_of_writes_sub hostOps0 _ hostOps0_writes (r := main_arg5) (by decide)
    _ = m ((c : Thread nD τ).loc main_arg5) := rfl
theorem W4_main_arg6 (c : Dev nD) : W4 m c (Proc.devRef .tc main_arg6) = m ((c : Thread nD τ).loc main_arg6) :=
  calc W4 m c (Proc.devRef .tc main_arg6)
    _ = W3 m c (Proc.devRef .tc main_arg6) := StableHlo.after_of_writes_sub hostOps2 _ hostOps2_writes (r := main_arg6) (by decide)
    _ = W2 m c (Proc.devRef .tc main_arg6) := (W3_arr m c 2).trans (((dat1 (V2 m) c).arrAt_in 2 rfl _).trans (A_eq1 (V2 m) c 2))
    _ = W1 m c (Proc.devRef .tc main_arg6) := W2_of_ne m c main_arg6 (by decide)
    _ = W0 m c (Proc.devRef .tc main_arg6) := StableHlo.after_of_writes_sub hostOps0 _ hostOps0_writes (r := main_arg6) (by decide)
    _ = m ((c : Thread nD τ).loc main_arg6) := rfl

/-! ## The proof data family and the thread state -/

/-- Both pipelines' proof data, each at its launch's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The launches as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (hout0 (V1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (hout1 (V2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)) ]
theorem main_run (c : Dev nD) : main (F := F) c = Pipeline.Seg.run (segs m) := (main_chain c).trans (by chain_rfl)

set_option backward.isDefEq.respectTransparency.types false in
/-- From any memory with zero counters every weakly fair execution of @main terminates, nothing faulting, and every
    final state has each unscoped buffer at the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => (show iprop(StableHlo.held (c : Thread nD τ) (Pipeline.ucRefs τ sig) (W4 m c) ∗ R c)
        ⊢ iprop(Tₙ m c ∗ ∃ W, owes (c : Thread nD τ) (0 : CellTallies nD τ sig Unit) W) from by
      iintro ⟨Hh, Hp, HO⟩
      isplitl [Hh Hp]
      · isplitl [Hh]; · iexact Hh
        iexact Hp
      iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- THE FRAME: the argument arrays end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c),
     (h c _ (mem_uc main_arg5 (by decide))).trans (W4_main_arg5 m c),
     (h c _ (mem_uc main_arg6 (by decide))).trans (W4_main_arg6 m c)⟩) (run_all m ρ)

/-- THE RUN WITH THE RESULT NAMED: the result buffer ends at the last boundary's contents, the arguments as launched. -/
theorem run_value (ρ : Dev nD → PrngReg) : θ_run defs (onTc (τ := τ) (main (F := F))) ⟨m, fun _ => 0, ρ⟩ (fun r => ∀ c : Dev nD,
      r.2.mem ((c.tc : Thread nD τ).loc main_v4) = W4 m c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨h c _ (mem_uc main_v4 (by decide)),
     (h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c),
     (h c _ (mem_uc main_arg5 (by decide))).trans (W4_main_arg5 m c),
     (h c _ (mem_uc main_arg6 (by decide))).trans (W4_main_arg6 m c)⟩) (run_all m ρ)

end Cert.KernelIdeal.Hand

end
-- ==== Proof.R0Pieces.lean ====
import proofs.«149759_j59433757442706_1_alg».proof.Proof.R0Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The gate / up projections' kernel: what each case's stores leave, as the body's own arithmetic

Every store of this body writes a whole buffer, so what a buffer holds after the body is the payload of the last
store into it: for an accumulator the chunk's product added to what it held (`k0_pay5` for the gate, `k0_pay6` for
the up projection), for the output block `silu(gate) · up` of the two accumulators (`k0_pay1`). -/

theorem hz2' : (![0, 0] : Fin 2 → Nat) = fun _ => 0 := by funext a; fin_cases a <;> rfl

theorem sout0_A_0_eq (c : Dev nD) (i : grid0.Coords) (arg3 : Memref sig .tc .vmem S1024x1024 .bf16) (harg3 : arg3.IsWhole) (arg4 : Memref sig .tc .vmem S256x1024 .i32) (harg4 : arg4.IsWhole) (arg5 : Memref sig .tc .vmem S256x1 .f32) (harg5 : arg5.IsWhole) (arg6 : Memref sig .tc .vmem S256x1024 .i32) (harg6 : arg6.IsWhole) (arg7 : Memref sig .tc .vmem S256x1 .f32) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (hc0 : cond0_0 i) (hc1 : ¬cond0_1 i) (x0 : Vec F S1024x1024 .bf16) (x1 : Vec F S256x1024 .i32) (x2 : Vec F S256x1 .f32) (x3 : Vec F S256x1024 .i32) (x4 : Vec F S256x1 .f32) :
    sout0_A_0 c i arg3 harg3 arg4 harg4 arg5 harg5 arg6 harg6 arg7 harg7 arg8 harg8 arg9 harg9 arg10 harg10 hc0 hc1 x0 x1 x2 x3 x4 = k0_pay5 x0 x1 x2 (k0_pay2 (F := F)) := by
  unfold sout0_A_0
  rw [View.read_writes_eq_canon _ _ _ (scover0_A_0 c i arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S1024x256) hz2', View.readCov_unit_zero (S := S1024x256) _ hz2']
  simp only [View.readAt_eq_ld, Memref.IsWhole.read_unread, View.ld_unit_zero (S := S1024x1024) hz2', View.ld_unit_zero (S := S256x1024) hz2', View.ld_unit_zero (S := S256x1) hz2', View.ld_unit_zero (S := S1024x256) hz2']

theorem sout0_A_1_eq (c : Dev nD) (i : grid0.Coords) (arg3 : Memref sig .tc .vmem S1024x1024 .bf16) (harg3 : arg3.IsWhole) (arg4 : Memref sig .tc .vmem S256x1024 .i32) (harg4 : arg4.IsWhole) (arg5 : Memref sig .tc .vmem S256x1 .f32) (harg5 : arg5.IsWhole) (arg6 : Memref sig .tc .vmem S256x1024 .i32) (harg6 : arg6.IsWhole) (arg7 : Memref sig .tc .vmem S256x1 .f32) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (hc0 : cond0_0 i) (hc1 : ¬cond0_1 i) (x0 : Vec F S1024x1024 .bf16) (x1 : Vec F S256x1024 .i32) (x2 : Vec F S256x1 .f32) (x3 : Vec F S256x1024 .i32) (x4 : Vec F S256x1 .f32) :
    sout0_A_1 c i arg3 harg3 arg4 harg4 arg5 harg5 arg6 harg6 arg7 harg7 arg8 harg8 arg9 harg9 arg10 harg10 hc0 hc1 x0 x1 x2 x3 x4 = k0_pay6 x0 x3 x4 (k0_pay3 (F := F)) := by
  unfold sout0_A_1
  rw [View.read_writes_eq_canon _ _ _ (scover0_A_1 c i arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S1024x256) hz2', View.readCov_unit_zero (S := S1024x256) _ hz2']
  simp only [View.readAt_eq_ld, Memref.IsWhole.read_unread, View.ld_unit_zero (S := S1024x1024) hz2', View.ld_unit_zero (S := S256x1024) hz2', View.ld_unit_zero (S := S256x1) hz2', View.ld_unit_zero (S := S1024x256) hz2']

theorem sout0_B_0_eq (c : Dev nD) (i : grid0.Coords) (arg3 : Memref sig .tc .vmem S1024x1024 .bf16) (harg3 : arg3.IsWhole) (arg4 : Memref sig .tc .vmem S256x1024 .i32) (harg4 : arg4.IsWhole) (arg5 : Memref sig .tc .vmem S256x1 .f32) (harg5 : arg5.IsWhole) (arg6 : Memref sig .tc .vmem S256x1024 .i32) (harg6 : arg6.IsWhole) (arg7 : Memref sig .tc .vmem S256x1 .f32) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (hc0 : ¬cond0_0 i) (hc1 : ¬cond0_1 i) (x0 : Vec F S1024x1024 .bf16) (x1 : Vec F S256x1024 .i32) (x2 : Vec F S256x1 .f32) (x3 : Vec F S256x1024 .i32) (x4 : Vec F S256x1 .f32) (xs0 xs1 : Vec F S1024x256 .f32) :
    sout0_B_0 c i arg3 harg3 arg4 harg4 arg5 harg5 arg6 harg6 arg7 harg7 arg8 harg8 arg9 harg9 arg10 harg10 hc0 hc1 x0 x1 x2 x3 x4 xs0 xs1 = k0_pay5 x0 x1 x2 xs0 := by
  unfold sout0_B_0
  rw [View.read_writes_eq_canon _ _ _ (scover0_B_0 c i arg3 harg3 arg4 harg4 arg5 harg5 arg6 harg6 arg7 harg7 arg8 harg8 arg9 harg9 arg10 harg10 hc0 hc1 x0 x1 x2 x3 x4 xs0 xs1)]
  unfold kernelRun0_B
  dsimp only
  sl_unfold_words
  rw [View.canon_unit_zero (S := S1024x256) hz2']
  simp only [View.readAt_eq_ld, Memref.IsWhole.read_unread, View.ld_unit_zero (S := S1024x1024) hz2', View.ld_unit_zero (S := S256x1024) hz2', View.ld_unit_zero (S := S256x1) hz2', View.ld_unit_zero (S := S1024x256) hz2']

theorem sout0_B_1_eq (c : Dev nD) (i : grid0.Coords) (arg3 : Memref sig .tc .vmem S1024x1024 .bf16) (harg3 : arg3.IsWhole) (arg4 : Memref sig .tc .vmem S256x1024 .i32) (harg4 : arg4.IsWhole) (arg5 : Memref sig .tc .vmem S256x1 .f32) (harg5 : arg5.IsWhole) (arg6 : Memref sig .tc .vmem S256x1024 .i32) (harg6 : arg6.IsWhole) (arg7 : Memref sig .tc .vmem S256x1 .f32) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (hc0 : ¬cond0_0 i) (hc1 : ¬cond0_1 i) (x0 : Vec F S1024x1024 .bf16) (x1 : Vec F S256x1024 .i32) (x2 : Vec F S256x1 .f32) (x3 : Vec F S256x1024 .i32) (x4 : Vec F S256x1 .f32) (xs0 xs1 : Vec F S1024x256 .f32) :
    sout0_B_1 c i arg3 harg3 arg4 harg4 arg5 harg5 arg6 harg6 arg7 harg7 arg8 harg8 arg9 harg9 arg10 harg10 hc0 hc1 x0 x1 x2 x3 x4 xs0 xs1 = k0_pay6 x0 x3 x4 xs1 := by
  unfold sout0_B_1
  rw [View.read_writes_eq_canon _ _ _ (scover0_B_1 c i arg3 harg3 arg4 harg4 arg5 harg5 arg6 harg6 arg7 harg7 arg8 harg8 arg9 harg9 arg10 harg10 hc0 hc1 x0 x1 x2 x3 x4 xs0 xs1)]
  unfold kernelRun0_B
  dsimp only
  sl_unfold_words
  rw [View.canon_unit_zero (S := S1024x256) hz2']
  simp only [View.readAt_eq_ld, Memref.IsWhole.read_unread, View.ld_unit_zero (S := S1024x1024) hz2', View.ld_unit_zero (S := S256x1024) hz2', View.ld_unit_zero (S := S256x1) hz2', View.ld_unit_zero (S := S1024x256) hz2']

theorem sout0_C_0_eq (c : Dev nD) (i : grid0.Coords) (arg3 : Memref sig .tc .vmem S1024x1024 .bf16) (harg3 : arg3.IsWhole) (arg4 : Memref sig .tc .vmem S256x1024 .i32) (harg4 : arg4.IsWhole) (arg5 : Memref sig .tc .vmem S256x1 .f32) (harg5 : arg5.IsWhole) (arg6 : Memref sig .tc .vmem S256x1024 .i32) (harg6 : arg6.IsWhole) (arg7 : Memref sig .tc .vmem S256x1 .f32) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (hc0 : ¬cond0_0 i) (hc1 : cond0_1 i) (x0 : Vec F S1024x1024 .bf16) (x1 : Vec F S256x1024 .i32) (x2 : Vec F S256x1 .f32) (x3 : Vec F S256x1024 .i32) (x4 : Vec F S256x1 .f32) (xs0 xs1 : Vec F S1024x256 .f32) :
    sout0_C_0 c i arg3 harg3 arg4 harg4 arg5 harg5 arg6 harg6 arg7 harg7 arg8 harg8 arg9 harg9 arg10 harg10 hc0 hc1 x0 x1 x2 x3 x4 xs0 xs1 = k0_pay5 x0 x1 x2 xs0 := by
  unfold sout0_C_0
  rw [View.read_writes_eq_canon _ _ _ (scover0_C_0 c i arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero (S := S1024x256) hz2']
  simp only [View.readAt_eq_ld, Memref.IsWhole.read_unread, View.ld_unit_zero (S := S1024x1024) hz2', View.ld_unit_zero (S := S256x1024) hz2', View.ld_unit_zero (S := S256x1) hz2', View.ld_unit_zero (S := S1024x256) hz2']

theorem sout0_C_1_eq (c : Dev nD) (i : grid0.Coords) (arg3 : Memref sig .tc .vmem S1024x1024 .bf16) (harg3 : arg3.IsWhole) (arg4 : Memref sig .tc .vmem S256x1024 .i32) (harg4 : arg4.IsWhole) (arg5 : Memref sig .tc .vmem S256x1 .f32) (harg5 : arg5.IsWhole) (arg6 : Memref sig .tc .vmem S256x1024 .i32) (harg6 : arg6.IsWhole) (arg7 : Memref sig .tc .vmem S256x1 .f32) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (hc0 : ¬cond0_0 i) (hc1 : cond0_1 i) (x0 : Vec F S1024x1024 .bf16) (x1 : Vec F S256x1024 .i32) (x2 : Vec F S256x1 .f32) (x3 : Vec F S256x1024 .i32) (x4 : Vec F S256x1 .f32) (xs0 xs1 : Vec F S1024x256 .f32) :
    sout0_C_1 c i arg3 harg3 arg4 harg4 arg5 harg5 arg6 harg6 arg7 harg7 arg8 harg8 arg9 harg9 arg10 harg10 hc0 hc1 x0 x1 x2 x3 x4 xs0 xs1 = k0_pay6 x0 x3 x4 xs1 := by
  unfold sout0_C_1
  rw [View.read_writes_eq_canon _ _ _ (scover0_C_1 c i arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero (S := S1024x256) hz2']
  simp only [View.readAt_eq_ld, Memref.IsWhole.read_unread, View.ld_unit_zero (S := S1024x1024) hz2', View.ld_unit_zero (S := S256x1024) hz2', View.ld_unit_zero (S := S256x1) hz2', View.ld_unit_zero (S := S1024x256) hz2']

theorem out0_C_eq (c : Dev nD) (i : grid0.Coords) (arg3 : Memref sig .tc .vmem S1024x1024 .bf16) (harg3 : arg3.IsWhole) (arg4 : Memref sig .tc .vmem S256x1024 .i32) (harg4 : arg4.IsWhole) (arg5 : Memref sig .tc .vmem S256x1 .f32) (harg5 : arg5.IsWhole) (arg6 : Memref sig .tc .vmem S256x1024 .i32) (harg6 : arg6.IsWhole) (arg7 : Memref sig .tc .vmem S256x1 .f32) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (hc0 : ¬cond0_0 i) (hc1 : cond0_1 i) (x0 : Vec F S1024x1024 .bf16) (x1 : Vec F S256x1024 .i32) (x2 : Vec F S256x1 .f32) (x3 : Vec F S256x1024 .i32) (x4 : Vec F S256x1 .f32) (xs0 xs1 : Vec F S1024x256 .f32) :
    out0_C c i arg3 harg3 arg4 harg4 arg5 harg5 arg6 harg6 arg7 harg7 arg8 harg8 arg9 harg9 arg10 harg10 hc0 hc1 x0 x1 x2 x3 x4 xs0 xs1 = k0_pay1 (k0_pay5 x0 x1 x2 xs0) (k0_pay6 x0 x3 x4 xs1) := by
  unfold out0_C
  rw [View.read_writes_eq_canon _ _ _ (cover0_C c i arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero (S := S1024x256) hz2']
  simp only [View.readAt_eq_ld, Memref.IsWhole.read_unread, View.ld_unit_zero (S := S1024x1024) hz2', View.ld_unit_zero (S := S256x1024) hz2', View.ld_unit_zero (S := S256x1) hz2', View.ld_unit_zero (S := S1024x256) hz2', View.readCov_unit_zero (S := S1024x256) _ hz2']

end Cert.KernelIdeal.Hand

end
-- ==== Proof.R0ValueA.lean ====
import proofs.«149759_j59433757442706_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem

/-! # The gate / up projections' body, entry by entry, over the extended reals

One chunk's update of an accumulator adds, at row `p` and hidden feature `q`, the inner product over the chunk's 1024
model features of the token row with the dequantized weight row: `acc[p, q] + ∑ₖ x[p, k] · (w[q, k] · s[q])`. The reset
block is zero everywhere, and the stored block is `(g · σ(g)) · u` of the two accumulators' entries. -/

/-! ## The contraction's operand indices: rows of the left operand, columns of the right -/

theorem lhsK_0 (i : S1024x256.Idx) (q : dot_S1024x1024_S1024x256_S1024x256_1_0_0_1_n_n.contr.Idx) :
    (dot_S1024x1024_S1024x256_S1024x256_1_0_0_1_n_n.lhsIdx i q 0).val = (i 0).val := by
  unfold DotDims.lhsIdx
  rw [dif_neg (show ¬(0 : Fin S1024x1024.rank) ∈ dot_S1024x1024_S1024x256_S1024x256_1_0_0_1_n_n.lhsBatch by decide), dif_pos (show (0 : Fin S1024x1024.rank) ∈ dot_S1024x1024_S1024x256_S1024x256_1_0_0_1_n_n.lhsNonContracting by decide)]
  rfl
theorem lhsK_1 (i : S1024x256.Idx) (q : dot_S1024x1024_S1024x256_S1024x256_1_0_0_1_n_n.contr.Idx) :
    (dot_S1024x1024_S1024x256_S1024x256_1_0_0_1_n_n.lhsIdx i q 1).val = (q ⟨0, by decide⟩).val :=
  dot_S1024x1024_S1024x256_S1024x256_1_0_0_1_n_n.lhsIdx_val_of_single rfl i q
theorem rhsK_0 (i : S1024x256.Idx) (q : dot_S1024x1024_S1024x256_S1024x256_1_0_0_1_n_n.contr.Idx) :
    (dot_S1024x1024_S1024x256_S1024x256_1_0_0_1_n_n.rhsIdx i q 0).val = (q ⟨0, by decide⟩).val :=
  dot_S1024x1024_S1024x256_S1024x256_1_0_0_1_n_n.rhsIdx_val_of_single rfl i q
theorem rhsK_1 (i : S1024x256.Idx) (q : dot_S1024x1024_S1024x256_S1024x256_1_0_0_1_n_n.contr.Idx) :
    (dot_S1024x1024_S1024x256_S1024x256_1_0_0_1_n_n.rhsIdx i q 1).val = (i 1).val := by
  unfold DotDims.rhsIdx
  rw [dif_neg (show ¬(1 : Fin S1024x256.rank) ∈ dot_S1024x1024_S1024x256_S1024x256_1_0_0_1_n_n.rhsBatch by decide), dif_pos (show (1 : Fin S1024x256.rank) ∈ dot_S1024x1024_S1024x256_S1024x256_1_0_0_1_n_n.rhsNonContracting by decide)]
  rfl

/-- The block product into the zero block, at an entry: the inner product of row `p` of the left operand with column
    `q` of the right one. -/
theorem matmulK_apply (a : FVec Ideal S1024x1024 .bf16) (b : FVec Ideal S1024x256 .bf16) (p : Fin 1024) (q : Fin 256) :
    matmul dot_S1024x1024_S1024x256_S1024x256_1_0_0_1_n_n none a b (constant (F := Ideal) S1024x256 .f32 0x00000000#32) (ix2 p q)
      = ∑ k : Fin 1024, a (ix2 p k) * b (ix2 k q) := by
  simp only [matmul]
  rw [Ideal.matmul_constant_zero_apply, ← Equiv.sum_comp (ValueIdx.contrEquiv1 dot_S1024x1024_S1024x256_S1024x256_1_0_0_1_n_n 1024 rfl rfl).symm]
  refine Finset.sum_congr rfl fun k _ => ?_
  have hk := ValueIdx.contrEquiv1_symm_val dot_S1024x1024_S1024x256_S1024x256_1_0_0_1_n_n 1024 rfl rfl k
  have el : dot_S1024x1024_S1024x256_S1024x256_1_0_0_1_n_n.lhsIdx (ix2 p q) ((ValueIdx.contrEquiv1 dot_S1024x1024_S1024x256_S1024x256_1_0_0_1_n_n 1024 rfl rfl).symm k) = ix2 p k := funext fun a => Fin.ext (by
    match a with
    | ⟨0, _⟩ => exact lhsK_0 _ _
    | ⟨1, _⟩ => exact (lhsK_1 _ _).trans hk)
  have er : dot_S1024x1024_S1024x256_S1024x256_1_0_0_1_n_n.rhsIdx (ix2 p q) ((ValueIdx.contrEquiv1 dot_S1024x1024_S1024x256_S1024x256_1_0_0_1_n_n 1024 rfl rfl).symm k) = ix2 k q := funext fun a => Fin.ext (by
    match a with
    | ⟨0, _⟩ => exact (rhsK_0 _ _).trans hk
    | ⟨1, _⟩ => exact rhsK_1 _ _)
  rw [el, er]

/-- The dequantized weight block, transposed for the product: entry `(k, q)` is `w[q, k] · s[q]`. -/
theorem deqT_apply (w : Vec Ideal S256x1024 .i32) (s : Vec Ideal S256x1 .f32) (k : Fin 1024) (q : Fin 256) :
    (transpose S1024x256 [1, 0] (truncf .bf16 (mulf (sitofp (F := Ideal) .f32 w) (broadcastTo S256x1024 s broadcasts_S256x1_S256x1024)) bitsLt_bf16_f32) transposes_S256x1024_p1_0_S1024x256 : FVec Ideal S1024x256 .bf16) (ix2 k q)
      = FloatOps.sitofp (F := Ideal) .f32 (w (ix2 q k)) * s (ix2 q (0 : Fin 1)) := by
  refine (transpose_apply [1, 0] _ transposes_S256x1024_p1_0_S1024x256 (ix2 k q) (ix2 q k) (fun b => match b with
    | ⟨0, _⟩ => rfl
    | ⟨1, _⟩ => rfl)).trans ?_
  show FloatOps.sitofp (F := Ideal) .f32 (w (ix2 q k)) * broadcastTo S256x1024 s broadcasts_S256x1_S256x1024 (ix2 q k) = _
  refine congrArg (FloatOps.sitofp (F := Ideal) .f32 (w (ix2 q k)) * ·) ?_
  exact broadcastTo_apply s broadcasts_S256x1_S256x1024 (ix2 q k) (ix2 q (0 : Fin 1)) (fun a => match a with
    | ⟨0, _⟩ => by show q.val = if (256 : Nat) = 1 then 0 else q.val; rw [if_neg (by decide)]
    | ⟨1, _⟩ => by show 0 = if (1 : Nat) = 1 then 0 else k.val; rw [if_pos rfl])

/-- One chunk's update of the gate accumulator, at an entry. -/
theorem pay5_apply (x0 : Vec Ideal S1024x1024 .bf16) (x1 : Vec Ideal S256x1024 .i32) (x2 : Vec Ideal S256x1 .f32)
    (acc : Vec Ideal S1024x256 .f32) (p : Fin 1024) (q : Fin 256) :
    k0_pay5 x0 x1 x2 acc (ix2 p q)
      = acc (ix2 p q) + ∑ k : Fin 1024, x0 (ix2 p k) * (FloatOps.sitofp (F := Ideal) .f32 (x1 (ix2 q k)) * x2 (ix2 q (0 : Fin 1))) := by
  unfold k0_pay5 k0_pay4
  dsimp only
  refine (congrFun (shapeCast_self _ shapeCasts_S1024x256_S1024x256) (ix2 p q)).trans ?_
  refine congrArg (acc (ix2 p q) + ·) ?_
  refine (matmulK_apply _ _ p q).trans ?_
  refine Finset.sum_congr rfl fun k _ => ?_
  refine (congrArg (· * _) (congrFun (shapeCast_self x0 shapeCasts_S1024x1024_S1024x1024) (ix2 p k))).trans ?_
  exact congrArg (x0 (ix2 p k) * ·) (deqT_apply x1 x2 k q)

/-- One chunk's update of the up accumulator, at an entry. -/
theorem pay6_apply (x0 : Vec Ideal S1024x1024 .bf16) (x3 : Vec Ideal S256x1024 .i32) (x4 : Vec Ideal S256x1 .f32)
    (acc : Vec Ideal S1024x256 .f32) (p : Fin 1024) (q : Fin 256) :
    k0_pay6 x0 x3 x4 acc (ix2 p q)
      = acc (ix2 p q) + ∑ k : Fin 1024, x0 (ix2 p k) * (FloatOps.sitofp (F := Ideal) .f32 (x3 (ix2 q k)) * x4 (ix2 q (0 : Fin 1))) := by
  unfold k0_pay6 k0_pay4
  dsimp only
  refine (congrFun (shapeCast_self _ shapeCasts_S1024x256_S1024x256) (ix2 p q)).trans ?_
  refine congrArg (acc (ix2 p q) + ·) ?_
  refine (matmulK_apply _ _ p q).trans ?_
  refine Finset.sum_congr rfl fun k _ => ?_
  refine (congrArg (· * _) (congrFun (shapeCast_self x0 shapeCasts_S1024x1024_S1024x1024) (ix2 p k))).trans ?_
  exact congrArg (x0 (ix2 p k) * ·) (deqT_apply x3 x4 k q)

/-- The gate accumulator's reset block is zero at every entry, -/
theorem pay2_apply (p : Fin 1024) (q : Fin 256) : k0_pay2 (F := Ideal) (ix2 p q) = 0 := by
  unfold k0_pay2
  refine (congrFun (shapeCast_self _ shapeCasts_S1024x256_S1024x256) (ix2 p q)).trans ?_
  exact Ideal.ofBits_zero_f32

/-- and so is the up accumulator's. -/
theorem pay3_apply (p : Fin 1024) (q : Fin 256) : k0_pay3 (F := Ideal) (ix2 p q) = 0 := by
  unfold k0_pay3
  refine (congrFun (shapeCast_self _ shapeCasts_S1024x256_S1024x256) (ix2 p q)).trans ?_
  exact Ideal.ofBits_zero_f32

/-- The stored block at an entry: `(g · σ(g)) · u` of the two accumulators' entries. -/
theorem pay1_apply (g u : Vec Ideal S1024x256 .f32) (p : Fin 1024) (q : Fin 256) :
    k0_pay1 g u (ix2 p q) = (g (ix2 p q) * Ideal.logistic (g (ix2 p q))) * u (ix2 p q) := rfl

end Cert.KernelIdeal.Hand

end
-- ==== Proof.Spec.lean ====
import Idealize.ShloMosaic.PureOps.Ideal
import Idealize.ShloMosaic.Lib.ValueIdx

noncomputable section

open scoped BigOperators

/-! # The dequantized SwiGLU block as functions of whole arrays, over the extended reals

A weight is stored as integers `w[o, k]` with one scale `s[o]` per output row; its dequantized entry is `w[o, k] · s[o]`.
A projection of the rows of `x` is `(x · Wᵀ)[n, o] = ∑ₖ x[n, k] · (w[o, k] · s[o])`. The hidden activation is
`silu(gate) · up` with `silu(g) = g · σ(g)`, and the result is the down projection of the hidden activation. -/

namespace Cert.Spec

open Idealize.ShloMosaic Idealize.ShloMosaic.ValueIdx

abbrev T8192x4096 : Shape := ⟨2, ![8192, 4096]⟩
abbrev T8192x11008 : Shape := ⟨2, ![8192, 11008]⟩
abbrev T11008x4096 : Shape := ⟨2, ![11008, 4096]⟩
abbrev T11008x1 : Shape := ⟨2, ![11008, 1]⟩
abbrev T4096x11008 : Shape := ⟨2, ![4096, 11008]⟩
abbrev T4096x1 : Shape := ⟨2, ![4096, 1]⟩

/-- The dequantized weight's entry `(o, k)`: the stored integer as a real, times the row's scale. -/
def deq {a b : Nat} (w : (⟨2, ![a, b]⟩ : Shape).Idx → BitVec 32) (s : (⟨2, ![a, 1]⟩ : Shape).Idx → EReal) (o : Fin a) (k : Fin b) : EReal :=
  FloatOps.sitofp (F := Ideal) .f32 (w (ix2 o k)) * s (ix2 o (0 : Fin 1))

/-- One entry of a projection onto the 11008 hidden features: `∑ₖ x[n, k] · deq[f, k]` over the 4096 model features. -/
def upAt (x : T8192x4096.Idx → EReal) (w : T11008x4096.Idx → BitVec 32) (s : T11008x1.Idx → EReal) (n : Fin 8192) (f : Fin 11008) : EReal :=
  ∑ k : Fin 4096, x (ix2 n k) * deq w s f k

/-- One entry of the hidden activation: `(g · σ(g)) · u` of the gate and up projections. -/
def hiddenAt (x : T8192x4096.Idx → EReal) (gw : T11008x4096.Idx → BitVec 32) (gs : T11008x1.Idx → EReal)
    (uw : T11008x4096.Idx → BitVec 32) (us : T11008x1.Idx → EReal) (n : Fin 8192) (f : Fin 11008) : EReal :=
  (upAt x gw gs n f * Ideal.logistic (upAt x gw gs n f)) * upAt x uw us n f

/-- The hidden activation as an array. -/
def hidden (x : T8192x4096.Idx → EReal) (gw : T11008x4096.Idx → BitVec 32) (gs : T11008x1.Idx → EReal)
    (uw : T11008x4096.Idx → BitVec 32) (us : T11008x1.Idx → EReal) : T8192x11008.Idx → EReal :=
  fun i => hiddenAt x gw gs uw us ⟨(i 0).val, (i 0).isLt⟩ ⟨(i 1).val, (i 1).isLt⟩

/-- One entry of the down projection: `∑_f h[n, f] · deq[o, f]` over the 11008 hidden features. -/
def downAt (h : T8192x11008.Idx → EReal) (w : T4096x11008.Idx → BitVec 32) (s : T4096x1.Idx → EReal) (n : Fin 8192) (o : Fin 4096) : EReal :=
  ∑ f : Fin 11008, h (ix2 n f) * deq w s o f

/-- The down projection as an array. -/
def down (h : T8192x11008.Idx → EReal) (w : T4096x11008.Idx → BitVec 32) (s : T4096x1.Idx → EReal) : T8192x4096.Idx → EReal :=
  fun i => downAt h w s ⟨(i 0).val, (i 0).isLt⟩ ⟨(i 1).val, (i 1).isLt⟩

/-- A sum over `a · b` indices is the sum over `a` blocks of the sums inside each block of `b` consecutive indices:
    what a contraction accumulated chunk by chunk computes. It holds in any commutative additive monoid, so on the
    extended reals with no finiteness asked. -/
theorem sum_blocks {M : Type} [AddCommMonoid M] (a b : Nat) (g : Fin (a * b) → M) :
    ∑ k : Fin (a * b), g k = ∑ kb : Fin a, ∑ kk : Fin b, g ⟨kb.val * b + kk.val, by
      have h1 := kb.isLt; have h2 := kk.isLt
      calc kb.val * b + kk.val < kb.val * b + b := by omega
        _ = (kb.val + 1) * b := by ring
        _ ≤ a * b := Nat.mul_le_mul_right b h1⟩ := by
  rw [← Finset.sum_product', Finset.univ_product_univ]
  refine Fintype.sum_equiv finProdFinEquiv.symm _ _ fun k => ?_
  refine congrArg g (Fin.ext ?_)
  show k.val = k.val / b * b + k.val % b
  exact (Nat.div_add_mod' k.val b).symm

end Cert.Spec

end
-- ==== Proof.R0Value.lean ====
import proofs.«149759_j59433757442706_1_alg».proof.Proof.R0Pieces
import proofs.«149759_j59433757442706_1_alg».proof.Proof.R0ValueA
import proofs.«149759_j59433757442706_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-! # The gate / up projections' region: what its output array holds at the end, over the extended reals

Point `t` of the 8 × 43 × 4 grid works on token block `t / 172`, feature block `t / 4 % 43` and chunk `t % 4` of the
4096 model features. After point `t` each accumulator holds the chunks `0 … t % 4` of its projection's inner product; at
the last chunk the four chunks are the whole inner product, the stored block is the hidden activation of its rows and
features, and the blocks written back at the last chunks tile the output array. -/

variable (V : (c : Dev nD) → (b : Ref sig .tc) → Buf (Elt Ideal) ((c : Thread nD τ).loc b))

/-! ## The arrays the region reads, and where a point's blocks sit in them -/

/-- The tokens, -/
abbrev xarr (c : Dev nD) : Vec Ideal S8192x4096 .bf16 := V c main_v1
/-- the gate projection's stored integers and row scales, -/
abbrev gwarr (c : Dev nD) : Vec Ideal S11008x4096 .i32 := V c main_arg1
abbrev gsarr (c : Dev nD) : Vec Ideal S11008x1 .f32 := V c main_arg2
/-- the up projection's. -/
abbrev uwarr (c : Dev nD) : Vec Ideal S11008x4096 .i32 := V c main_arg3
abbrev usarr (c : Dev nD) : Vec Ideal S11008x1 .f32 := V c main_arg4

/-- The grid has 8 · 43 · 4 points. -/
theorem lt_N (t : Fin cfg0.N) : t.val < 1376 := lt_of_lt_of_eq t.isLt N_0

/-- Row `p` of the token block of point `n`: the block index is `n / 172`. -/
def rowN (n : ℕ) (p : Fin 1024) : Fin 8192 := ⟨n / 172 % 8 * 1024 + p.val, by have := p.isLt; omega⟩
/-- Hidden feature `q` of the feature block of point `n`: the block index is `n / 4 % 43`. -/
def featN (n : ℕ) (q : Fin 256) : Fin 11008 := ⟨n / 4 % 43 * 256 + q.val, by have := q.isLt; omega⟩
/-- Model feature `kk` of chunk `kb`. -/
def colN (kb : ℕ) (kk : Fin 1024) : Fin 4096 := ⟨kb % 4 * 1024 + kk.val, by have := kk.isLt; omega⟩

/-- The five input blocks of point `t`. -/
abbrev xblk (c : Dev nD) (t : Fin cfg0.N) : Vec Ideal S1024x1024 .bf16 := iblk0 V c 0 t
abbrev gwblk (c : Dev nD) (t : Fin cfg0.N) : Vec Ideal S256x1024 .i32 := iblk0 V c 1 t
abbrev gsblk (c : Dev nD) (t : Fin cfg0.N) : Vec Ideal S256x1 .f32 := iblk0 V c 2 t
abbrev uwblk (c : Dev nD) (t : Fin cfg0.N) : Vec Ideal S256x1024 .i32 := iblk0 V c 3 t
abbrev usblk (c : Dev nD) (t : Fin cfg0.N) : Vec Ideal S256x1 .f32 := iblk0 V c 4 t

/-- The windows' block indices at every point of the grid. -/
theorem idx0_0 : ∀ t : Fin cfg0.N, win0_0.index t (0 : Fin 2) = t.val / 172 ∧ win0_0.index t (1 : Fin 2) = t.val % 4 :=
  (by decide +kernel : ∀ t : Fin grid0.N, _)
theorem idx0_1 : ∀ t : Fin cfg0.N, win0_1.index t (0 : Fin 2) = t.val / 4 % 43 ∧ win0_1.index t (1 : Fin 2) = t.val % 4 :=
  (by decide +kernel : ∀ t : Fin grid0.N, _)
theorem idx0_2 : ∀ t : Fin cfg0.N, win0_2.index t (0 : Fin 2) = t.val / 4 % 43 ∧ win0_2.index t (1 : Fin 2) = 0 :=
  (by decide +kernel : ∀ t : Fin grid0.N, _)
theorem idx0_3 : ∀ t : Fin cfg0.N, win0_3.index t (0 : Fin 2) = t.val / 4 % 43 ∧ win0_3.index t (1 : Fin 2) = t.val % 4 :=
  (by decide +kernel : ∀ t : Fin grid0.N, _)
theorem idx0_4 : ∀ t : Fin cfg0.N, win0_4.index t (0 : Fin 2) = t.val / 4 % 43 ∧ win0_4.index t (1 : Fin 2) = 0 :=
  (by decide +kernel : ∀ t : Fin grid0.N, _)
theorem idx0_5 : ∀ t : Fin cfg0.N, win0_5.index t (0 : Fin 2) = t.val / 172 ∧ win0_5.index t (1 : Fin 2) = t.val / 4 % 43 :=
  (by decide +kernel : ∀ t : Fin grid0.N, _)

/-- The token block of point `t`, read off the token array. -/
theorem blk0_apply (c : Dev nD) (t : Fin cfg0.N) (p k : Fin 1024) :
    xblk V c t (ix2 p k) = xarr V c (ix2 (rowN t.val p) (colN t.val k)) := by
  have hN := lt_N t
  obtain ⟨e0, e1⟩ := idx0_0 t
  show V c main_v1 (((cfg0.win 0).blk t).view.emb (ix2 p k)) = V c main_v1 _
  refine congrArg (V c main_v1) (funext fun a => Fin.ext ?_)
  match a with
  | ⟨0, _⟩ => show win0_0.index t (0 : Fin 2) * 1024 + 1 * p.val = t.val / 172 % 8 * 1024 + p.val; rw [e0]; omega
  | ⟨1, _⟩ => show win0_0.index t (1 : Fin 2) * 1024 + 1 * k.val = t.val % 4 * 1024 + k.val; rw [e1]; omega

/-- The gate weight block of point `t`, read off its array. -/
theorem blk1_apply (c : Dev nD) (t : Fin cfg0.N) (q : Fin 256) (k : Fin 1024) :
    gwblk V c t (ix2 q k) = gwarr V c (ix2 (featN t.val q) (colN t.val k)) := by
  obtain ⟨e0, e1⟩ := idx0_1 t
  show V c main_arg1 (((cfg0.win 1).blk t).view.emb (ix2 q k)) = V c main_arg1 _
  refine congrArg (V c main_arg1) (funext fun a => Fin.ext ?_)
  match a with
  | ⟨0, _⟩ => show win0_1.index t (0 : Fin 2) * 256 + 1 * q.val = t.val / 4 % 43 * 256 + q.val; rw [e0]; omega
  | ⟨1, _⟩ => show win0_1.index t (1 : Fin 2) * 1024 + 1 * k.val = t.val % 4 * 1024 + k.val; rw [e1]; omega

/-- The gate scale block of point `t`. -/
theorem blk2_apply (c : Dev nD) (t : Fin cfg0.N) (q : Fin 256) :
    gsblk V c t (ix2 q (0 : Fin 1)) = gsarr V c (ix2 (featN t.val q) (0 : Fin 1)) := by
  obtain ⟨e0, e1⟩ := idx0_2 t
  show V c main_arg2 (((cfg0.win 2).blk t).view.emb (ix2 q (0 : Fin 1))) = V c main_arg2 _
  refine congrArg (V c main_arg2) (funext fun a => Fin.ext ?_)
  match a with
  | ⟨0, _⟩ => show win0_2.index t (0 : Fin 2) * 256 + 1 * q.val = t.val / 4 % 43 * 256 + q.val; rw [e0]; omega
  | ⟨1, _⟩ => show win0_2.index t (1 : Fin 2) * 1 + 1 * 0 = 0; rw [e1]

/-- The up weight block of point `t`. -/
theorem blk3_apply (c : Dev nD) (t : Fin cfg0.N) (q : Fin 256) (k : Fin 1024) :
    uwblk V c t (ix2 q k) = uwarr V c (ix2 (featN t.val q) (colN t.val k)) := by
  obtain ⟨e0, e1⟩ := idx0_3 t
  show V c main_arg3 (((cfg0.win 3).blk t).view.emb (ix2 q k)) = V c main_arg3 _
  refine congrArg (V c main_arg3) (funext fun a => Fin.ext ?_)
  match a with
  | ⟨0, _⟩ => show win0_3.index t (0 : Fin 2) * 256 + 1 * q.val = t.val / 4 % 43 * 256 + q.val; rw [e0]; omega
  | ⟨1, _⟩ => show win0_3.index t (1 : Fin 2) * 1024 + 1 * k.val = t.val % 4 * 1024 + k.val; rw [e1]; omega

/-- The up scale block of point `t`. -/
theorem blk4_apply (c : Dev nD) (t : Fin cfg0.N) (q : Fin 256) :
    usblk V c t (ix2 q (0 : Fin 1)) = usarr V c (ix2 (featN t.val q) (0 : Fin 1)) := by
  obtain ⟨e0, e1⟩ := idx0_4 t
  show V c main_arg4 (((cfg0.win 4).blk t).view.emb (ix2 q (0 : Fin 1))) = V c main_arg4 _
  refine congrArg (V c main_arg4) (funext fun a => Fin.ext ?_)
  match a with
  | ⟨0, _⟩ => show win0_4.index t (0 : Fin 2) * 256 + 1 * q.val = t.val / 4 % 43 * 256 + q.val; rw [e0]; omega
  | ⟨1, _⟩ => show win0_4.index t (1 : Fin 2) * 1 + 1 * 0 = 0; rw [e1]

/-! ## One chunk of a projection's inner product, and the projection as the sum of its four chunks -/

/-- The part of `∑ₖ x[n, k] · (w[f, k] · s[f])` over the 1024 model features of chunk `kb`. -/
def chunkN (x : Cert.Spec.T8192x4096.Idx → EReal) (w : Cert.Spec.T11008x4096.Idx → BitVec 32) (s : Cert.Spec.T11008x1.Idx → EReal)
    (n : Fin 8192) (f : Fin 11008) (kb : ℕ) : EReal :=
  ∑ kk : Fin 1024, x (ix2 n (colN kb kk)) * Cert.Spec.deq w s f (colN kb kk)

/-- The inner product over the 4096 model features is the sum of its four chunks. -/
theorem upAt_eq_chunks (x : Cert.Spec.T8192x4096.Idx → EReal) (w : Cert.Spec.T11008x4096.Idx → BitVec 32) (s : Cert.Spec.T11008x1.Idx → EReal)
    (n : Fin 8192) (f : Fin 11008) :
    Cert.Spec.upAt x w s n f = ∑ kb ∈ Finset.range 4, chunkN x w s n f kb := by
  unfold Cert.Spec.upAt
  rw [Cert.Spec.sum_blocks 4 1024 (fun k : Fin 4096 => x (ix2 n k) * Cert.Spec.deq w s f k), Finset.sum_range]
  refine Finset.sum_congr rfl fun kb _ => ?_
  unfold chunkN
  refine Finset.sum_congr rfl fun kk _ => ?_
  have e : colN kb.val kk = (⟨kb.val * 1024 + kk.val, by have := kb.isLt; have := kk.isLt; omega⟩ : Fin 4096) :=
    Fin.ext (by have := kb.isLt; show kb.val % 4 * 1024 + kk.val = kb.val * 1024 + kk.val; omega)
  rw [e]

/-- What point `t`'s blocks contribute to the gate projection at row `p`, feature `q` of its output block: chunk `t % 4`. -/
theorem gate_chunk (c : Dev nD) (t : Fin cfg0.N) (p : Fin 1024) (q : Fin 256) :
    (∑ k : Fin 1024, xblk V c t (ix2 p k)
        * (FloatOps.sitofp (F := Ideal) .f32 (gwblk V c t (ix2 q k)) * gsblk V c t (ix2 q (0 : Fin 1))))
      = chunkN (xarr V c) (gwarr V c) (gsarr V c) (rowN t.val p) (featN t.val q) (t.val % 4) := by
  unfold chunkN Cert.Spec.deq
  refine Finset.sum_congr rfl fun k _ => ?_
  have ek : colN (t.val % 4) k = colN t.val k := Fin.ext (by show t.val % 4 % 4 * 1024 + k.val = t.val % 4 * 1024 + k.val; omega)
  rw [ek, blk0_apply V c t p k, blk1_apply V c t q k, blk2_apply V c t q]

/-- The same for the up projection. -/
theorem up_chunk (c : Dev nD) (t : Fin cfg0.N) (p : Fin 1024) (q : Fin 256) :
    (∑ k : Fin 1024, xblk V c t (ix2 p k)
        * (FloatOps.sitofp (F := Ideal) .f32 (uwblk V c t (ix2 q k)) * usblk V c t (ix2 q (0 : Fin 1))))
      = chunkN (xarr V c) (uwarr V c) (usarr V c) (rowN t.val p) (featN t.val q) (t.val % 4) := by
  unfold chunkN Cert.Spec.deq
  refine Finset.sum_congr rfl fun k _ => ?_
  have ek : colN (t.val % 4) k = colN t.val k := Fin.ext (by show t.val % 4 % 4 * 1024 + k.val = t.val % 4 * 1024 + k.val; omega)
  rw [ek, blk0_apply V c t p k, blk3_apply V c t q k, blk4_apply V c t q]

/-! ## The accumulators after each point: the chunks so far -/

/-- After point `n` the gate accumulator holds, at row `p` and feature `q`, the chunks `0 … n % 4` of the gate
    projection's inner product for that row and feature of the arrays. -/
theorem gate_run (c : Dev nD) : ∀ (n : ℕ) (h : n < cfg0.N) (p : Fin 1024) (q : Fin 256),
    (outsAt0 V c n h).2.1 (ix2 p q)
      = ∑ kb ∈ Finset.range (n % 4 + 1), chunkN (xarr V c) (gwarr V c) (gsarr V c) (rowN n p) (featN n q) kb := by
  intro n
  induction n using Nat.strong_induction_on with
  | _ n ih =>
    intro h p q
    rw [Finset.sum_range_succ]
    by_cases h0 : n % 4 = 0
    · have h1 : ¬n % 4 = 3 := by omega
      have hA : k0_pay2 (F := Ideal) (ix2 p q) = ∑ kb ∈ Finset.range (n % 4), chunkN (xarr V c) (gwarr V c) (gsarr V c) (rowN n p) (featN n q) kb := by
        rw [h0, Finset.range_zero, Finset.sum_empty]
        exact pay2_apply p q
      rw [outsAt0_A V c ⟨n, h⟩ h0 h1]
      dsimp only
      rw [sout0_A_0_eq]
      refine (pay5_apply (xblk V c ⟨n, h⟩) (gwblk V c ⟨n, h⟩) (gsblk V c ⟨n, h⟩) _ p q).trans ?_
      exact congrArg₂ (fun a b : EReal => a + b) hA (gate_chunk V c ⟨n, h⟩ p q)
    · have hprev : (outsAt0 V c (n - 1) (Nat.lt_of_le_of_lt (Nat.sub_le _ _) h)).2.1 (ix2 p q)
          = ∑ kb ∈ Finset.range (n % 4), chunkN (xarr V c) (gwarr V c) (gsarr V c) (rowN n p) (featN n q) kb := by
        rw [ih (n - 1) (by omega) _ p q]
        have e1 : (n - 1) % 4 + 1 = n % 4 := by omega
        have e2 : rowN (n - 1) p = rowN n p := Fin.ext (by show (n - 1) / 172 % 8 * 1024 + p.val = n / 172 % 8 * 1024 + p.val; omega)
        have e3 : featN (n - 1) q = featN n q := Fin.ext (by show (n - 1) / 4 % 43 * 256 + q.val = n / 4 % 43 * 256 + q.val; omega)
        rw [e1, e2, e3]
      by_cases h1 : n % 4 = 3
      · rw [outsAt0_C V c ⟨n, h⟩ h0 h1]
        dsimp only
        rw [sout0_C_0_eq]
        refine (pay5_apply (xblk V c ⟨n, h⟩) (gwblk V c ⟨n, h⟩) (gsblk V c ⟨n, h⟩) _ p q).trans ?_
        exact congrArg₂ (fun a b : EReal => a + b) hprev (gate_chunk V c ⟨n, h⟩ p q)
      · rw [outsAt0_B V c ⟨n, h⟩ h0 h1]
        dsimp only
        rw [sout0_B_0_eq]
        refine (pay5_apply (xblk V c ⟨n, h⟩) (gwblk V c ⟨n, h⟩) (gsblk V c ⟨n, h⟩) _ p q).trans ?_
        exact congrArg₂ (fun a b : EReal => a + b) hprev (gate_chunk V c ⟨n, h⟩ p q)

/-- After point `n` the up accumulator holds, at row `p` and feature `q`, the chunks `0 … n % 4` of the up
    projection's inner product for that row and feature of the arrays. -/
theorem up_run (c : Dev nD) : ∀ (n : ℕ) (h : n < cfg0.N) (p : Fin 1024) (q : Fin 256),
    (outsAt0 V c n h).2.2 (ix2 p q)
      = ∑ kb ∈ Finset.range (n % 4 + 1), chunkN (xarr V c) (uwarr V c) (usarr V c) (rowN n p) (featN n q) kb := by
  intro n
  induction n using Nat.strong_induction_on with
  | _ n ih =>
    intro h p q
    rw [Finset.sum_range_succ]
    by_cases h0 : n % 4 = 0
    · have h1 : ¬n % 4 = 3 := by omega
      have hA : k0_pay3 (F := Ideal) (ix2 p q) = ∑ kb ∈ Finset.range (n % 4), chunkN (xarr V c) (uwarr V c) (usarr V c) (rowN n p) (featN n q) kb := by
        rw [h0, Finset.range_zero, Finset.sum_empty]
        exact pay3_apply p q
      rw [outsAt0_A V c ⟨n, h⟩ h0 h1]
      dsimp only
      rw [sout0_A_1_eq]
      refine (pay6_apply (xblk V c ⟨n, h⟩) (uwblk V c ⟨n, h⟩) (usblk V c ⟨n, h⟩) _ p q).trans ?_
      exact congrArg₂ (fun a b : EReal => a + b) hA (up_chunk V c ⟨n, h⟩ p q)
    · have hprev : (outsAt0 V c (n - 1) (Nat.lt_of_le_of_lt (Nat.sub_le _ _) h)).2.2 (ix2 p q)
          = ∑ kb ∈ Finset.range (n % 4), chunkN (xarr V c) (uwarr V c) (usarr V c) (rowN n p) (featN n q) kb := by
        rw [ih (n - 1) (by omega) _ p q]
        have e1 : (n - 1) % 4 + 1 = n % 4 := by omega
        have e2 : rowN (n - 1) p = rowN n p := Fin.ext (by show (n - 1) / 172 % 8 * 1024 + p.val = n / 172 % 8 * 1024 + p.val; omega)
        have e3 : featN (n - 1) q = featN n q := Fin.ext (by show (n - 1) / 4 % 43 * 256 + q.val = n / 4 % 43 * 256 + q.val; omega)
        rw [e1, e2, e3]
      by_cases h1 : n % 4 = 3
      · rw [outsAt0_C V c ⟨n, h⟩ h0 h1]
        dsimp only
        rw [sout0_C_1_eq]
        refine (pay6_apply (xblk V c ⟨n, h⟩) (uwblk V c ⟨n, h⟩) (usblk V c ⟨n, h⟩) _ p q).trans ?_
        exact congrArg₂ (fun a b : EReal => a + b) hprev (up_chunk V c ⟨n, h⟩ p q)
      · rw [outsAt0_B V c ⟨n, h⟩ h0 h1]
        dsimp only
        rw [sout0_B_1_eq]
        refine (pay6_apply (xblk V c ⟨n, h⟩) (uwblk V c ⟨n, h⟩) (usblk V c ⟨n, h⟩) _ p q).trans ?_
        exact congrArg₂ (fun a b : EReal => a + b) hprev (up_chunk V c ⟨n, h⟩ p q)

/-! ## What a last-chunk point writes back, and the array at the end -/

/-- At a last-chunk point the stored block holds, at row `p` and feature `q`, the hidden activation of that row and
    feature of the arrays. -/
theorem out_at (c : Dev nD) (t : Fin cfg0.N) (h3 : t.val % 4 = 3) (p : Fin 1024) (q : Fin 256) :
    (outsAt0 V c t.val t.isLt).1 (ix2 p q)
      = Cert.Spec.hiddenAt (xarr V c) (gwarr V c) (gsarr V c) (uwarr V c) (usarr V c) (rowN t.val p) (featN t.val q) := by
  have h0 : ¬t.val % 4 = 0 := by omega
  have e4 : t.val % 4 + 1 = 4 := by omega
  have hg := gate_run V c t.val t.isLt p q
  have hu := up_run V c t.val t.isLt p q
  rw [e4, ← upAt_eq_chunks] at hg hu
  rw [outsAt0_C V c t h0 h3] at hg hu ⊢
  dsimp only at hg hu ⊢
  rw [sout0_C_0_eq] at hg
  rw [sout0_C_1_eq] at hu
  rw [out0_C_eq]
  refine (pay1_apply _ _ p q).trans ?_
  rw [hg, hu]
  rfl

/-- WHAT POINT `t` WRITES BACK is its block of the hidden activation of the arrays the region is entered with. -/
theorem flushed0_eq (c : Dev nD) (t : Fin cfg0.N) (hf : (cfg0.win 5).flush t = true) :
    (dat0 (F := Ideal) V c).flushed 5 t
      = ((cfg0.win 5).blk t).view.read (Elt Ideal) (Cert.Spec.hidden (V c main_v1) (V c main_arg1) (V c main_arg2) (V c main_arg3) (V c main_arg4)) := by
  have h3 : t.val % 4 = 3 := (flush0_5 t).mp hf
  have hN := lt_N t
  obtain ⟨e0, e1⟩ := idx0_5 t
  show (cfg0.win 5).cut (grid0.coords t) ((dat0 (F := Ideal) V c).after 5 t) = _
  rw [after0_5]
  funext j
  obtain ⟨p, q, rfl⟩ : ∃ (p : Fin 1024) (q : Fin 256), j = ix2 p q := ⟨j 0, j 1, eq_ix2 j⟩
  show (outsAt0 V c t.val t.isLt).1 (ix2 p q)
    = Cert.Spec.hidden (xarr V c) (gwarr V c) (gsarr V c) (uwarr V c) (usarr V c) (((cfg0.win 5).blk t).view.emb (ix2 p q))
  rw [out_at V c t h3 p q]
  refine congrArg₂ (Cert.Spec.hiddenAt (xarr V c) (gwarr V c) (gsarr V c) (uwarr V c) (usarr V c)) (Fin.ext ?_) (Fin.ext ?_)
  · show t.val / 172 % 8 * 1024 + p.val = win0_5.index t (0 : Fin 2) * 1024 + 1 * p.val
    rw [e0]; omega
  · show t.val / 4 % 43 * 256 + q.val = win0_5.index t (1 : Fin 2) * 256 + 1 * q.val
    rw [e1]; omega

/-- An index of the output array is in point `t`'s block iff each coordinate is in the block's range on its axis. -/
theorem mem_blk5 (t : Fin cfg0.N) (i : S8192x11008.Idx) :
    i ∈ ((cfg0.win 5).blk t).view.set ↔ ∀ a : Fin 2, win0_5.index t a * S1024x256.size a ≤ (i a).val ∧ (i a).val < win0_5.index t a * S1024x256.size a + S1024x256.size a := by
  show i ∈ ((View.whole main_v2).slice (win0_5.rect t)).set ↔ _
  rw [View.set_slice_whole, Rect.mem_set_unit]
  exact Iff.rfl

/-- Every entry `(n, f)` of the output array is written back at the last chunk of token block `n / 1024` and
    feature block `f / 256`. -/
theorem cover5 (i : S8192x11008.Idx) :
    ∃ t : Fin cfg0.N, (cfg0.win 5).flush t = true ∧ i ∈ ((cfg0.win 5).blk t).view.set := by
  have hi0 : (i 0).val < 8192 := idx2_lt0 i
  have hi1 : (i 1).val < 11008 := idx2_lt1 i
  have hlt : (i 0).val / 1024 * 172 + (i 1).val / 256 * 4 + 3 < cfg0.N := lt_of_lt_of_eq (by omega) N_0.symm
  obtain ⟨e0, e1⟩ := idx0_5 ⟨_, hlt⟩
  refine ⟨⟨_, hlt⟩, (flush0_5 _).mpr (by show ((i 0).val / 1024 * 172 + (i 1).val / 256 * 4 + 3) % 4 = 3; omega), ?_⟩
  rw [mem_blk5]
  intro a
  match a with
  | ⟨0, _⟩ =>
    show win0_5.index _ (0 : Fin 2) * 1024 ≤ (i 0).val ∧ (i 0).val < win0_5.index _ (0 : Fin 2) * 1024 + 1024
    rw [e0]; dsimp only; omega
  | ⟨1, _⟩ =>
    show win0_5.index _ (1 : Fin 2) * 256 ≤ (i 1).val ∧ (i 1).val < win0_5.index _ (1 : Fin 2) * 256 + 256
    rw [e1]; dsimp only; omega

/-- After the region the output array is the hidden activation of the tokens the region found:
    `h[n, f] = (g · σ(g)) · u` with `g = ∑ₖ x[n, k] · (gw[f, k] · gs[f])` and `u = ∑ₖ x[n, k] · (uw[f, k] · us[f])`. -/
theorem arr0 (c : Dev nD) :
    (dat0 (F := Ideal) V c).arrAt 5 cfg0.N
      = Cert.Spec.hidden (V c main_v1) (V c main_arg1) (V c main_arg2) (V c main_arg3) (V c main_arg4) :=
  (dat0 (F := Ideal) V c).arrAt_eq_of_cover 5 _ (fun t hf => flushed0_eq V c t hf) cover5

end Cert.KernelIdeal.Hand

end
-- ==== Proof.R1Pieces.lean ====
import proofs.«149759_j59433757442706_1_alg».proof.Proof.R1Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The down projection's kernel: what each case's stores leave, as the body's own arithmetic

Every store of this body writes a whole buffer, so what a buffer holds after the body is the payload of the last
store into it, a pure function (`k1_pay2`) of the blocks the body loaded and of what the accumulator held. -/

theorem hz2 : (![0, 0] : Fin 2 → Nat) = fun _ => 0 := by funext a; fin_cases a <;> rfl

/-- The first chunk leaves in the accumulator the chunk's product added to the zero block. -/
theorem sout1_A_eq (c : Dev nD) (i : grid1.Coords) (arg3 : Memref sig .tc .vmem S1024x256 .bf16) (harg3 : arg3.IsWhole) (arg4 : Memref sig .tc .vmem S512x256 .i32) (harg4 : arg4.IsWhole) (arg5 : Memref sig .tc .vmem S512x1 .f32) (harg5 : arg5.IsWhole) (arg6 : Memref sig .tc .vmem S1024x512 .f32) (harg6 : arg6.IsWhole) (arg7 : Memref sig .tc .vmem S1024x512 .f32) (harg7 : arg7.IsWhole) (hc0 : cond1_0 i) (hc1 : ¬cond1_1 i) (x0 : Vec F S1024x256 .bf16) (x1 : Vec F S512x256 .i32) (x2 : Vec F S512x1 .f32) :
    sout1_A c i arg3 harg3 arg4 harg4 arg5 harg5 arg6 harg6 arg7 harg7 hc0 hc1 x0 x1 x2 = k1_pay2 x0 x1 x2 (k1_pay1 (F := F)) := by
  unfold sout1_A
  rw [View.read_writes_eq_canon _ _ _ (scover1_A c i arg3 harg3 arg4 harg4 arg5 harg5 arg6 harg6 arg7 harg7 hc0 hc1 x0 x1 x2)]
  unfold kernelRun1_A
  dsimp only
  sl_unfold_words
  rw [View.canon_cons_unit_zero (S := S1024x512) hz2, View.readCov_unit_zero (S := S1024x512) _ hz2]
  simp only [View.readAt_eq_ld, Memref.IsWhole.read_unread, View.ld_unit_zero (S := S1024x256) hz2, View.ld_unit_zero (S := S512x256) hz2, View.ld_unit_zero (S := S512x1) hz2, View.ld_unit_zero (S := S1024x512) hz2]

/-- A middle chunk leaves the chunk's product added to what the accumulator held. -/
theorem sout1_B_eq (c : Dev nD) (i : grid1.Coords) (arg3 : Memref sig .tc .vmem S1024x256 .bf16) (harg3 : arg3.IsWhole) (arg4 : Memref sig .tc .vmem S512x256 .i32) (harg4 : arg4.IsWhole) (arg5 : Memref sig .tc .vmem S512x1 .f32) (harg5 : arg5.IsWhole) (arg6 : Memref sig .tc .vmem S1024x512 .f32) (harg6 : arg6.IsWhole) (arg7 : Memref sig .tc .vmem S1024x512 .f32) (harg7 : arg7.IsWhole) (hc0 : ¬cond1_0 i) (hc1 : ¬cond1_1 i) (x0 : Vec F S1024x256 .bf16) (x1 : Vec F S512x256 .i32) (x2 : Vec F S512x1 .f32) (xs0 : Vec F S1024x512 .f32) :
    sout1_B c i arg3 harg3 arg4 harg4 arg5 harg5 arg6 harg6 arg7 harg7 hc0 hc1 x0 x1 x2 xs0 = k1_pay2 x0 x1 x2 xs0 := by
  unfold sout1_B
  rw [View.read_writes_eq_canon _ _ _ (scover1_B c i arg3 harg3 arg4 harg4 arg5 harg5 arg6 harg6 arg7 harg7 hc0 hc1 x0 x1 x2 xs0)]
  unfold kernelRun1_B
  dsimp only
  sl_unfold_words
  rw [View.canon_unit_zero (S := S1024x512) hz2]
  simp only [View.readAt_eq_ld, Memref.IsWhole.read_unread, View.ld_unit_zero (S := S1024x256) hz2, View.ld_unit_zero (S := S512x256) hz2, View.ld_unit_zero (S := S512x1) hz2, View.ld_unit_zero (S := S1024x512) hz2]

/-- The last chunk leaves the same in the accumulator, -/
theorem sout1_C_eq (c : Dev nD) (i : grid1.Coords) (arg3 : Memref sig .tc .vmem S1024x256 .bf16) (harg3 : arg3.IsWhole) (arg4 : Memref sig .tc .vmem S512x256 .i32) (harg4 : arg4.IsWhole) (arg5 : Memref sig .tc .vmem S512x1 .f32) (harg5 : arg5.IsWhole) (arg6 : Memref sig .tc .vmem S1024x512 .f32) (harg6 : arg6.IsWhole) (arg7 : Memref sig .tc .vmem S1024x512 .f32) (harg7 : arg7.IsWhole) (hc0 : ¬cond1_0 i) (hc1 : cond1_1 i) (x0 : Vec F S1024x256 .bf16) (x1 : Vec F S512x256 .i32) (x2 : Vec F S512x1 .f32) (xs0 : Vec F S1024x512 .f32) :
    sout1_C c i arg3 harg3 arg4 harg4 arg5 harg5 arg6 harg6 arg7 harg7 hc0 hc1 x0 x1 x2 xs0 = k1_pay2 x0 x1 x2 xs0 := by
  unfold sout1_C
  rw [View.read_writes_eq_canon _ _ _ (scover1_C c i arg3 harg3 arg4 harg4 arg5 harg5 arg6 harg6 arg7 harg7 hc0 hc1 x0 x1 x2 xs0)]
  unfold kernelRun1_C
  dsimp only
  sl_unfold_words
  rw [View.canon_unit_zero (S := S1024x512) hz2]
  simp only [View.readAt_eq_ld, Memref.IsWhole.read_unread, View.ld_unit_zero (S := S1024x256) hz2, View.ld_unit_zero (S := S512x256) hz2, View.ld_unit_zero (S := S512x1) hz2, View.ld_unit_zero (S := S1024x512) hz2]

/-- and copies it into the output block. -/
theorem out1_C_eq (c : Dev nD) (i : grid1.Coords) (arg3 : Memref sig .tc .vmem S1024x256 .bf16) (harg3 : arg3.IsWhole) (arg4 : Memref sig .tc .vmem S512x256 .i32) (harg4 : arg4.IsWhole) (arg5 : Memref sig .tc .vmem S512x1 .f32) (harg5 : arg5.IsWhole) (arg6 : Memref sig .tc .vmem S1024x512 .f32) (harg6 : arg6.IsWhole) (arg7 : Memref sig .tc .vmem S1024x512 .f32) (harg7 : arg7.IsWhole) (hc0 : ¬cond1_0 i) (hc1 : cond1_1 i) (x0 : Vec F S1024x256 .bf16) (x1 : Vec F S512x256 .i32) (x2 : Vec F S512x1 .f32) (xs0 : Vec F S1024x512 .f32) :
    out1_C c i arg3 harg3 arg4 harg4 arg5 harg5 arg6 harg6 arg7 harg7 hc0 hc1 x0 x1 x2 xs0 = k1_pay2 x0 x1 x2 xs0 := by
  unfold out1_C
  rw [View.read_writes_eq_canon _ _ _ (cover1_C c i arg3 harg3 arg4 harg4 arg5 harg5 arg6 harg6 arg7 harg7 hc0 hc1 x0 x1 x2 xs0)]
  unfold kernelRun1_C
  dsimp only
  sl_unfold_words
  rw [View.canon_unit_zero (S := S1024x512) hz2, View.readCov_unit_zero (S := S1024x512) _ hz2]
  simp only [View.readAt_eq_ld, Memref.IsWhole.read_unread, View.ld_unit_zero (S := S1024x256) hz2, View.ld_unit_zero (S := S512x256) hz2, View.ld_unit_zero (S := S512x1) hz2, View.ld_unit_zero (S := S1024x512) hz2]

end Cert.KernelIdeal.Hand

end
-- ==== Proof.R1ValueA.lean ====
import proofs.«149759_j59433757442706_1_alg».proof.Proof.R1Pieces
import proofs.«149759_j59433757442706_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
/-! # The chunk update of the down projection, read at one entry -/

/-- Row axis of the left operand: the output's row. -/
theorem lhs_down_0 (i : S1024x512.Idx) (q : dot_S1024x256_S256x512_S1024x512_1_0_0_1_n_n.contr.Idx) :
    (dot_S1024x256_S256x512_S1024x512_1_0_0_1_n_n.lhsIdx i q 0).val = (i 0).val := by
  unfold DotDims.lhsIdx
  rw [dif_neg (show ¬(0 : Fin S1024x256.rank) ∈ dot_S1024x256_S256x512_S1024x512_1_0_0_1_n_n.lhsBatch by decide), dif_pos (show (0 : Fin S1024x256.rank) ∈ dot_S1024x256_S256x512_S1024x512_1_0_0_1_n_n.lhsNonContracting by decide)]
  rfl
/-- Column axis of the left operand: the contraction position. -/
theorem lhs_down_1 (i : S1024x512.Idx) (q : dot_S1024x256_S256x512_S1024x512_1_0_0_1_n_n.contr.Idx) :
    (dot_S1024x256_S256x512_S1024x512_1_0_0_1_n_n.lhsIdx i q 1).val = (q ⟨0, by decide⟩).val :=
  dot_S1024x256_S256x512_S1024x512_1_0_0_1_n_n.lhsIdx_val_of_single rfl i q
/-- Row axis of the right operand: the contraction position. -/
theorem rhs_down_0 (i : S1024x512.Idx) (q : dot_S1024x256_S256x512_S1024x512_1_0_0_1_n_n.contr.Idx) :
    (dot_S1024x256_S256x512_S1024x512_1_0_0_1_n_n.rhsIdx i q 0).val = (q ⟨0, by decide⟩).val :=
  dot_S1024x256_S256x512_S1024x512_1_0_0_1_n_n.rhsIdx_val_of_single rfl i q
/-- Column axis of the right operand: the output's column. -/
theorem rhs_down_1 (i : S1024x512.Idx) (q : dot_S1024x256_S256x512_S1024x512_1_0_0_1_n_n.contr.Idx) :
    (dot_S1024x256_S256x512_S1024x512_1_0_0_1_n_n.rhsIdx i q 1).val = (i 1).val := by
  unfold DotDims.rhsIdx
  rw [dif_neg (show ¬(1 : Fin S256x512.rank) ∈ dot_S1024x256_S256x512_S1024x512_1_0_0_1_n_n.rhsBatch by decide), dif_pos (show (1 : Fin S256x512.rank) ∈ dot_S1024x256_S256x512_S1024x512_1_0_0_1_n_n.rhsNonContracting by decide)]
  rfl

/-- The zero block reads zero everywhere. -/
theorem k1_pay1_apply (p : Fin 1024) (q : Fin 512) : k1_pay1 (F := Ideal) (ix2 p q) = 0 := by
  unfold k1_pay1
  rw [shapeCast_self]
  exact Ideal.ofBits_zero_f32

/-- One chunk's update at entry `(p, q)`: the accumulator's entry plus the chunk's 256 products
    `h[p, k] · (w[q, k] · s[q])`. -/
theorem k1_pay2_apply (x0 : Vec Ideal S1024x256 .bf16) (x1 : Vec Ideal S512x256 .i32) (x2 : Vec Ideal S512x1 .f32)
    (acc : Vec Ideal S1024x512 .f32) (p : Fin 1024) (q : Fin 512) :
    k1_pay2 x0 x1 x2 acc (ix2 p q)
      = acc (ix2 p q) + ∑ k : Fin 256, x0 (ix2 p k) * (FloatOps.sitofp (F := Ideal) .f32 (x1 (ix2 q k)) * x2 (ix2 q (0 : Fin 1))) := by
  unfold k1_pay2
  rw [shapeCast_self, shapeCast_self, addf_apply]
  refine congrArg (acc (ix2 p q) + ·) ?_
  simp only [matmul]
  rw [Ideal.matmul_constant_zero_apply, ← Equiv.sum_comp (contrEquiv1 dot_S1024x256_S256x512_S1024x512_1_0_0_1_n_n 256 rfl rfl).symm]
  refine Finset.sum_congr rfl fun k _ => ?_
  have hk := contrEquiv1_symm_val dot_S1024x256_S256x512_S1024x512_1_0_0_1_n_n 256 rfl rfl k
  have el : dot_S1024x256_S256x512_S1024x512_1_0_0_1_n_n.lhsIdx (ix2 p q) ((contrEquiv1 dot_S1024x256_S256x512_S1024x512_1_0_0_1_n_n 256 rfl rfl).symm k) = (ix2 p k : S1024x256.Idx) := funext fun a => Fin.ext (by
    match a with
    | ⟨0, _⟩ => exact lhs_down_0 _ _
    | ⟨1, _⟩ => exact (lhs_down_1 _ _).trans hk)
  have er : dot_S1024x256_S256x512_S1024x512_1_0_0_1_n_n.rhsIdx (ix2 p q) ((contrEquiv1 dot_S1024x256_S256x512_S1024x512_1_0_0_1_n_n 256 rfl rfl).symm k) = (ix2 k q : S256x512.Idx) := funext fun a => Fin.ext (by
    match a with
    | ⟨0, _⟩ => exact (rhs_down_0 _ _).trans hk
    | ⟨1, _⟩ => exact rhs_down_1 _ _)
  rw [el, er]
  refine congrArg (x0 (ix2 p k) * ·) ?_
  refine (transpose_apply [1, 0] _ transposes_S512x256_p1_0_S256x512 (ix2 k q) (ix2 q k) (fun b => match b with
    | ⟨0, _⟩ => rfl
    | ⟨1, _⟩ => rfl)).trans ?_
  rw [truncf_apply, mulf_apply, sitofp_apply]
  refine congrArg (FloatOps.sitofp (F := Ideal) .f32 (x1 (ix2 q k)) * ·) ?_
  exact broadcastTo_apply x2 broadcasts_S512x1_S512x256 (ix2 q k) (ix2 q (0 : Fin 1)) (fun a => match a with
    | ⟨0, _⟩ => rfl
    | ⟨1, _⟩ => rfl)

/-! # The contraction cut into its 43 chunks of 256 hidden features -/

section Chunks
variable (h : Cert.Spec.T8192x11008.Idx → EReal) (w : Cert.Spec.T4096x11008.Idx → BitVec 32) (s : Cert.Spec.T4096x1.Idx → EReal)

/-- Chunk `kb`'s share of entry `(n, o)` of the down projection: the 256 products over the hidden features
    `256·kb … 256·kb + 255` (zero past the 43 chunks). -/
def downChunk (n : Fin 8192) (o : Fin 4096) (kb : ℕ) : EReal :=
  if hk : kb < 43 then
    ∑ kk : Fin 256, h (ix2 n (⟨kb * 256 + kk.val, by have := kk.isLt; omega⟩ : Fin 11008))
      * Cert.Spec.deq w s o (⟨kb * 256 + kk.val, by have := kk.isLt; omega⟩ : Fin 11008)
  else 0

/-- An entry of the down projection is the sum of its 43 chunks. -/
theorem downAt_eq_chunks (n : Fin 8192) (o : Fin 4096) :
    Cert.Spec.downAt h w s n o = ∑ kb ∈ Finset.range 43, downChunk h w s n o kb := by
  unfold Cert.Spec.downAt
  rw [Finset.sum_range]
  refine (Cert.Spec.sum_blocks 43 256 (fun f : Fin (43 * 256) => h (ix2 n (f : Fin 11008)) * Cert.Spec.deq w s o (f : Fin 11008))).trans ?_
  refine Finset.sum_congr rfl fun kb _ => ?_
  unfold downChunk
  rw [dif_pos kb.isLt]

end Chunks

variable (V : (c : Dev nD) → (b : Ref sig .tc) → Buf (Elt Ideal) ((c : Thread nD τ).loc b))

/-! # The blocks the body loads, read off the arrays -/

/-- The block indices of the four windows at point `t = (i, j, k)`: the hidden activation's block is `(i, k)`, the
    weight's `(j, k)`, the scales' `(j, 0)`, the output's `(i, j)`. -/
theorem idx1_0 : ∀ t : Fin cfg1.N, win1_0.index t (0 : Fin 2) = t.val / 344 ∧ win1_0.index t (1 : Fin 2) = t.val % 43 :=
  (by decide +kernel : ∀ t : Fin grid1.N, _)
theorem idx1_1 : ∀ t : Fin cfg1.N, win1_1.index t (0 : Fin 2) = t.val / 43 % 8 ∧ win1_1.index t (1 : Fin 2) = t.val % 43 :=
  (by decide +kernel : ∀ t : Fin grid1.N, _)
theorem idx1_2 : ∀ t : Fin cfg1.N, win1_2.index t (0 : Fin 2) = t.val / 43 % 8 ∧ win1_2.index t (1 : Fin 2) = 0 :=
  (by decide +kernel : ∀ t : Fin grid1.N, _)
theorem idx1_3 : ∀ t : Fin cfg1.N, win1_3.index t (0 : Fin 2) = t.val / 344 ∧ win1_3.index t (1 : Fin 2) = t.val / 43 % 8 :=
  (by decide +kernel : ∀ t : Fin grid1.N, _)

theorem lt_N1 (t : Fin cfg1.N) : t.val < 2752 := Nat.lt_of_lt_of_eq t.isLt N_1

/-- The three arrays the region reads, as it finds them. -/
abbrev harr (c : Dev nD) : Vec Ideal S8192x11008 .bf16 := V c main_v2
abbrev warr (c : Dev nD) : Vec Ideal S4096x11008 .i32 := V c main_arg5
abbrev sarr (c : Dev nD) : Vec Ideal S4096x1 .f32 := V c main_arg6
/-- Their blocks at point `t`. -/
abbrev hblk (c : Dev nD) (t : Fin cfg1.N) : Vec Ideal S1024x256 .bf16 := iblk1 V c 0 t
abbrev wblk (c : Dev nD) (t : Fin cfg1.N) : Vec Ideal S512x256 .i32 := iblk1 V c 1 t
abbrev sblk (c : Dev nD) (t : Fin cfg1.N) : Vec Ideal S512x1 .f32 := iblk1 V c 2 t

/-- The token row, the output feature and the hidden feature that point `t`'s block coordinates stand for. -/
abbrev tokRow (t : Fin cfg1.N) (p : Fin 1024) : Fin 8192 := ⟨t.val / 344 * 1024 + p.val, by have := lt_N1 t; omega⟩
abbrev outRow (t : Fin cfg1.N) (q : Fin 512) : Fin 4096 := ⟨t.val / 43 % 8 * 512 + q.val, by omega⟩
abbrev hidCol (t : Fin cfg1.N) (k : Fin 256) : Fin 11008 := ⟨t.val % 43 * 256 + k.val, by omega⟩

theorem hblk_apply (c : Dev nD) (t : Fin cfg1.N) (p : Fin 1024) (k : Fin 256) :
    hblk V c t (ix2 p k) = harr V c (ix2 (tokRow t p) (hidCol t k)) := by
  obtain ⟨e0, e1⟩ := idx1_0 t
  unfold hblk iblk1
  rw [View.read_apply]
  show V c main_v2 _ = V c main_v2 _
  refine congrArg (V c main_v2) (funext fun a => Fin.ext ?_)
  match a with
  | ⟨0, _⟩ => show win1_0.index t (0 : Fin 2) * 1024 + 1 * p.val = t.val / 344 * 1024 + p.val; rw [e0]; omega
  | ⟨1, _⟩ => show win1_0.index t (1 : Fin 2) * 256 + 1 * k.val = t.val % 43 * 256 + k.val; rw [e1]; omega

theorem wblk_apply (c : Dev nD) (t : Fin cfg1.N) (q : Fin 512) (k : Fin 256) :
    wblk V c t (ix2 q k) = warr V c (ix2 (outRow t q) (hidCol t k)) := by
  obtain ⟨e0, e1⟩ := idx1_1 t
  unfold wblk iblk1
  rw [View.read_apply]
  show V c main_arg5 _ = V c main_arg5 _
  refine congrArg (V c main_arg5) (funext fun a => Fin.ext ?_)
  match a with
  | ⟨0, _⟩ => show win1_1.index t (0 : Fin 2) * 512 + 1 * q.val = t.val / 43 % 8 * 512 + q.val; rw [e0]; omega
  | ⟨1, _⟩ => show win1_1.index t (1 : Fin 2) * 256 + 1 * k.val = t.val % 43 * 256 + k.val; rw [e1]; omega

theorem sblk_apply (c : Dev nD) (t : Fin cfg1.N) (q : Fin 512) :
    sblk V c t (ix2 q (0 : Fin 1)) = sarr V c (ix2 (outRow t q) (0 : Fin 1)) := by
  obtain ⟨e0, e1⟩ := idx1_2 t
  unfold sblk iblk1
  rw [View.read_apply]
  show V c main_arg6 _ = V c main_arg6 _
  refine congrArg (V c main_arg6) (funext fun a => Fin.ext ?_)
  match a with
  | ⟨0, _⟩ => show win1_2.index t (0 : Fin 2) * 512 + 1 * q.val = t.val / 43 % 8 * 512 + q.val; rw [e0]; omega
  | ⟨1, _⟩ => show win1_2.index t (1 : Fin 2) * 1 + 1 * 0 = 0; rw [e1]

/-! # The accumulator after every point -/

/-- What point `t`'s update adds at entry `(p, q)` of the accumulator is chunk `t % 43` of the entry the block
    coordinates stand for. -/
theorem downChunk_at (c : Dev nD) (t : Fin cfg1.N) (p : Fin 1024) (q : Fin 512) :
    ∑ k : Fin 256, hblk V c t (ix2 p k) * (FloatOps.sitofp (F := Ideal) .f32 (wblk V c t (ix2 q k)) * sblk V c t (ix2 q (0 : Fin 1)))
      = downChunk (harr V c) (warr V c) (sarr V c) (tokRow t p) (outRow t q) (t.val % 43) := by
  unfold downChunk
  rw [dif_pos (Nat.mod_lt _ (by decide))]
  refine Finset.sum_congr rfl fun k _ => ?_
  rw [hblk_apply, wblk_apply, sblk_apply]
  rfl

/-- One more chunk: an accumulator holding the chunks before `t`'s holds, after the update, those up to `t`'s. -/
theorem down_acc_step (c : Dev nD) (t : Fin cfg1.N) (h0 : ¬t.val % 43 = 0) (acc : Vec Ideal S1024x512 .f32) (p : Fin 1024) (q : Fin 512)
    (hacc : acc (ix2 p q) = ∑ kb ∈ Finset.range (t.val % 43), downChunk (harr V c) (warr V c) (sarr V c) (tokRow t p) (outRow t q) kb) :
    k1_pay2 (hblk V c t) (wblk V c t) (sblk V c t) acc (ix2 p q)
      = ∑ kb ∈ Finset.range (t.val % 43 + 1), downChunk (harr V c) (warr V c) (sarr V c) (tokRow t p) (outRow t q) kb := by
  refine (k1_pay2_apply (hblk V c t) (wblk V c t) (sblk V c t) acc p q).trans ?_
  rw [downChunk_at, hacc, Finset.sum_range_succ]

/-- The first chunk: the zero block plus chunk 0. -/
theorem down_acc_first (c : Dev nD) (t : Fin cfg1.N) (h0 : t.val % 43 = 0) (p : Fin 1024) (q : Fin 512) :
    k1_pay2 (hblk V c t) (wblk V c t) (sblk V c t) (k1_pay1 (F := Ideal)) (ix2 p q)
      = ∑ kb ∈ Finset.range (t.val % 43 + 1), downChunk (harr V c) (warr V c) (sarr V c) (tokRow t p) (outRow t q) kb := by
  refine (k1_pay2_apply (hblk V c t) (wblk V c t) (sblk V c t) (k1_pay1 (F := Ideal)) p q).trans ?_
  rw [downChunk_at, k1_pay1_apply, zero_add, h0, Finset.sum_range_one]

/-- Inside one contraction the point before has the same token block and output block, one chunk earlier. -/
theorem tokRow_pred (t : Fin cfg1.N) (h0 : ¬t.val % 43 = 0) (p : Fin 1024) :
    tokRow ⟨t.val - 1, Nat.lt_of_le_of_lt (Nat.sub_le _ _) t.isLt⟩ p = tokRow t p :=
  Fin.ext (by show (t.val - 1) / 344 * 1024 + p.val = t.val / 344 * 1024 + p.val; omega)
theorem outRow_pred (t : Fin cfg1.N) (h0 : ¬t.val % 43 = 0) (q : Fin 512) :
    outRow ⟨t.val - 1, Nat.lt_of_le_of_lt (Nat.sub_le _ _) t.isLt⟩ q = outRow t q :=
  Fin.ext (by show (t.val - 1) / 43 % 8 * 512 + q.val = t.val / 43 % 8 * 512 + q.val; omega)

/-- THE ACCUMULATOR after point `t = (i, j, k)` holds, at `(p, q)`, chunks `0 … k` of entry
    `(1024·i + p, 512·j + q)` of the down projection. -/
theorem down_acc_eq (c : Dev nD) : ∀ (n : ℕ) (t : Fin cfg1.N), t.val = n → ∀ (p : Fin 1024) (q : Fin 512),
    (outsAt1 V c t.val t.isLt).2 (ix2 p q)
      = ∑ kb ∈ Finset.range (t.val % 43 + 1), downChunk (harr V c) (warr V c) (sarr V c) (tokRow t p) (outRow t q) kb := by
  intro n
  induction n using Nat.strong_induction_on with
  | _ n ih =>
    intro t ht p q
    by_cases h0 : t.val % 43 = 0
    · have h1 : ¬t.val % 43 = 42 := by omega
      rw [outsAt1_A V c t h0 h1]
      dsimp only
      refine (congrFun (sout1_A_eq (F := Ideal) c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (hblk V c t) (wblk V c t) (sblk V c t)) (ix2 p q)).trans ?_
      exact down_acc_first V c t h0 p q
    · have hprev := ih (t.val - 1) (by omega) ⟨t.val - 1, Nat.lt_of_le_of_lt (Nat.sub_le _ _) t.isLt⟩ rfl p q
      rw [tokRow_pred t h0 p, outRow_pred t h0 q] at hprev
      have hprev' : (outsAt1 V c (t.val - 1) (Nat.lt_of_le_of_lt (Nat.sub_le _ _) t.isLt)).2 (ix2 p q)
          = ∑ kb ∈ Finset.range (t.val % 43), downChunk (harr V c) (warr V c) (sarr V c) (tokRow t p) (outRow t q) kb := by
        refine hprev.trans ?_
        rw [show (t.val - 1) % 43 + 1 = t.val % 43 by omega]
      by_cases h1 : t.val % 43 = 42
      · rw [outsAt1_C V c t h0 h1]
        dsimp only
        refine (congrFun (sout1_C_eq (F := Ideal) c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (hblk V c t) (wblk V c t) (sblk V c t) (outsAt1 V c (t.val - 1) (Nat.lt_of_le_of_lt (Nat.sub_le _ _) t.isLt)).2) (ix2 p q)).trans ?_
        exact down_acc_step V c t h0 _ p q hprev'
      · rw [outsAt1_B V c t h0 h1]
        dsimp only
        refine (congrFun (sout1_B_eq (F := Ideal) c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (hblk V c t) (wblk V c t) (sblk V c t) (outsAt1 V c (t.val - 1) (Nat.lt_of_le_of_lt (Nat.sub_le _ _) t.isLt)).2) (ix2 p q)).trans ?_
        exact down_acc_step V c t h0 _ p q hprev'

/-- At the last chunk the output block's staging buffer gets the whole entry: all 43 chunks. -/
theorem down_out_last (c : Dev nD) (t : Fin cfg1.N) (h1 : t.val % 43 = 42) (p : Fin 1024) (q : Fin 512) :
    (outsAt1 V c t.val t.isLt).1 (ix2 p q) = ∑ kb ∈ Finset.range 43, downChunk (harr V c) (warr V c) (sarr V c) (tokRow t p) (outRow t q) kb := by
  have h0 : ¬t.val % 43 = 0 := by omega
  have hprev := down_acc_eq V c (t.val - 1) ⟨t.val - 1, Nat.lt_of_le_of_lt (Nat.sub_le _ _) t.isLt⟩ rfl p q
  rw [tokRow_pred t h0 p, outRow_pred t h0 q] at hprev
  have hprev' : (outsAt1 V c (t.val - 1) (Nat.lt_of_le_of_lt (Nat.sub_le _ _) t.isLt)).2 (ix2 p q)
      = ∑ kb ∈ Finset.range (t.val % 43), downChunk (harr V c) (warr V c) (sarr V c) (tokRow t p) (outRow t q) kb := by
    refine hprev.trans ?_
    rw [show (t.val - 1) % 43 + 1 = t.val % 43 by omega]
  rw [outsAt1_C V c t h0 h1]
  dsimp only
  refine (congrFun (out1_C_eq (F := Ideal) c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (hblk V c t) (wblk V c t) (sblk V c t) (outsAt1 V c (t.val - 1) (Nat.lt_of_le_of_lt (Nat.sub_le _ _) t.isLt)).2) (ix2 p q)).trans ?_
  refine (down_acc_step V c t h0 _ p q hprev').trans ?_
  rw [h1]

end Cert.KernelIdeal.Hand

end
-- ==== Proof.R1Value.lean ====
import proofs.«149759_j59433757442706_1_alg».proof.Proof.R1Pieces
import proofs.«149759_j59433757442706_1_alg».proof.Proof.R1ValueA
import proofs.«149759_j59433757442706_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-! # The down projection's region: what its output array holds at the end, over the extended reals -/

/-- The down projection at an index whose coordinates are `n` and `o`. -/
theorem down_at_coords (h : Cert.Spec.T8192x11008.Idx → EReal) (w : Cert.Spec.T4096x11008.Idx → BitVec 32) (s : Cert.Spec.T4096x1.Idx → EReal)
    (i : Cert.Spec.T8192x4096.Idx) (n : Fin 8192) (o : Fin 4096) (hn : (i 0).val = n.val) (ho : (i 1).val = o.val) :
    Cert.Spec.down h w s i = Cert.Spec.downAt h w s n o := by
  unfold Cert.Spec.down
  exact congrArg₂ (Cert.Spec.downAt h w s) (Fin.ext hn) (Fin.ext ho)

variable (V : (c : Dev nD) → (b : Ref sig .tc) → Buf (Elt Ideal) ((c : Thread nD τ).loc b))

/-! # From the blocks written back to the array -/

/-- WHAT POINT `t` WRITES BACK, at a last chunk, is its block of the down projection of the arrays the region found. -/
theorem flushed3_eq (c : Dev nD) (t : Fin cfg1.N) (hf : (cfg1.win 3).flush t = true) :
    (dat1 (F := Ideal) V c).flushed 3 t = ((cfg1.win 3).blk t).view.read (Elt Ideal) (Cert.Spec.down (V c main_v2) (V c main_arg5) (V c main_arg6)) := by
  have h1 : t.val % 43 = 42 := (flush1_3 t).mp hf
  obtain ⟨e0, e1⟩ := idx1_3 t
  show (cfg1.win 3).cut (grid1.coords t) ((dat1 (F := Ideal) V c).after 3 t) = _
  rw [after1_3]
  funext j
  rw [View.read_apply]
  revert j
  show ∀ j : S1024x512.Idx, (outsAt1 V c t.val t.isLt).1 j = Cert.Spec.down (V c main_v2) (V c main_arg5) (V c main_arg6) (((cfg1.win 3).blk t).view.emb j)
  intro j
  obtain ⟨p, q, rfl⟩ : ∃ (p : Fin 1024) (q : Fin 512), j = ix2 p q := ⟨j 0, j 1, eq_ix2 j⟩
  rw [down_out_last V c t h1 p q, ← downAt_eq_chunks]
  exact (down_at_coords (V c main_v2) (V c main_arg5) (V c main_arg6) (((cfg1.win 3).blk t).view.emb (ix2 p q)) (tokRow t p) (outRow t q)
    (by show win1_3.index t (0 : Fin 2) * 1024 + 1 * p.val = t.val / 344 * 1024 + p.val; rw [e0]; omega)
    (by show win1_3.index t (1 : Fin 2) * 512 + 1 * q.val = t.val / 43 % 8 * 512 + q.val; rw [e1]; omega)).symm

/-- An index of the output array is in point `t`'s block iff each coordinate is in the block's range on its axis. -/
theorem mem_blk3 (t : Fin cfg1.N) (i : S8192x4096.Idx) :
    i ∈ ((cfg1.win 3).blk t).view.set ↔ ∀ a : Fin 2, win1_3.index t a * S1024x512.size a ≤ (i a).val ∧ (i a).val < win1_3.index t a * S1024x512.size a + S1024x512.size a := by
  show i ∈ ((View.whole main_v3).slice (win1_3.rect t)).set ↔ _
  rw [View.set_slice_whole, Rect.mem_set_unit]
  exact Iff.rfl

/-- Every entry `(n, o)` of the output array is in the block written back at the last chunk of token block
    `n / 1024` and output block `o / 512`. -/
theorem cover3 (i : S8192x4096.Idx) : ∃ t : Fin cfg1.N, (cfg1.win 3).flush t = true ∧ i ∈ ((cfg1.win 3).blk t).view.set := by
  have hi0 : (i 0).val < 8192 := idx2_lt0 i
  have hi1 : (i 1).val < 4096 := idx2_lt1 i
  have hlt : (i 0).val / 1024 * 344 + (i 1).val / 512 * 43 + 42 < cfg1.N := Nat.lt_of_lt_of_eq (by omega) N_1.symm
  obtain ⟨e0, e1⟩ := idx1_3 ⟨(i 0).val / 1024 * 344 + (i 1).val / 512 * 43 + 42, hlt⟩
  refine ⟨⟨(i 0).val / 1024 * 344 + (i 1).val / 512 * 43 + 42, hlt⟩, (flush1_3 _).mpr (by show ((i 0).val / 1024 * 344 + (i 1).val / 512 * 43 + 42) % 43 = 42; omega), ?_⟩
  rw [mem_blk3]
  intro a
  match a with
  | ⟨0, _⟩ =>
    show win1_3.index ⟨(i 0).val / 1024 * 344 + (i 1).val / 512 * 43 + 42, hlt⟩ (0 : Fin 2) * 1024 ≤ (i 0).val ∧ (i 0).val < win1_3.index ⟨(i 0).val / 1024 * 344 + (i 1).val / 512 * 43 + 42, hlt⟩ (0 : Fin 2) * 1024 + 1024
    rw [e0]
    show ((i 0).val / 1024 * 344 + (i 1).val / 512 * 43 + 42) / 344 * 1024 ≤ (i 0).val ∧ (i 0).val < ((i 0).val / 1024 * 344 + (i 1).val / 512 * 43 + 42) / 344 * 1024 + 1024
    omega
  | ⟨1, _⟩ =>
    show win1_3.index ⟨(i 0).val / 1024 * 344 + (i 1).val / 512 * 43 + 42, hlt⟩ (1 : Fin 2) * 512 ≤ (i 1).val ∧ (i 1).val < win1_3.index ⟨(i 0).val / 1024 * 344 + (i 1).val / 512 * 43 + 42, hlt⟩ (1 : Fin 2) * 512 + 512
    rw [e1]
    show ((i 0).val / 1024 * 344 + (i 1).val / 512 * 43 + 42) / 43 % 8 * 512 ≤ (i 1).val ∧ (i 1).val < ((i 0).val / 1024 * 344 + (i 1).val / 512 * 43 + 42) / 43 % 8 * 512 + 512
    omega

/-- After the region the output array is the down projection of the hidden activation the region found:
    `out[n, o] = ∑_f h[n, f] · (w[o, f] · s[o])`. -/
theorem arr1 (c : Dev nD) :
    (dat1 (F := Ideal) V c).arrAt 3 cfg1.N = Cert.Spec.down (V c main_v2) (V c main_arg5) (V c main_arg6) :=
  (dat1 (F := Ideal) V c).arrAt_eq_of_cover 3 (Cert.Spec.down (V c main_v2) (V c main_arg5) (V c main_arg6)) (fun t hf => flushed3_eq V c t hf) (cover3)

end Cert.KernelIdeal.Hand

end
-- ==== Proof.RefIsSpec.lean ====
import proofs.«149759_j59433757442706_1_alg».proof.Proof.Gen.ReferenceIdeal.Read
import proofs.«149759_j59433757442706_1_alg».proof.Proof.Spec
import Idealize.ShloMosaic.Lib.ValueIdx
import Idealize.ShloMosaic.Lib.IdealHost
import Idealize.ShloMosaic.PureOps.Ideal.Laws

set_option maxRecDepth 16384

noncomputable section

open scoped BigOperators

namespace Cert.ReferenceIdeal.RefValue

open Cert.ReferenceIdeal Cert.ReferenceIdeal.Gen Cert.ReferenceIdeal.Read
open Idealize.ShloMosaic Idealize.ShloMosaic.TcCoe Idealize.ShloMosaic.ValueIdx Idealize.SL.Sem

/-! # The reference's stages are the block's whole-array functions -/

/-- The reference's gate product, entry `(n, f)`: the contraction of row `n` of the tokens with the transposed
    dequantized gate weight is `∑ₖ x[n, k] · (w[f, k] · s[f])`. -/
theorem gate_eq (x0 : (⟨S4x2048x4096, .f32⟩ : BufTy).Contents (Elt Ideal)) (x1 : (⟨S11008x4096, .i32⟩ : BufTy).Contents (Elt Ideal))
    (x2 : (⟨S11008x1, .f32⟩ : BufTy).Contents (Elt Ideal)) (i : S8192x11008.Idx) :
    val_main_v5 (F := Ideal) x0 x1 x2 i
      = Cert.Spec.upAt (val_main_v0 (F := Ideal) x0) x1 x2 ⟨(i 0).val, (i 0).isLt⟩ ⟨(i 1).val, (i 1).isLt⟩ := by
  rw [val_main_v5_apply]
  unfold Cert.Spec.upAt
  refine Finset.sum_congr rfl fun k _ => ?_
  rw [val_main_v4_apply, val_main_v3_apply, val_main_v1_apply, val_main_v2_apply]
  unfold Cert.Spec.deq
  have e1 : lidx_main_v5 i k = ix2 (⟨(i 0).val, (i 0).isLt⟩ : Fin 8192) k :=
    funext fun a => Fin.ext (by match a with | ⟨0, _⟩ => rfl | ⟨1, _⟩ => rfl)
  have e2 : idx_main_v4 (ridx_main_v5 i k) = ix2 (⟨(i 1).val, (i 1).isLt⟩ : Fin 11008) k :=
    funext fun a => Fin.ext (by match a with | ⟨0, _⟩ => rfl | ⟨1, _⟩ => rfl)
  have e3 : idx_main_v2 (idx_main_v4 (ridx_main_v5 i k)) = ix2 (⟨(i 1).val, (i 1).isLt⟩ : Fin 11008) (0 : Fin 1) :=
    funext fun a => Fin.ext (by match a with | ⟨0, _⟩ => rfl | ⟨1, _⟩ => rfl)
  rw [e1, e2, e3]
  rfl

/-- The reference's up product, entry `(n, f)`: the same contraction with the up weight and its scales. -/
theorem up_eq (x0 : (⟨S4x2048x4096, .f32⟩ : BufTy).Contents (Elt Ideal)) (x3 : (⟨S11008x4096, .i32⟩ : BufTy).Contents (Elt Ideal))
    (x4 : (⟨S11008x1, .f32⟩ : BufTy).Contents (Elt Ideal)) (i : S8192x11008.Idx) :
    val_main_v10 (F := Ideal) x0 x3 x4 i
      = Cert.Spec.upAt (val_main_v0 (F := Ideal) x0) x3 x4 ⟨(i 0).val, (i 0).isLt⟩ ⟨(i 1).val, (i 1).isLt⟩ := by
  rw [val_main_v10_apply]
  unfold Cert.Spec.upAt
  refine Finset.sum_congr rfl fun k _ => ?_
  rw [val_main_v9_apply, val_main_v8_apply, val_main_v6_apply, val_main_v7_apply]
  unfold Cert.Spec.deq
  have e1 : lidx_main_v10 i k = ix2 (⟨(i 0).val, (i 0).isLt⟩ : Fin 8192) k :=
    funext fun a => Fin.ext (by match a with | ⟨0, _⟩ => rfl | ⟨1, _⟩ => rfl)
  have e2 : idx_main_v9 (ridx_main_v10 i k) = ix2 (⟨(i 1).val, (i 1).isLt⟩ : Fin 11008) k :=
    funext fun a => Fin.ext (by match a with | ⟨0, _⟩ => rfl | ⟨1, _⟩ => rfl)
  have e3 : idx_main_v7 (idx_main_v9 (ridx_main_v10 i k)) = ix2 (⟨(i 1).val, (i 1).isLt⟩ : Fin 11008) (0 : Fin 1) :=
    funext fun a => Fin.ext (by match a with | ⟨0, _⟩ => rfl | ⟨1, _⟩ => rfl)
  rw [e1, e2, e3]
  rfl

/-- The reference's sigmoid, spelt `1 / (1 + e^(-g))` with the two constants `1.0`, is the logistic function of the
    extended reals at every entry. -/
theorem sigmoid_eq (x0 : (⟨S4x2048x4096, .f32⟩ : BufTy).Contents (Elt Ideal)) (x1 : (⟨S11008x4096, .i32⟩ : BufTy).Contents (Elt Ideal))
    (x2 : (⟨S11008x1, .f32⟩ : BufTy).Contents (Elt Ideal)) (i : S8192x11008.Idx) :
    val_main_call0_v5 (F := Ideal) x0 x1 x2 i = Ideal.logistic (val_main_v5 (F := Ideal) x0 x1 x2 i) := by
  rw [val_main_call0_v5_apply, val_main_call0_v4_apply, val_main_call0_cst_0_apply, val_main_call0_v3_apply,
    val_main_call0_v2_apply, val_main_call0_cst_apply, val_main_call0_v1_apply, val_main_call0_v0_apply,
    Ideal.ofBits_def, Ideal.ofBits_one_f32]
  rfl

/-- The reference's hidden activation (its `silu(gate) · up`, the sigmoid spelt `1 / (1 + e^(-g))`) is the
    specification's, of the flattened tokens. -/
theorem hidden_eq (x0 : (⟨S4x2048x4096, .f32⟩ : BufTy).Contents (Elt Ideal)) (x1 : (⟨S11008x4096, .i32⟩ : BufTy).Contents (Elt Ideal))
    (x2 : (⟨S11008x1, .f32⟩ : BufTy).Contents (Elt Ideal)) (x3 : (⟨S11008x4096, .i32⟩ : BufTy).Contents (Elt Ideal))
    (x4 : (⟨S11008x1, .f32⟩ : BufTy).Contents (Elt Ideal)) :
    val_main_v12 (F := Ideal) x0 x1 x2 x3 x4 = Cert.Spec.hidden (val_main_v0 (F := Ideal) x0) x1 x2 x3 x4 := by
  funext i
  rw [val_main_v12_apply, val_main_v11_apply, sigmoid_eq, gate_eq, up_eq]
  rfl

/-- The reference's last product is the specification's down projection of its hidden activation. -/
theorem down_eq (x0 : (⟨S4x2048x4096, .f32⟩ : BufTy).Contents (Elt Ideal)) (x1 : (⟨S11008x4096, .i32⟩ : BufTy).Contents (Elt Ideal))
    (x2 : (⟨S11008x1, .f32⟩ : BufTy).Contents (Elt Ideal)) (x3 : (⟨S11008x4096, .i32⟩ : BufTy).Contents (Elt Ideal))
    (x4 : (⟨S11008x1, .f32⟩ : BufTy).Contents (Elt Ideal)) (x5 : (⟨S4096x11008, .i32⟩ : BufTy).Contents (Elt Ideal))
    (x6 : (⟨S4096x1, .f32⟩ : BufTy).Contents (Elt Ideal)) :
    val_main_v17 (F := Ideal) x0 x1 x2 x3 x4 x5 x6 = Cert.Spec.down (val_main_v12 (F := Ideal) x0 x1 x2 x3 x4) x5 x6 := by
  funext i
  rw [val_main_v17_apply]
  unfold Cert.Spec.down Cert.Spec.downAt
  refine Finset.sum_congr rfl fun k _ => ?_
  rw [val_main_v16_apply, val_main_v15_apply, val_main_v13_apply, val_main_v14_apply]
  unfold Cert.Spec.deq
  have e1 : lidx_main_v17 i k = ix2 (⟨(i 0).val, (i 0).isLt⟩ : Fin 8192) k :=
    funext fun a => Fin.ext (by match a with | ⟨0, _⟩ => rfl | ⟨1, _⟩ => rfl)
  have e2 : idx_main_v16 (ridx_main_v17 i k) = ix2 (⟨(i 1).val, (i 1).isLt⟩ : Fin 4096) k :=
    funext fun a => Fin.ext (by match a with | ⟨0, _⟩ => rfl | ⟨1, _⟩ => rfl)
  have e3 : idx_main_v14 (idx_main_v16 (ridx_main_v17 i k)) = ix2 (⟨(i 1).val, (i 1).isLt⟩ : Fin 4096) (0 : Fin 1) :=
    funext fun a => Fin.ext (by match a with | ⟨0, _⟩ => rfl | ⟨1, _⟩ => rfl)
  rw [e1, e2, e3]
  rfl

end Cert.ReferenceIdeal.RefValue

end
-- ==== Proof.Bridge.lean ====
import proofs.«149759_j59433757442706_1_alg».proof.Proof.Run
import proofs.«149759_j59433757442706_1_alg».proof.Proof.R0Value
import proofs.«149759_j59433757442706_1_alg».proof.Proof.R1Value
import proofs.«149759_j59433757442706_1_alg».proof.Proof.RefIsSpec
import Idealize.ShloMosaic.Lib.StableHlo.Run

set_option maxRecDepth 16384

noncomputable section

open scoped BigOperators

namespace Cert.KernelIdeal.Hand

open Cert.KernelIdeal Cert.KernelIdeal.Gen
open Idealize.ShloMosaic Idealize.ShloMosaic.TcCoe
open Idealize.SL Idealize.SL.Sem

/-! # The kernel program's result is the reference's function of the arguments

Over the extended reals a change of float format is the identity, so the narrowed tokens are the flattened tokens;
the first launch leaves the hidden activation, the second its down projection, and the last host line reshapes it:
the stages of the reference, one for one. -/

variable (m : (ℓ : Loc nD τ sig) → Buf (Elt Ideal) ℓ)

/-- The tokens as the first launch finds them: flattened to 8192 rows (narrowing them changes nothing here). -/
theorem V1_tokens (c : Dev nD) :
    V1 m c main_v1 = Cert.ReferenceIdeal.Read.val_main_v0 (F := Ideal) (m ((c : Thread nD τ).loc main_arg0)) := by
  show StableHlo.after hostOps0 (fun b => m (c, b)) (Proc.devRef .tc main_v1) = _
  after_results
  rfl

/-- The host lines before the first launch write none of the weights or scales. -/
theorem V1_arg1 (c : Dev nD) : V1 m c main_arg1 = m ((c : Thread nD τ).loc main_arg1) :=
  StableHlo.after_of_writes_sub hostOps0 _ hostOps0_writes (r := main_arg1) (by decide)
theorem V1_arg2 (c : Dev nD) : V1 m c main_arg2 = m ((c : Thread nD τ).loc main_arg2) :=
  StableHlo.after_of_writes_sub hostOps0 _ hostOps0_writes (r := main_arg2) (by decide)
theorem V1_arg3 (c : Dev nD) : V1 m c main_arg3 = m ((c : Thread nD τ).loc main_arg3) :=
  StableHlo.after_of_writes_sub hostOps0 _ hostOps0_writes (r := main_arg3) (by decide)
theorem V1_arg4 (c : Dev nD) : V1 m c main_arg4 = m ((c : Thread nD τ).loc main_arg4) :=
  StableHlo.after_of_writes_sub hostOps0 _ hostOps0_writes (r := main_arg4) (by decide)
/-- Nor does the first launch touch the down projection's weight and scales. -/
theorem V2_arg5 (c : Dev nD) : V2 m c main_arg5 = m ((c : Thread nD τ).loc main_arg5) :=
  (W2_of_ne m c main_arg5 (by decide)).trans (StableHlo.after_of_writes_sub hostOps0 _ hostOps0_writes (r := main_arg5) (by decide))
theorem V2_arg6 (c : Dev nD) : V2 m c main_arg6 = m ((c : Thread nD τ).loc main_arg6) :=
  (W2_of_ne m c main_arg6 (by decide)).trans (StableHlo.after_of_writes_sub hostOps0 _ hostOps0_writes (r := main_arg6) (by decide))

/-- The hidden activation the second launch finds is the reference's. -/
theorem V2_hidden (c : Dev nD) :
    V2 m c main_v2 = Cert.ReferenceIdeal.Read.val_main_v12 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) := by
  rw [Cert.ReferenceIdeal.RefValue.hidden_eq]
  refine (W2_arr m c 5).trans ?_
  rw [arr0 (V1 m) c, V1_tokens, V1_arg1, V1_arg2, V1_arg3, V1_arg4]

/-- The second launch leaves the reference's last product. -/
theorem V3_out (c : Dev nD) :
    V3 m c main_v3 = Cert.ReferenceIdeal.Read.val_main_v17 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) := by
  rw [Cert.ReferenceIdeal.RefValue.down_eq]
  refine (W3_arr m c 3).trans ?_
  rw [arr1 (V2 m) c, V2_hidden, V2_arg5, V2_arg6]

/-- THE RESULT: the kernel program's result buffer ends at the reference's composed term of the arguments. -/
theorem result_eq (c : Dev nD) :
    W4 m c (Proc.devRef .tc main_v4) = Cert.ReferenceIdeal.Read.val_main_v18 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) := by
  have e : W4 m c (Proc.devRef .tc main_v4) = shapeCast S4x2048x4096 (V3 m c main_v3) shapeCasts_S8192x4096_S4x2048x4096 := by
    show StableHlo.after hostOps2 (W3 m c) (Proc.devRef .tc main_v4) = _
    after_results
    rfl
  rw [e, V3_out]
  rfl

end Cert.KernelIdeal.Hand

end
-- ==== Proof.lean ====
import proofs.«149759_j59433757442706_1_alg».proof.Defs
import proofs.«149759_j59433757442706_1_alg».proof.Proof.Gen.Kernel
import proofs.«149759_j59433757442706_1_alg».proof.Proof.Gen.KernelIdeal
import proofs.«149759_j59433757442706_1_alg».proof.Proof.Gen.ReferenceIdeal
import proofs.«149759_j59433757442706_1_alg».proof.Proof.Gen.ReferenceIdeal.Run
import proofs.«149759_j59433757442706_1_alg».proof.Proof.Gen.Pre_finite_inputs
import proofs.«149759_j59433757442706_1_alg».proof.Proof.Bits.Run
import proofs.«149759_j59433757442706_1_alg».proof.Proof.Run
import proofs.«149759_j59433757442706_1_alg».proof.Proof.Bridge
import Idealize.ShloMosaic.Adequacy
import Idealize.ShloMosaic.Init

/-!
# An int-dequantized SwiGLU block against its reference, over the extended reals

The kernel program flattens the tokens to `x : [8192, 4096]` and runs two launches. The first computes, block by
block and accumulating over four chunks of the 4096 model features, the gate and up projections
`g = x · (gw · gs)ᵀ`, `u = x · (uw · us)ᵀ` (each weight an integer matrix with one scale per row), and stores the
hidden activation `h = (g · σ(g)) · u`. The second accumulates, over 43 chunks of the 11008 hidden features, the
down projection `h · (dw · ds)ᵀ`. The reference computes the same three products whole, with `σ(g)` spelt
`1 / (1 + e^(-g))`.

Over the extended reals a format change is the identity, a product into a zero accumulator is the plain sum, the
logistic function is that quotient, and a sum cut into consecutive chunks and added up chunk by chunk is the whole
sum (addition is commutative and associative there, infinities included): so the two programs are one function of
their arguments, and the precondition is never opened.

* Each launch's frame: the body's three cases (first chunk, middle chunk, last chunk) run on whole staging buffers,
  the accumulators carried from point to point by the region's invariant; the two regions and the host lines around
  them composed in order.
* The value: what each accumulator holds after each point is a partial sum over the chunks so far; the block written
  back at the last chunk is the block of the whole-array function; the blocks cover the array.
* The reference: its stages read at an index are the same whole-array functions.
-/

noncomputable section

namespace Cert.Proof

open Idealize.ShloMosaic Idealize.ShloMosaic.TcCoe Idealize.SL.Sem

/-- The word-level program runs to the end and leaves its arguments as launched. -/
theorem frame_k : Cert.frame_Kernel (hKernel := Cert.Kernel.Gen.facts) (hPre_finite_inputs := Cert.Pre_finite_inputs.Gen.facts) :=
  fun m ρ _ => Cert.Kernel.Hand.frame m ρ

/-- So does its reading over the extended reals. -/
theorem frame_ki : Cert.frame_KernelIdeal (hKernelIdeal := Cert.KernelIdeal.Gen.facts) (hPre_finite_inputs := Cert.Pre_finite_inputs.Gen.facts) :=
  fun m ρ _ => Cert.KernelIdeal.Hand.frame m ρ

/-- The reference is host operations only: its run, with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories agreeing on the arguments both programs end at the reference's composed term of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Hand.W4 m c (Proc.devRef .tc Cert.KernelIdeal.main_v4), Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  show _ = Cert.KernelIdeal.Hand.W4 m c (Proc.devRef .tc Cert.KernelIdeal.main_v4)
  rw [Cert.KernelIdeal.Hand.result_eq m c, (hagree c).1, (hagree c).2.1, (hagree c).2.2.1, (hagree c).2.2.2.1, (hagree c).2.2.2.2.1,
    (hagree c).2.2.2.2.2.1, (hagree c).2.2.2.2.2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
